-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S8x32768 .f32 .bf16
  ∧ IdealRules.truncf_extf.Statement Cert.KernelIdeal.S8x32768 .f32 .bf16
  ∧ IdealRules.truncf_extf.Statement Cert.KernelIdeal.S8x32768 .f32 .bf16
  ∧ IdealRules.truncf_extf.Statement Cert.KernelIdeal.S8x32768 .f32 .bf16
  ∧ IdealRules.truncf_extf.Statement Cert.KernelIdeal.S8x32x32768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x512x1024 : Shape := ⟨4, ![16, 2, 512, 1024]⟩
abbrev S16x512x1024 : Shape := ⟨3, ![16, 512, 1024]⟩
abbrev S_ : Shape := ⟨0, ![]⟩

class Facts : Prop where
  bcast_S_S16x2x512x1024 : S_.BroadcastsInDim S16x2x512x1024 (![] : Fin 0 → Fin S16x2x512x1024.rank)
  reducesTo_S16x2x512x1024_S_d0_1_2_3 : S16x2x512x1024.ReducesTo [0, 1, 2, 3] S_
  h_S_ : 0 < S_.numel
  bcast_S_S16x512x1024 : S_.BroadcastsInDim S16x512x1024 (![] : Fin 0 → Fin S16x512x1024.rank)
  reducesTo_S16x512x1024_S_d0_1_2 : S16x512x1024.ReducesTo [0, 1, 2] S_

variable [Facts]

def fn {F : FTy → Type} [FloatOps F] (main_arg0 : FVec F S16x2x512x1024 .f32) (main_arg1 : IVec S16x512x1024 32) : IVec S_ 1 :=
  let main_v0 : FVec F S16x2x512x1024 .f32 := Host.absf main_arg0
  let main_cst : FVec F S_ .f32 := constant S_ .f32 0x7F800000#32
  let main_v1 : FVec F S16x2x512x1024 .f32 := broadcastInDim S16x2x512x1024 ![] bcast_S_S16x2x512x1024 main_cst
  let main_v2 : IVec S16x2x512x1024 1 := cmpf .olt main_v0 main_v1
  let main_c : IVec S_ 1 := constantI S_ 1 1#1
  let main_v3 : IVec S_ 1 := (fun x v => Host.reduce IntOp.andi x v reducesTo_S16x2x512x1024_S_d0_1_2_3 h_S_) main_v2 main_c
  let main_c_0 : IVec S_ 32 := constantI S_ 32 0#32
  let main_v4 : IVec S16x512x1024 32 := broadcastInDim S16x512x1024 ![] bcast_S_S16x512x1024 main_c_0
  let main_v5 : IVec S16x512x1024 1 := cmpi .sge main_arg1 main_v4
  let main_c_1 : IVec S_ 1 := constantI S_ 1 1#1
  let main_v6 : IVec S_ 1 := (fun x v => Host.reduce IntOp.andi x v reducesTo_S16x512x1024_S_d0_1_2 h_S_) main_v5 main_c_1
  let main_v7 : IVec S_ 1 := andi main_v3 main_v6
  let main_c_2 : IVec S_ 32 := constantI S_ 32 32#32
  let main_v8 : IVec S16x512x1024 32 := broadcastInDim S16x512x1024 ![] bcast_S_S16x512x1024 main_c_2
  let main_v9 : IVec S16x512x1024 1 := cmpi .slt main_arg1 main_v8
  let main_c_3 : IVec S_ 1 := constantI S_ 1 1#1
  let main_v10 : IVec S_ 1 := (fun x v => Host.reduce IntOp.andi x v reducesTo_S16x512x1024_S_d0_1_2 h_S_) main_v9 main_c_3
  let main_v11 : IVec S_ 1 := andi main_v7 main_v10
  main_v11
-- ==== Kernel.lean ====
abbrev S16x2x512x1024 : Shape := ⟨4, ![16, 2, 512, 1024]⟩
abbrev S16x512x1024 : Shape := ⟨3, ![16, 512, 1024]⟩
abbrev S16x2x524288 : Shape := ⟨3, ![16, 2, 524288]⟩
abbrev S16x524288 : Shape := ⟨2, ![16, 524288]⟩
abbrev S16x8x32 : Shape := ⟨3, ![16, 8, 32]⟩
abbrev S16x32 : Shape := ⟨2, ![16, 32]⟩
abbrev S8x2x32768 : Shape := ⟨3, ![8, 2, 32768]⟩
abbrev S8x32768 : Shape := ⟨2, ![8, 32768]⟩
abbrev S8x8x32 : Shape := ⟨3, ![8, 8, 32]⟩
abbrev S8x32 : Shape := ⟨2, ![8, 32]⟩
abbrev S8x1x32768 : Shape := ⟨3, ![8, 1, 32768]⟩
abbrev S8x8x32768 : Shape := ⟨3, ![8, 8, 32768]⟩
abbrev S1x32x1 : Shape := ⟨3, ![1, 32, 1]⟩
abbrev S8x32x32768 : Shape := ⟨3, ![8, 32, 32768]⟩
abbrev S16x1x32 : Shape := ⟨3, ![16, 1, 32]⟩
abbrev S_ : Shape := ⟨0, ![]⟩
abbrev S32 : Shape := ⟨1, ![32]⟩
abbrev S1x32 : Shape := ⟨2, ![1, 32]⟩

abbrev nBuf : Space → Nat
  | .hbm => 72
  | .vmem => 8
  | .smem => 0
  | _ => 0

abbrev bufTy : (tb : Table) → Fin (tcTables nBuf tb) → BufTy
  | .hbm, ⟨0, _⟩ => ⟨S16x2x512x1024, .f32⟩
  | .hbm, ⟨1, _⟩ => ⟨S16x512x1024, .i32⟩
  | .hbm, ⟨2, _⟩ => ⟨S16x2x524288, .f32⟩
  | .hbm, ⟨3, _⟩ => ⟨S16x524288, .i32⟩
  | .hbm, ⟨4, _⟩ => ⟨S16x8x32, .f32⟩
  | .hbm, ⟨5, _⟩ => ⟨S16x32, .f32⟩
  | .hbm, ⟨6, _⟩ => ⟨S16x1x32, .f32⟩
  | .hbm, ⟨7, _⟩ => ⟨S16x32, .f32⟩
  | .hbm, ⟨8, _⟩ => ⟨S16x1x32, .f32⟩
  | .hbm, ⟨9, _⟩ => ⟨S16x32, .f32⟩
  | .hbm, ⟨10, _⟩ => ⟨S16x32, .f32⟩
  | .hbm, ⟨11, _⟩ => ⟨S16x1x32, .f32⟩
  | .hbm, ⟨12, _⟩ => ⟨S16x32, .f32⟩
  | .hbm, ⟨13, _⟩ => ⟨S16x1x32, .f32⟩
  | .hbm, ⟨14, _⟩ => ⟨S16x32, .f32⟩
  | .hbm, ⟨15, _⟩ => ⟨S16x32, .f32⟩
  | .hbm, ⟨16, _⟩ => ⟨S16x1x32, .f32⟩
  | .hbm, ⟨17, _⟩ => ⟨S16x32, .f32⟩
  | .hbm, ⟨18, _⟩ => ⟨S16x1x32, .f32⟩
  | .hbm, ⟨19, _⟩ => ⟨S16x32, .f32⟩
  | .hbm, ⟨20, _⟩ => ⟨S16x32, .f32⟩
  | .hbm, ⟨21, _⟩ => ⟨S16x1x32, .f32⟩
  | .hbm, ⟨22, _⟩ => ⟨S16x32, .f32⟩
  | .hbm, ⟨23, _⟩ => ⟨S16x1x32, .f32⟩
  | .hbm, ⟨24, _⟩ => ⟨S16x32, .f32⟩
  | .hbm, ⟨25, _⟩ => ⟨S16x32, .f32⟩
  | .hbm, ⟨26, _⟩ => ⟨S_, .f32⟩
  | .hbm, ⟨27, _⟩ => ⟨S16x32, .f32⟩
  | .hbm, ⟨28, _⟩ => ⟨S16x32, .f32⟩
  | .hbm, ⟨29, _⟩ => ⟨S_, .f32⟩
  | .hbm, ⟨30, _⟩ => ⟨S16x32, .f32⟩
  | .hbm, ⟨31, _⟩ => ⟨S16x32, .f32⟩
  | .hbm, ⟨32, _⟩ => ⟨S_, .f32⟩
  | .hbm, ⟨33, _⟩ => ⟨S16x32, .f32⟩
  | .hbm, ⟨34, _⟩ => ⟨S16x32, .f32⟩
  | .hbm, ⟨35, _⟩ => ⟨S16x32, .f32⟩
  | .hbm, ⟨36, _⟩ => ⟨S16x32, .f32⟩
  | .hbm, ⟨37, _⟩ => ⟨S16x32, .f32⟩
  | .hbm, ⟨38, _⟩ => ⟨S16x32, .f32⟩
  | .hbm, ⟨39, _⟩ => ⟨S16x32, .f32⟩
  | .hbm, ⟨40, _⟩ => ⟨S16x32, .f32⟩
  | .hbm, ⟨41, _⟩ => ⟨S16x32, .f32⟩
  | .hbm, ⟨42, _⟩ => ⟨S16x32, .f32⟩
  | .hbm, ⟨43, _⟩ => ⟨S32, .i32⟩
  | .hbm, ⟨44, _⟩ => ⟨S1x32, .i32⟩
  | .hbm, ⟨45, _⟩ => ⟨S_, .i32⟩
  | .hbm, ⟨46, _⟩ => ⟨S1x32, .i32⟩
  | .hbm, ⟨47, _⟩ => ⟨S1x32, .i1⟩
  | .hbm, ⟨48, _⟩ => ⟨S_, .f32⟩
  | .hbm, ⟨49, _⟩ => ⟨S16x32, .f32⟩
  | .hbm, ⟨50, _⟩ => ⟨S16x32, .i1⟩
  | .hbm, ⟨51, _⟩ => ⟨S1x32, .i1⟩
  | .hbm, ⟨52, _⟩ => ⟨S16x32, .i1⟩
  | .hbm, ⟨53, _⟩ => ⟨S16x32, .i1⟩
  | .hbm, ⟨54, _⟩ => ⟨S16x32, .f32⟩
  | .hbm, ⟨55, _⟩ => ⟨S_, .f32⟩
  | .hbm, ⟨56, _⟩ => ⟨S_, .f32⟩
  | .hbm, ⟨57, _⟩ => ⟨S16x32, .f32⟩
  | .hbm, ⟨58, _⟩ => ⟨S16x32, .f32⟩
  | .hbm, ⟨59, _⟩ => ⟨S_, .f32⟩
  | .hbm, ⟨60, _⟩ => ⟨S_, .f32⟩
  | .hbm, ⟨61, _⟩ => ⟨S16x32, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S8x2x32768, .f32⟩
  | .local _ .vmem, ⟨1, _⟩ => ⟨S8x2x32768, .f32⟩
  | .local _ .vmem, ⟨2, _⟩ => ⟨S8x32768, .i32⟩
  | .local _ .vmem, ⟨3, _⟩ => ⟨S8x32768, .i32⟩
  | .local _ .vmem, ⟨4, _⟩ => ⟨S8x8x32, .f32⟩
  | .local _ .vmem, ⟨5, _⟩ => ⟨S8x8x32, .f32⟩
  | .local _ .vmem, ⟨6, _⟩ => ⟨S8x32, .f32⟩
  | .local _ .vmem, ⟨7, _⟩ => ⟨S8x32, .f32⟩
  | _, _ => ⟨S16x2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_call0_v0 : Ref sig .tc := ⟨.hbm, 56, rfl⟩
abbrev main_call0_v1 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_call1_v0 : Ref sig .tc := ⟨.hbm, 70, rfl⟩
abbrev main_v54 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x2x512x1024_S16x2x524288 : S16x2x512x1024.ShapeCasts S16x2x524288
  shapeCasts_S16x512x1024_S16x524288 : S16x512x1024.ShapeCasts S16x524288
  inb_S8x8x32_S8x8x32_0_0_0 : ∀ a, (![0, 0, 0] : Fin 3 → Nat) a + S8x8x32.size a ≤ S8x8x32.size a
  h_S8x8x32 : 0 < S8x8x32.numel
  inb_S8x32_S8x32_0_0 : ∀ a, (![0, 0] : Fin 2 → Nat) a + S8x32.size a ≤ S8x32.size a
  h_S8x32 : 0 < S8x32.numel
  inb_S8x2x32768_S8x1x32768_0_0_0 : ∀ a, (![0, 0, 0] : Fin 3 → Nat) a + S8x1x32768.size a ≤ S8x2x32768.size a
  h_S8x1x32768 : 0 < S8x1x32768.numel
  shapeCasts_S8x1x32768_S8x32768 : S8x1x32768.ShapeCasts S8x32768
  inb_S8x2x32768_S8x1x32768_0_1_0 : ∀ a, (![0, 1, 0] : Fin 3 → Nat) a + S8x1x32768.size a ≤ S8x2x32768.size a
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  bitsLt_bf16_f32 : FTy.bits .bf16 < FTy.bits .f32
  shapeCasts_S8x32768_S8x1x32768 : S8x32768.ShapeCasts S8x1x32768
  concatenates_S8x1x32768_S8x1x32768_S8x1x32768_S8x1x32768_S8x1x32768_S8x1x32768_S8x1x32768_S8x1x32768_S8x8x32768_d1 : Shape.Concatenates [S8x1x32768, S8x1x32768, S8x1x32768, S8x1x32768, S8x1x32768, S8x1x32768, S8x1x32768, S8x1x32768] S8x8x32768 1
  iota_S1x32x1_d1_w32 : S1x32x1.Iotas .tc 32 [1]
  broadcasts_S1x32x1_S8x32x32768 : S1x32x1.Broadcasts S8x32x32768
  broadcasts_S8x1x32768_S8x32x32768 : S8x1x32768.Broadcasts S8x32x32768
  natLt_1_32 : 1 < 32
  shapeCasts_S8x8x32_S8x8x32 : S8x8x32.ShapeCasts S8x8x32
  shapeCasts_S8x32_S8x32 : S8x32.ShapeCasts S8x32
  reduces_S8x32x32768_S8x32 : S8x32x32768.Reduces [2] S8x32
  slices_S16x8x32_S16x1x32_0_0_0 : S16x8x32.Slices ![0, 0, 0] S16x1x32
  shapeCasts_S16x1x32_S16x32 : S16x1x32.ShapeCasts S16x32
  slices_S16x8x32_S16x1x32_0_1_0 : S16x8x32.Slices ![0, 1, 0] S16x1x32
  slices_S16x8x32_S16x1x32_0_2_0 : S16x8x32.Slices ![0, 2, 0] S16x1x32
  slices_S16x8x32_S16x1x32_0_3_0 : S16x8x32.Slices ![0, 3, 0] S16x1x32
  slices_S16x8x32_S16x1x32_0_4_0 : S16x8x32.Slices ![0, 4, 0] S16x1x32
  slices_S16x8x32_S16x1x32_0_5_0 : S16x8x32.Slices ![0, 5, 0] S16x1x32
  slices_S16x8x32_S16x1x32_0_6_0 : S16x8x32.Slices ![0, 6, 0] S16x1x32
  slices_S16x8x32_S16x1x32_0_7_0 : S16x8x32.Slices ![0, 7, 0] S16x1x32
  bcast_S_S16x32 : S_.BroadcastsInDim S16x32 (![] : Fin 0 → Fin S16x32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S16x32_0_1 : S1x32.BroadcastsInDim S16x32 (![0, 1] : Fin 2 → Fin S16x32.rank)
  reducesTo_S16x32_S_d0_1 : S16x32.ReducesTo [0, 1] S_
  h_S_ : 0 < S_.numel
  dot_S8x8x32768_S8x32x32768_S8x8x32_2_2_1_1_0_0_wf : DotDims.WF S8x8x32768 S8x32x32768 S8x8x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x32768.size a ≤ S16x2x524288.size a
  hwx0_0 : ∀ i : grid0.Coords, EltTy.bits .f32 = 32 ∨ (Rect.block (s := S16x2x524288) S8x2x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S16x524288.size a
  hwx0_1 : ∀ i : grid0.Coords, EltTy.bits .i32 = 32 ∨ (Rect.block (s := S16x524288) S8x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8x32.size a ≤ S16x8x32.size a
  hwx0_2 : ∀ i : grid0.Coords, EltTy.bits .f32 = 32 ∨ (Rect.block (s := S16x8x32) S8x8x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S16x32.size a
  hwx0_3 : ∀ i : grid0.Coords, EltTy.bits .f32 = 32 ∨ (Rect.block (s := S16x32) S8x32.size (cc0_transform_3 i) (hinb0_3 i)).WholeWords (EltTy.packing .f32)

variable [Facts₀]

def dot_S8x8x32768_S8x32x32768_S8x8x32_2_2_1_1_0_0 : DotDims S8x8x32768 S8x32x32768 S8x8x32 where
  lhsContracting := [2]
  rhsContracting := [2]
  lhsNonContracting := [1]
  rhsNonContracting := [1]
  lhsBatch := [0]
  rhsBatch := [0]
  wf := dot_S8x8x32768_S8x32x32768_S8x8x32_2_2_1_1_0_0_wf

abbrev win0_0 : Pipeline.Window sig grid0 :=
  Pipeline.Window.ofSpec (Memref.whole main_v0) S8x2x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x8x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2x512x1024 : Shape := ⟨4, ![16, 2, 512, 1024]⟩
abbrev S16x512x1024 : Shape := ⟨3, ![16, 512, 1024]⟩
abbrev S16x524288 : Shape := ⟨2, ![16, 524288]⟩
abbrev S16 : Shape := ⟨1, ![16]⟩
abbrev S16x1 : Shape := ⟨2, ![16, 1]⟩
abbrev S_ : Shape := ⟨0, ![]⟩
abbrev S8388608 : Shape := ⟨1, ![8388608]⟩
abbrev S16x1x512x1024 : Shape := ⟨4, ![16, 1, 512, 1024]⟩
abbrev S512 : Shape := ⟨1, ![512]⟩
abbrev S8388608x1 : Shape := ⟨2, ![8388608, 1]⟩

abbrev nBuf : Space → Nat
  | .hbm => 107
  | .vmem => 0
  | .smem => 0
  | _ => 0

abbrev bufTy : (tb : Table) → Fin (tcTables nBuf tb) → BufTy
  | .hbm, ⟨0, _⟩ => ⟨S16x2x512x1024, .f32⟩
  | .hbm, ⟨1, _⟩ => ⟨S16x512x1024, .i32⟩
  | .hbm, ⟨2, _⟩ => ⟨S16x524288, .i32⟩
  | .hbm, ⟨3, _⟩ => ⟨S16, .i32⟩
  | .hbm, ⟨4, _⟩ => ⟨S16x1, .i32⟩
  | .hbm, ⟨5, _⟩ => ⟨S_, .i32⟩
  | .hbm, ⟨6, _⟩ => ⟨S16x1, .i32⟩
  | .hbm, ⟨7, _⟩ => ⟨S16x1, .i32⟩
  | .hbm, ⟨8, _⟩ => ⟨S16x524288, .i32⟩
  | .hbm, ⟨9, _⟩ => ⟨S16x524288, .i32⟩
  | .hbm, ⟨10, _⟩ => ⟨S8388608, .i32⟩
  | .hbm, ⟨11, _⟩ => ⟨S16x1x512x1024, .f32⟩
  | .hbm, ⟨12, _⟩ => ⟨S16x512x1024, .f32⟩
  | .hbm, ⟨13, _⟩ => ⟨S8388608, .f32⟩
  | .hbm, ⟨14, _⟩ => ⟨S16x1x512x1024, .f32⟩
  | .hbm, ⟨15, _⟩ => ⟨S16x512x1024, .f32⟩
  | .hbm, ⟨16, _⟩ => ⟨S8388608, .f32⟩
  | .hbm, ⟨17, _⟩ => ⟨S_, .f32⟩
  | .hbm, ⟨18, _⟩ => ⟨S8388608, .f32⟩
  | .hbm, ⟨19, _⟩ => ⟨S_, .f32⟩
  | .hbm, ⟨20, _⟩ => ⟨S512, .f32⟩
  | .hbm, ⟨21, _⟩ => ⟨S8388608x1, .i32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S8388608x1, .i32⟩
  | .hbm, ⟨26, _⟩ => ⟨S512, .f32⟩
  | .hbm, ⟨27, _⟩ => ⟨S8388608, .f32⟩
  | .hbm, ⟨28, _⟩ => ⟨S_, .f32⟩
  | .hbm, ⟨29, _⟩ => ⟨S512, .f32⟩
  | .hbm, ⟨30, _⟩ => ⟨S8388608x1, .i32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S8388608x1, .i32⟩
  | .hbm, ⟨35, _⟩ => ⟨S512, .f32⟩
  | .hbm, ⟨36, _⟩ => ⟨S8388608, .f32⟩
  | .hbm, ⟨37, _⟩ => ⟨S_, .f32⟩
  | .hbm, ⟨38, _⟩ => ⟨S512, .f32⟩
  | .hbm, ⟨39, _⟩ => ⟨S8388608x1, .i32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S512, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S_, .i32⟩
  | .hbm, ⟨68, _⟩ => ⟨S512, .i32⟩
  | .hbm, ⟨69, _⟩ => ⟨S512, .i1⟩
  | .hbm, ⟨70, _⟩ => ⟨S_, .i32⟩
  | .hbm, ⟨71, _⟩ => ⟨S512, .i32⟩
  | .hbm, ⟨72, _⟩ => ⟨S512, .i1⟩
  | .hbm, ⟨73, _⟩ => ⟨S_, .i32⟩
  | .hbm, ⟨74, _⟩ => ⟨S_, .i1⟩
  | .hbm, ⟨75, _⟩ => ⟨S512, .i1⟩
  | .hbm, ⟨76, _⟩ => ⟨S512, .i1⟩
  | .hbm, ⟨77, _⟩ => ⟨S512, .i1⟩
  | .hbm, ⟨78, _⟩ => ⟨S512, .i32⟩
  | .hbm, ⟨79, _⟩ => ⟨S512, .i32⟩
  | .hbm, ⟨80, _⟩ => ⟨S512, .i32⟩
  | .hbm, ⟨81, _⟩ => ⟨S_, .i32⟩
  | .hbm, ⟨82, _⟩ => ⟨S512, .i32⟩
  | .hbm, ⟨83, _⟩ => ⟨S512, .i1⟩
  | .hbm, ⟨84, _⟩ => ⟨S_, .f32⟩
  | .hbm, ⟨85, _⟩ => ⟨S512, .f32⟩
  | .hbm, ⟨86, _⟩ => ⟨S512, .i1⟩
  | .hbm, ⟨87, _⟩ => ⟨S512, .i1⟩
  | .hbm, ⟨88, _⟩ => ⟨S512, .i1⟩
  | .hbm, ⟨89, _⟩ => ⟨S512, .f32⟩
  | .hbm, ⟨90, _⟩ => ⟨S_, .f32⟩
  | .hbm, ⟨91, _⟩ => ⟨S_, .f32⟩
  | .hbm, ⟨92, _⟩ => ⟨S512, .f32⟩
  | .hbm, ⟨93, _⟩ => ⟨S512, .f32⟩
  | .hbm, ⟨94, _⟩ => ⟨S_, .f32⟩
  | .hbm, ⟨95, _⟩ => ⟨S_, .f32⟩
  | .hbm, ⟨96, _⟩ => ⟨S512, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .i1⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S16x2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_8 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_c_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_1 : Ref sig .tc := ⟨.hbm, 67, rfl⟩
abbrev main_call0_v5 : Ref sig .tc := ⟨.hbm, 68, rfl⟩
abbrev main_call0_v6 : Ref sig .tc := ⟨.hbm, 69, rfl⟩
abbrev main_call0_c_2 : Ref sig .tc := ⟨.hbm, 70, rfl⟩
abbrev main_call0_v7 : Ref sig .tc := ⟨.hbm, 71, rfl⟩
abbrev main_call0_v8 : Ref sig .tc := ⟨.hbm, 72, rfl⟩
abbrev main_call0_c_3 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_v12 : Ref sig .tc := ⟨.hbm, 77, rfl⟩
abbrev main_call0_v13 : Ref sig .tc := ⟨.hbm, 78, rfl⟩
abbrev main_call0_v14 : Ref sig .tc := ⟨.hbm, 79, rfl⟩
abbrev main_v47 : Ref sig .tc := ⟨.hbm, 80, rfl⟩
abbrev main_c_9 : Ref sig .tc := ⟨.hbm, 81, rfl⟩
abbrev main_v48 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_11 : Ref sig .tc := ⟨.hbm, 90, rfl⟩
abbrev main_call1_v0 : Ref sig .tc := ⟨.hbm, 91, rfl⟩
abbrev main_call1_v1 : Ref sig .tc := ⟨.hbm, 92, rfl⟩
abbrev main_v55 : Ref sig .tc := ⟨.hbm, 93, rfl⟩
abbrev main_cst_12 : Ref sig .tc := ⟨.hbm, 94, rfl⟩
abbrev main_v56 : Ref sig .tc := ⟨.hbm, 95, rfl⟩
abbrev main_v57 : Ref sig .tc := ⟨.hbm, 96, rfl⟩
abbrev main_cst_13 : Ref sig .tc := ⟨.hbm, 97, rfl⟩
abbrev main_v58 : Ref sig .tc := ⟨.hbm, 98, rfl⟩
abbrev main_cst_14 : Ref sig .tc := ⟨.hbm, 99, rfl⟩
abbrev main_v59 : Ref sig .tc := ⟨.hbm, 100, rfl⟩
abbrev main_cst_15 : Ref sig .tc := ⟨.hbm, 101, rfl⟩
abbrev main_v60 : Ref sig .tc := ⟨.hbm, 102, rfl⟩
abbrev main_v61 : Ref sig .tc := ⟨.hbm, 103, rfl⟩
abbrev main_cst_16 : Ref sig .tc := ⟨.hbm, 104, rfl⟩
abbrev main_call2_v0 : Ref sig .tc := ⟨.hbm, 105, rfl⟩
abbrev main_v62 : Ref sig .tc := ⟨.hbm, 106, rfl⟩

abbrev nD : Nat := 1
abbrev τ : Topo := Topo.v7x

variable {F : FTy → Type} [FloatOps F]

class Facts₀ : Prop where
  shapeCasts_S16x512x1024_S16x524288 : S16x512x1024.ShapeCasts S16x524288
  bcast_S16_S16x1_0 : S16.BroadcastsInDim S16x1 (![0] : Fin 1 → Fin S16x1.rank)
  bcast_S_S16x1 : S_.BroadcastsInDim S16x1 (![] : Fin 0 → Fin S16x1.rank)
  bcast_S16x1_S16x524288_0_1 : S16x1.BroadcastsInDim S16x524288 (![0, 1] : Fin 2 → Fin S16x524288.rank)
  shapeCasts_S16x524288_S8388608 : S16x524288.ShapeCasts S8388608
  slices_S16x2x512x1024_S16x1x512x1024_0_0_0_0 : S16x2x512x1024.Slices ![0, 0, 0, 0] S16x1x512x1024
  shapeCasts_S16x1x512x1024_S16x512x1024 : S16x1x512x1024.ShapeCasts S16x512x1024
  shapeCasts_S16x512x1024_S8388608 : S16x512x1024.ShapeCasts S8388608
  slices_S16x2x512x1024_S16x1x512x1024_0_1_0_0 : S16x2x512x1024.Slices ![0, 1, 0, 0] S16x1x512x1024
  bcast_S_S8388608 : S_.BroadcastsInDim S8388608 (![] : Fin 0 → Fin S8388608.rank)
  bcast_S_S512 : S_.BroadcastsInDim S512 (![] : Fin 0 → Fin S512.rank)
  bcast_S8388608_S8388608x1_0 : S8388608.BroadcastsInDim S8388608x1 (![0] : Fin 1 → Fin S8388608x1.rank)
  reducesTo_S512_S_d0 : S512.ReducesTo [0] S_
  h_S_ : 0 < S_.numel
  scatter_S512_S8388608x1_S8388608_n_0_0_1_wf : ScatterDims.WF S512 S8388608x1 S8388608 [] [0] [0] 1

variable [Facts₀]

def scatter_S512_S8388608x1_S8388608_n_0_0_1 : ScatterDims S512 S8388608x1 S8388608 where
  updateWindowDims := []
  insertedWindowDims := [0]
  scatterDimsToOperandDims := [0]
  indexVectorDim := 1
  wf := scatter_S512_S8388608x1_S8388608_n_0_0_1_wf

class Facts : Prop extends Facts₀ where

variable [Facts]
-- ==== Proof.KBBase.lean ====
/-
  The segment-statistics kernel's program around its one region: what the region finds, what runs after it.

  @main first flattens each image's 512 × 1024 pixels into one axis of 524288 (two reshapes), then runs
  the region on a 2 × 16 grid — grid point t = 16·g + h handles images 8g … 8g+7 and pixels
  32768·h … 32768·h + 32767 —, then 66 host operations that read the region's two result arrays and write
  fresh buffers only. The body resets its two output blocks when h = 0 and adds to them at every point.
-/
import proofs.«424109_j8529805050142_3_alg».proof.Proof.Gen.Kernel.Launch
import proofs.«424109_j8529805050142_3_alg».proof.Proof.Gen.Kernel.Skeleton
import proofs.«424109_j8529805050142_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The four stretches of host operations after the region, in order. -/
abbrev sfxOpss : List (List (HloOp τ sig (Elt F))) := [hostOps1, hostOps1_1, hostOps1_2, hostOps1_3]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- @main is the two reshapes, the region, then the later stretches: it reduces to the region continued by them,
    at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] [hostOps1, hostOps1_1, hostOps1_2, hostOps1_3]
    (by simp only [List.Forall]; exact hostOps0_sub) (by simp only [List.Forall]; exact hostOps0_fresh) main_chain

/-- Every later operation touches unscoped TensorCore buffers only. -/
theorem sfx_sub : ∀ ops ∈ (sfxOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- None allocates. -/
theorem sfx_fresh : ∀ ops ∈ (sfxOpss : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- No later operation writes the buffer `b`, when `b` is none of their result buffers: each writes its own result only. -/
theorem sfx_not_written (b : Ref sig .tc)
    (h1 : (hostOps1 : List (HloOp τ sig (Elt F))).Forall fun op => Proc.devRef .tc b ∉ op.writes)
    (h2 : (hostOps1_1 : List (HloOp τ sig (Elt F))).Forall fun op => Proc.devRef .tc b ∉ op.writes)
    (h3 : (hostOps1_2 : List (HloOp τ sig (Elt F))).Forall fun op => Proc.devRef .tc b ∉ op.writes)
    (h4 : (hostOps1_3 : List (HloOp τ sig (Elt F))).Forall fun op => Proc.devRef .tc b ∉ op.writes) :
    ∀ ops ∈ (sfxOpss : List (List (HloOp τ sig (Elt F)))), ∀ op ∈ ops, Proc.devRef .tc b ∉ op.writes := by
  intro ops hops op hop
  simp only [List.mem_cons, List.mem_nil_iff, or_false] at hops
  rcases hops with rfl | rfl | rfl | rfl
  · exact (List.forall_iff_forall_mem.mp h1) op hop
  · exact (List.forall_iff_forall_mem.mp h2) op hop
  · exact (List.forall_iff_forall_mem.mp h3) op hop
  · exact (List.forall_iff_forall_mem.mp h4) op hop

/-- The later operations leave alone every buffer that is not one of their results: the flattened images, the region's
    two result arrays and the two arguments. -/
theorem sfx_spares (b : Ref sig .tc) (hb : b = main_v0 ∨ b = main_v1 ∨ b = main_v2_0 ∨ b = main_v2_1 ∨ b = main_arg0 ∨ b = main_arg1) :
    ∀ ops ∈ (sfxOpss : List (List (HloOp τ sig (Elt F)))), ∀ op ∈ ops, Proc.devRef .tc b ∉ op.writes := by
  refine sfx_not_written b ?_ ?_ ?_ ?_ <;>
  · rcases hb with rfl | rfl | rfl | rfl | rfl | rfl <;>
    · simp only [hostOps1, hostOps1_1, hostOps1_2, hostOps1_3, List.Forall, StableHlo.nullary_writes, StableHlo.unary_writes,
        StableHlo.binary_writes, StableHlo.ternary_writes, StableHlo.reshape_writes, StableHlo.TRef.unary, StableHlo.TRef.ternary,
        StableHlo.TRef.of, Finset.mem_singleton]
      repeat' apply And.intro
      all_goals exact StableHlo.devRef_ne_of_ne (by decide)

/-- In particular they write no array of the pipeline. -/
theorem sfx_keeps : ∀ ops ∈ (sfxOpss : List (List (HloOp τ sig (Elt F)))), ∀ op ∈ ops,
    ∀ w, Proc.devRef .tc (Pipeline.arrRef spec0 w) ∉ op.writes := by
  intro ops hops op hop w
  fin_cases w
  · exact sfx_spares main_v0 (Or.inl rfl) ops hops op hop
  · exact sfx_spares main_v1 (Or.inr (Or.inl rfl)) ops hops op hop
  · exact sfx_spares main_v2_0 (Or.inr (Or.inr (Or.inl rfl))) ops hops op hop
  · exact sfx_spares main_v2_1 (Or.inr (Or.inr (Or.inr (Or.inl rfl)))) ops hops op hop

/-- Neither reshape writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The flow window's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the mask window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The reset's condition, from the grid coordinates: the pixel-block coordinate is zero. -/
abbrev cond0_0 (i : grid0.Coords) : Prop := (Scalar.cmpi .ne (Scalar.extui (Scalar.cmpi .eq (BitVec.ofNat 32 (i 1).val) 0#32)) 0#32) = 1#1
/-- It holds at the first of each run of 16 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- Both inputs and both outputs are live at every point. -/
theorem liveAt0 : ∀ (w : Fin 4) (t : Fin cfg0.N), cfg0.idle w (grid0.coords t) = false := by decide +kernel

/-! ## The staging memrefs -/

/-- One staging buffer of each output window, through which its contents are stated. -/
abbrev VO0_2 : View sig .tc .vmem S8x8x32 .f32 := (Memref.whole cc0_stg2_0 : Memref sig .tc .vmem S8x8x32 .f32).view
abbrev VO0_3 : View sig .tc .vmem S8x32 .f32 := (Memref.whole cc0_stg3_0 : Memref sig .tc .vmem S8x32 .f32).view
/-- Each window's current staging memref at point `t`, as the pipeline passes it, and its wholeness. -/
abbrev ms0_0 (t : Fin cfg0.N) : Memref sig .tc .vmem S8x2x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x8x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x32 .f32 := win0_3.stage (cfg0.slots t 3)
abbrev hs0_3 (t : Fin cfg0.N) : (ms0_3 t).IsWhole := hstage0_3 ((cfg0.slots t 3).cast nbuf0_3)

end Cert.Kernel.Hand

end
-- ==== Proof.KBRunA.lean ====
/-
  The kernel body run once, at a grid point where the reset fires (pixel-block coordinate 0): it stores zeros into both
  output blocks, loads the flow and mask blocks, and stores into each output block its contents plus this block's contribution.
-/
import proofs.«424109_j8529805050142_3_alg».proof.Proof.KBBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs at a point with pixel-block coordinate 0: the two input blocks are held at their contents and handed back
    unchanged; each output buffer ends with the pieces the body's stores wrote into it (last store first), which the run finds. -/
noncomputable def kernelRun0_A (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) :
    Σ' (L2 : List (View.Piece (Elt F) S8x8x32 .f32)), { L3 : List (View.Piece (Elt F) S8x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__seg_stats_kernel i arg2 harg2 arg3 harg3 arg4 harg4 arg5 harg5) K } := by
  refine ⟨?_, ?_, fun E K => ?run⟩
  case run =>
    simp only [cc0__seg_stats_kernel_eq_skeleton]; unfold cc0__seg_stats_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.KBRunB.lean ====
/-
  The kernel body run once, at a grid point where the reset does not fire: it loads the flow and mask blocks and stores into
  each output block what the block held (left there by the point before) plus this block's contribution.
-/
import proofs.«424109_j8529805050142_3_alg».proof.Proof.KBRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs at a point with pixel-block coordinate other than 0: the two input blocks are held at their contents and handed back
    unchanged; each output buffer ends with the pieces the body's stores wrote into it (last store first), which the run finds. -/
noncomputable def kernelRun0_B (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) :
    Σ' (L2 : List (View.Piece (Elt F) S8x8x32 .f32)), { L3 : List (View.Piece (Elt F) S8x32 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__seg_stats_kernel i arg2 harg2 arg3 harg3 arg4 harg4 arg5 harg5) K } := by
  refine ⟨?_, ?_, fun E K => ?run⟩
  case run =>
    simp only [cc0__seg_stats_kernel_eq_skeleton]; unfold cc0__seg_stats_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.KBFrame.lean ====
/-
  The frame of the segment-statistics kernel's program, and what its two result arrays hold.

  At grid position n = 16·g + h the body leaves in the statistics block (8 images × 8 rows × 32 segments) and in the
  count block (8 images × 32 segments) either this pixel block's contribution alone (h = 0, after the reset) or what
  position n − 1 left plus this block's contribution (h ≠ 0): `outsAt0`. The blocks are written back to the result
  arrays after the last pixel block of each image group (h = 15). From this the run of the whole program follows by the
  launch theorem for a region continued by host operations; its post names every buffer's final contents.
-/
import proofs.«424109_j8529805050142_3_alg».proof.Proof.KBRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output blocks -/

/-- At a reset point the stores into the statistics block cover it (the zero store and the accumulating store are both whole). -/
theorem cover0_A_2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) (y : S8x8x32.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S8x8x32.size (by sl_kernel_rfl) y
/-- Likewise for the count block. -/
theorem cover0_A_3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) (y : S8x32.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S8x32.size (by sl_kernel_rfl) y

/-- What a reset point leaves in the statistics block: its stores read back. -/
def out0_A_2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) : Vec F S8x8x32 .f32 :=
  VO0_2.read (Elt F) (VO0_2.writes (Elt F) VO0_2.junk (kernelRun0_A c i arg2 harg2 arg3 harg3 arg4 harg4 arg5 harg5 hc0 x0 x1).1)
/-- What a reset point leaves in the count block. -/
def out0_A_3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) : Vec F S8x32 .f32 :=
  VO0_3.read (Elt F) (VO0_3.writes (Elt F) VO0_3.junk (kernelRun0_A c i arg2 harg2 arg3 harg3 arg4 harg4 arg5 harg5 hc0 x0 x1).2.1)

/-- At any other point the one accumulating store covers the statistics block. -/
theorem cover0_B_2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) (y : S8x8x32.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S8x8x32.size (by sl_kernel_rfl) y
/-- Likewise for the count block. -/
theorem cover0_B_3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) (y : S8x32.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S8x32.size (by sl_kernel_rfl) y

/-- What a later point leaves in the statistics block, over what it found there. -/
def out0_B_2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) : Vec F S8x8x32 .f32 :=
  VO0_2.read (Elt F) (VO0_2.writes (Elt F) VO0_2.junk (kernelRun0_B c i arg2 harg2 arg3 harg3 arg4 harg4 arg5 harg5 hc0 x0 x1 xo2 xo3).1)
/-- What a later point leaves in the count block, over what it found there. -/
def out0_B_3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) : Vec F S8x32 .f32 :=
  VO0_3.read (Elt F) (VO0_3.writes (Elt F) VO0_3.junk (kernelRun0_B c i arg2 harg2 arg3 harg3 arg4 harg4 arg5 harg5 hc0 x0 x1 xo2 xo3).2.1)

/-! ## The accumulation -/

/-- What the statistics block and the count block hold after the body at position `n`: at a reset point the case's contents,
    at any other point the case's contents over what position `n - 1` left. -/
def outsAt0 (c : Dev nD) : (n : ℕ) → n < cfg0.N → Vec F S8x8x32 .f32 × Vec F S8x32 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
              out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a reset point. -/
theorem outsAt0_A (c : Dev nD) (t : Fin cfg0.N) (h0 : t.val % 16 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- `outsAt0` at any other point: over what the point before left. -/
theorem outsAt0_B (c : Dev nD) (t : Fin cfg0.N) (h0 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the outputs' at
    `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is no reset point the statistics block's buffer holds what the body left at the point before: the point is
    not the first and the buffer was not written back between. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
/-- Likewise the count block's. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the closed form of the reset's condition says which case the
    point is in; away from a reset point the output buffers hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 16 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has each array of the pipeline at what the proof
    data computes and every other unscoped buffer as the host operations after the region leave it. -/
theorem run_main : θ_run defs (onTc (τ := τ) (main (F := F))) (s₀ m ρ)
    (Pipeline.FramePost cfgs (dats m) 0 (Pipeline.afterTail₀ cfgs (dats m) 0 (V0 m) sfxOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfxOpss) (hsub := sfx_sub) (hfresh := sfx_fresh) (hkeep := sfx_keeps)
    (hmain := hmain m Variants.none) (hA := A_eq m) (hΦ := fun _ _ => rfl)

/-- What the final state holds at a buffer that is no array of the pipeline and that no later operation writes: what the
    region found there. -/
theorem tail_spared (c : Dev nD) (b : Ref sig .tc) (hb : b = main_arg0 ∨ b = main_arg1) :
    Pipeline.afterTail₀ cfgs (dats m) 0 (V0 m) sfxOpss c b = V m c b := by
  unfold Pipeline.afterTail₀
  rw [StableHlo.after_of_forall_not_mem (b := Proc.devRef .tc b) _ _ (fun op hop => by
    obtain ⟨ops, hops, hop'⟩ := List.mem_flatten.mp hop
    exact sfx_spares b (by rcases hb with rfl | rfl <;> simp) ops hops op hop')]
  exact Pipeline.withArrays_of_ne _ _ _ _ b (by rcases hb with rfl | rfl <;> (intro w; fin_cases w <;> decide))

/-- THE FRAME: the program runs and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans ((tail_spared m c main_arg0 (Or.inl rfl)).trans (V_main_arg0 m c)),
     ((h c).2 main_arg1 (Pipeline.mem_restRefs_of main_arg1 (by decide) (by decide))).trans ((tail_spared m c main_arg1 (Or.inr rfl)).trans (V_main_arg1 m c))⟩)
    (run_main m ρ)

end Cert.Kernel.Hand

end
-- ==== Proof.KIBase.lean ====
/-
  The segment-statistics kernel's program around its one region: what the region finds, what runs after it.

  @main first flattens each image's 512 × 1024 pixels into one axis of 524288 (two reshapes), then runs
  the region on a 2 × 16 grid — grid point t = 16·g + h handles images 8g … 8g+7 and pixels
  32768·h … 32768·h + 32767 —, then 66 host operations that read the region's two result arrays and write
  fresh buffers only. The body resets its two output blocks when h = 0 and adds to them at every point.
-/
import proofs.«424109_j8529805050142_3_alg».proof.Proof.Gen.KernelIdeal.Launch
import proofs.«424109_j8529805050142_3_alg».proof.Proof.Gen.KernelIdeal.Skeleton
import proofs.«424109_j8529805050142_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The four stretches of host operations after the region, in order. -/
abbrev sfxOpss : List (List (HloOp τ sig (Elt F))) := [hostOps1, hostOps1_1, hostOps1_2, hostOps1_3]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- @main is the two reshapes, the region, then the later stretches: it reduces to the region continued by them,
    at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] [hostOps1, hostOps1_1, hostOps1_2, hostOps1_3]
    (by simp only [List.Forall]; exact hostOps0_sub) (by simp only [List.Forall]; exact hostOps0_fresh) main_chain

/-- Every later operation touches unscoped TensorCore buffers only. -/
theorem sfx_sub : ∀ ops ∈ (sfxOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- None allocates. -/
theorem sfx_fresh : ∀ ops ∈ (sfxOpss : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- No later operation writes the buffer `b`, when `b` is none of their result buffers: each writes its own result only. -/
theorem sfx_not_written (b : Ref sig .tc)
    (h1 : (hostOps1 : List (HloOp τ sig (Elt F))).Forall fun op => Proc.devRef .tc b ∉ op.writes)
    (h2 : (hostOps1_1 : List (HloOp τ sig (Elt F))).Forall fun op => Proc.devRef .tc b ∉ op.writes)
    (h3 : (hostOps1_2 : List (HloOp τ sig (Elt F))).Forall fun op => Proc.devRef .tc b ∉ op.writes)
    (h4 : (hostOps1_3 : List (HloOp τ sig (Elt F))).Forall fun op => Proc.devRef .tc b ∉ op.writes) :
    ∀ ops ∈ (sfxOpss : List (List (HloOp τ sig (Elt F)))), ∀ op ∈ ops, Proc.devRef .tc b ∉ op.writes := by
  intro ops hops op hop
  simp only [List.mem_cons, List.mem_nil_iff, or_false] at hops
  rcases hops with rfl | rfl | rfl | rfl
  · exact (List.forall_iff_forall_mem.mp h1) op hop
  · exact (List.forall_iff_forall_mem.mp h2) op hop
  · exact (List.forall_iff_forall_mem.mp h3) op hop
  · exact (List.forall_iff_forall_mem.mp h4) op hop

/-- The later operations leave alone every buffer that is not one of their results: the flattened images, the region's
    two result arrays and the two arguments. -/
theorem sfx_spares (b : Ref sig .tc) (hb : b = main_v0 ∨ b = main_v1 ∨ b = main_v2_0 ∨ b = main_v2_1 ∨ b = main_arg0 ∨ b = main_arg1) :
    ∀ ops ∈ (sfxOpss : List (List (HloOp τ sig (Elt F)))), ∀ op ∈ ops, Proc.devRef .tc b ∉ op.writes := by
  refine sfx_not_written b ?_ ?_ ?_ ?_ <;>
  · rcases hb with rfl | rfl | rfl | rfl | rfl | rfl <;>
    · simp only [hostOps1, hostOps1_1, hostOps1_2, hostOps1_3, List.Forall, StableHlo.nullary_writes, StableHlo.unary_writes,
        StableHlo.binary_writes, StableHlo.ternary_writes, StableHlo.reshape_writes, StableHlo.TRef.unary, StableHlo.TRef.ternary,
        StableHlo.TRef.of, Finset.mem_singleton]
      repeat' apply And.intro
      all_goals exact StableHlo.devRef_ne_of_ne (by decide)

/-- In particular they write no array of the pipeline. -/
theorem sfx_keeps : ∀ ops ∈ (sfxOpss : List (List (HloOp τ sig (Elt F)))), ∀ op ∈ ops,
    ∀ w, Proc.devRef .tc (Pipeline.arrRef spec0 w) ∉ op.writes := by
  intro ops hops op hop w
  fin_cases w
  · exact sfx_spares main_v0 (Or.inl rfl) ops hops op hop
  · exact sfx_spares main_v1 (Or.inr (Or.inl rfl)) ops hops op hop
  · exact sfx_spares main_v2_0 (Or.inr (Or.inr (Or.inl rfl))) ops hops op hop
  · exact sfx_spares main_v2_1 (Or.inr (Or.inr (Or.inr (Or.inl rfl)))) ops hops op hop

/-- Neither reshape writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The flow window's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the mask window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The reset's condition, from the grid coordinates: the pixel-block coordinate is zero. -/
abbrev cond0_0 (i : grid0.Coords) : Prop := (Scalar.cmpi .ne (Scalar.extui (Scalar.cmpi .eq (BitVec.ofNat 32 (i 1).val) 0#32)) 0#32) = 1#1
/-- It holds at the first of each run of 16 points. -/
theorem hcond0_0 : ∀ t : Fin cfg0.N, cond0_0 (grid0.coords t) ↔ t.val % 16 = 0 :=
  (by decide +kernel : ∀ t : Fin grid0.N, cond0_0 (grid0.coords t) ↔ t.val % 16 = 0)

/-- Both inputs and both outputs are live at every point. -/
theorem liveAt0 : ∀ (w : Fin 4) (t : Fin cfg0.N), cfg0.idle w (grid0.coords t) = false := by decide +kernel

/-! ## The staging memrefs -/

/-- One staging buffer of each output window, through which its contents are stated. -/
abbrev VO0_2 : View sig .tc .vmem S8x8x32 .f32 := (Memref.whole cc0_stg2_0 : Memref sig .tc .vmem S8x8x32 .f32).view
abbrev VO0_3 : View sig .tc .vmem S8x32 .f32 := (Memref.whole cc0_stg3_0 : Memref sig .tc .vmem S8x32 .f32).view
/-- Each window's current staging memref at point `t`, as the pipeline passes it, and its wholeness. -/
abbrev ms0_0 (t : Fin cfg0.N) : Memref sig .tc .vmem S8x2x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x8x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x32 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KIRunA.lean ====
/-
  The kernel body run once, at a grid point where the reset fires (pixel-block coordinate 0): it stores zeros into both
  output blocks, loads the flow and mask blocks, and stores into each output block its contents plus this block's contribution.
-/
import proofs.«424109_j8529805050142_3_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs at a point with pixel-block coordinate 0: the two input blocks are held at their contents and handed back
    unchanged; each output buffer ends with the pieces the body's stores wrote into it (last store first), which the run finds. -/
noncomputable def kernelRun0_A (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) :
    Σ' (L2 : List (View.Piece (Elt F) S8x8x32 .f32)), { L3 : List (View.Piece (Elt F) S8x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__seg_stats_kernel i arg2 harg2 arg3 harg3 arg4 harg4 arg5 harg5) K } := by
  refine ⟨?_, ?_, fun E K => ?run⟩
  case run =>
    simp only [cc0__seg_stats_kernel_eq_skeleton]; unfold cc0__seg_stats_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KIRunB.lean ====
/-
  The kernel body run once, at a grid point where the reset does not fire: it loads the flow and mask blocks and stores into
  each output block what the block held (left there by the point before) plus this block's contribution.
-/
import proofs.«424109_j8529805050142_3_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs at a point with pixel-block coordinate other than 0: the two input blocks are held at their contents and handed back
    unchanged; each output buffer ends with the pieces the body's stores wrote into it (last store first), which the run finds. -/
noncomputable def kernelRun0_B (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) :
    Σ' (L2 : List (View.Piece (Elt F) S8x8x32 .f32)), { L3 : List (View.Piece (Elt F) S8x32 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__seg_stats_kernel i arg2 harg2 arg3 harg3 arg4 harg4 arg5 harg5) K } := by
  refine ⟨?_, ?_, fun E K => ?run⟩
  case run =>
    simp only [cc0__seg_stats_kernel_eq_skeleton]; unfold cc0__seg_stats_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KIFrame.lean ====
/-
  The frame of the segment-statistics kernel's program, and what its two result arrays hold.

  At grid position n = 16·g + h the body leaves in the statistics block (8 images × 8 rows × 32 segments) and in the
  count block (8 images × 32 segments) either this pixel block's contribution alone (h = 0, after the reset) or what
  position n − 1 left plus this block's contribution (h ≠ 0): `outsAt0`. The blocks are written back to the result
  arrays after the last pixel block of each image group (h = 15). From this the run of the whole program follows by the
  launch theorem for a region continued by host operations; its post names every buffer's final contents.
-/
import proofs.«424109_j8529805050142_3_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output blocks -/

/-- At a reset point the stores into the statistics block cover it (the zero store and the accumulating store are both whole). -/
theorem cover0_A_2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) (y : S8x8x32.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S8x8x32.size (by sl_kernel_rfl) y
/-- Likewise for the count block. -/
theorem cover0_A_3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) (y : S8x32.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S8x32.size (by sl_kernel_rfl) y

/-- What a reset point leaves in the statistics block: its stores read back. -/
def out0_A_2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) : Vec F S8x8x32 .f32 :=
  VO0_2.read (Elt F) (VO0_2.writes (Elt F) VO0_2.junk (kernelRun0_A c i arg2 harg2 arg3 harg3 arg4 harg4 arg5 harg5 hc0 x0 x1).1)
/-- What a reset point leaves in the count block. -/
def out0_A_3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) : Vec F S8x32 .f32 :=
  VO0_3.read (Elt F) (VO0_3.writes (Elt F) VO0_3.junk (kernelRun0_A c i arg2 harg2 arg3 harg3 arg4 harg4 arg5 harg5 hc0 x0 x1).2.1)

/-- At any other point the one accumulating store covers the statistics block. -/
theorem cover0_B_2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) (y : S8x8x32.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S8x8x32.size (by sl_kernel_rfl) y
/-- Likewise for the count block. -/
theorem cover0_B_3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) (y : S8x32.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S8x32.size (by sl_kernel_rfl) y

/-- What a later point leaves in the statistics block, over what it found there. -/
def out0_B_2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) : Vec F S8x8x32 .f32 :=
  VO0_2.read (Elt F) (VO0_2.writes (Elt F) VO0_2.junk (kernelRun0_B c i arg2 harg2 arg3 harg3 arg4 harg4 arg5 harg5 hc0 x0 x1 xo2 xo3).1)
/-- What a later point leaves in the count block, over what it found there. -/
def out0_B_3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) : Vec F S8x32 .f32 :=
  VO0_3.read (Elt F) (VO0_3.writes (Elt F) VO0_3.junk (kernelRun0_B c i arg2 harg2 arg3 harg3 arg4 harg4 arg5 harg5 hc0 x0 x1 xo2 xo3).2.1)

/-! ## The accumulation -/

/-- What the statistics block and the count block hold after the body at position `n`: at a reset point the case's contents,
    at any other point the case's contents over what position `n - 1` left. -/
def outsAt0 (c : Dev nD) : (n : ℕ) → n < cfg0.N → Vec F S8x8x32 .f32 × Vec F S8x32 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
              out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a reset point. -/
theorem outsAt0_A (c : Dev nD) (t : Fin cfg0.N) (h0 : t.val % 16 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- `outsAt0` at any other point: over what the point before left. -/
theorem outsAt0_B (c : Dev nD) (t : Fin cfg0.N) (h0 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the outputs' at
    `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is no reset point the statistics block's buffer holds what the body left at the point before: the point is
    not the first and the buffer was not written back between. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
/-- Likewise the count block's. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the closed form of the reset's condition says which case the
    point is in; away from a reset point the output buffers hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 16 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has each array of the pipeline at what the proof
    data computes and every other unscoped buffer as the host operations after the region leave it. -/
theorem run_main : θ_run defs (onTc (τ := τ) (main (F := F))) (s₀ m ρ)
    (Pipeline.FramePost cfgs (dats m) 0 (Pipeline.afterTail₀ cfgs (dats m) 0 (V0 m) sfxOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfxOpss) (hsub := sfx_sub) (hfresh := sfx_fresh) (hkeep := sfx_keeps)
    (hmain := hmain m Variants.none) (hA := A_eq m) (hΦ := fun _ _ => rfl)

/-- What the final state holds at a buffer that is no array of the pipeline and that no later operation writes: what the
    region found there. -/
theorem tail_spared (c : Dev nD) (b : Ref sig .tc) (hb : b = main_arg0 ∨ b = main_arg1) :
    Pipeline.afterTail₀ cfgs (dats m) 0 (V0 m) sfxOpss c b = V m c b := by
  unfold Pipeline.afterTail₀
  rw [StableHlo.after_of_forall_not_mem (b := Proc.devRef .tc b) _ _ (fun op hop => by
    obtain ⟨ops, hops, hop'⟩ := List.mem_flatten.mp hop
    exact sfx_spares b (by rcases hb with rfl | rfl <;> simp) ops hops op hop')]
  exact Pipeline.withArrays_of_ne _ _ _ _ b (by rcases hb with rfl | rfl <;> (intro w; fin_cases w <;> decide))

/-- THE FRAME: the program runs and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans ((tail_spared m c main_arg0 (Or.inl rfl)).trans (V_main_arg0 m c)),
     ((h c).2 main_arg1 (Pipeline.mem_restRefs_of main_arg1 (by decide) (by decide))).trans ((tail_spared m c main_arg1 (Or.inr rfl)).trans (V_main_arg1 m c))⟩)
    (run_main m ρ)

end Cert.KernelIdeal.Hand

end
-- ==== Proof.KTailDef.lean ====
/-
  The arithmetic that follows the accumulation, as named stages.

  The accumulation leaves, for each image b of 16 and each segment s of 32, eight rows of sums
  S[b, 0..7, s] and a pixel count Cn[b, s]. Rows 2j and 2j+1 are the two halves of one sum and are
  added back together: rows 0, 1 give the sum of the horizontal component over the segment, rows
  2, 3 the sum of its square, rows 4, 5 and 6, 7 the same for the vertical component.

  From a count c, a sum sx and a sum of squares sxx the unbiased variance of the segment is
      (sxx - sx * sx / max(c, 1)) / max(c - 1, 1).
  A segment is valid when it has at least 50 pixels and is not segment 0 (the background). The
  result is the sum over the valid segments of (variance of u + variance of v), divided by
  max(number of valid segments, 1), and 0 when no segment is valid.

  Every stage is written over an arbitrary float instance F.
-/
import proofs.«424109_j8529805050142_3_alg».proof.Proof.Gen.KernelIdeal.Launch

noncomputable section

namespace Cert.KernelIdeal.Hand

open Idealize.ShloMosaic Cert.KernelIdeal Cert.KernelIdeal.Gen

variable {F : FTy → Type} [FloatOps F]

/-! ## The four sums: two rows of the statistics added -/

/-- Rows 0 and 1 added: the sum of the horizontal component over each segment. -/
def rowsSum0 (S : FVec F S16x8x32 .f32) : FVec F S16x32 .f32 :=
  addf (shapeCast S16x32 (extractStridedSlice S16x1x32 ![0, 0, 0] S slices_S16x8x32_S16x1x32_0_0_0) shapeCasts_S16x1x32_S16x32)
    (shapeCast S16x32 (extractStridedSlice S16x1x32 ![0, 1, 0] S slices_S16x8x32_S16x1x32_0_1_0) shapeCasts_S16x1x32_S16x32)

/-- Rows 2 and 3 added: the sum of the squared horizontal component over each segment. -/
def rowsSum1 (S : FVec F S16x8x32 .f32) : FVec F S16x32 .f32 :=
  addf (shapeCast S16x32 (extractStridedSlice S16x1x32 ![0, 2, 0] S slices_S16x8x32_S16x1x32_0_2_0) shapeCasts_S16x1x32_S16x32)
    (shapeCast S16x32 (extractStridedSlice S16x1x32 ![0, 3, 0] S slices_S16x8x32_S16x1x32_0_3_0) shapeCasts_S16x1x32_S16x32)

/-- Rows 4 and 5 added: the sum of the vertical component over each segment. -/
def rowsSum2 (S : FVec F S16x8x32 .f32) : FVec F S16x32 .f32 :=
  addf (shapeCast S16x32 (extractStridedSlice S16x1x32 ![0, 4, 0] S slices_S16x8x32_S16x1x32_0_4_0) shapeCasts_S16x1x32_S16x32)
    (shapeCast S16x32 (extractStridedSlice S16x1x32 ![0, 5, 0] S slices_S16x8x32_S16x1x32_0_5_0) shapeCasts_S16x1x32_S16x32)

/-- Rows 6 and 7 added: the sum of the squared vertical component over each segment. -/
def rowsSum3 (S : FVec F S16x8x32 .f32) : FVec F S16x32 .f32 :=
  addf (shapeCast S16x32 (extractStridedSlice S16x1x32 ![0, 6, 0] S slices_S16x8x32_S16x1x32_0_6_0) shapeCasts_S16x1x32_S16x32)
    (shapeCast S16x32 (extractStridedSlice S16x1x32 ![0, 7, 0] S slices_S16x8x32_S16x1x32_0_7_0) shapeCasts_S16x1x32_S16x32)

/-! ## Constants -/

/-- The scalar 0. -/
def zero0 : FVec F S_ .f32 := constant S_ .f32 0x00000000#32
/-- The scalar 1. -/
def one0 : FVec F S_ .f32 := constant S_ .f32 0x3F800000#32
/-- 1 at every (image, segment). -/
def ones16 : FVec F S16x32 .f32 := broadcastInDim S16x32 ![] bcast_S_S16x32 (constant S_ .f32 0x3F800000#32)
/-- 50 at every (image, segment): the least pixel count of a valid segment. -/
def fifty16 : FVec F S16x32 .f32 := broadcastInDim S16x32 ![] bcast_S_S16x32 (constant S_ .f32 0x42480000#32)
/-- 0 at every (image, segment). -/
def zeros16 : FVec F S16x32 .f32 := broadcastInDim S16x32 ![] bcast_S_S16x32 (zero0 (F := F))

/-! ## The variance of one component over each segment -/

/-- max(c, 1): the divisor of the mean. -/
def cntPos (c : FVec F S16x32 .f32) : FVec F S16x32 .f32 := maximumf c ones16
/-- max(c - 1, 1): the divisor of the unbiased variance. -/
def cntLess1 (c : FVec F S16x32 .f32) : FVec F S16x32 .f32 := maximumf (subf c ones16) ones16
/-- (sxx - sx * sx / max(c, 1)) / max(c - 1, 1). -/
def varOf (c sx sxx : FVec F S16x32 .f32) : FVec F S16x32 .f32 :=
  Host.divf (subf sxx (Host.divf (mulf sx sx) (cntPos c))) (cntLess1 c)
/-- The variance of the horizontal component. -/
def varU (c su suu : FVec F S16x32 .f32) : FVec F S16x32 .f32 := varOf c su suu
/-- The variance of the vertical component. -/
def varV (c sv svv : FVec F S16x32 .f32) : FVec F S16x32 .f32 := varOf c sv svv
/-- The two variances added. -/
def varSum (c su suu sv svv : FVec F S16x32 .f32) : FVec F S16x32 .f32 := addf (varU c su suu) (varV c sv svv)

/-! ## Which segments count -/

/-- The segment number along the second axis of a [1, 32] array. -/
def segIota : IVec S1x32 32 := broadcastInDim S1x32 ![1] bcast_S32_S1x32_1 (iotaInDim S32 32 0)
/-- The bit of "segment 0", the background. -/
def isBg : IVec S1x32 1 := cmpi .eq segIota (broadcastInDim S1x32 ![] bcast_S_S1x32 (constantI S_ 32 0#32))
/-- The bit of "not the background" at every (image, segment). -/
def notBg16 : IVec S16x32 1 := broadcastInDim S16x32 ![0, 1] bcast_S1x32_S16x32_0_1 (noti isBg)
/-- The bit of a valid segment: at least 50 pixels, and not the background. -/
def valid (c : FVec F S16x32 .f32) : IVec S16x32 1 := andi (cmpf .oge c fifty16) notBg16

/-! ## The mean over the valid segments -/

/-- The summed variances where the segment is valid, 0 elsewhere. -/
def masked (c su suu sv svv : FVec F S16x32 .f32) : FVec F S16x32 .f32 :=
  select (valid c) (varSum c su suu sv svv) zeros16
/-- The sum of the masked variances over all (image, segment). -/
def total (c su suu sv svv : FVec F S16x32 .f32) : FVec F S_ .f32 :=
  Host.reduceAdd (masked c su suu sv svv) (zero0 (F := F)) reducesTo_S16x32_S_d0_1 h_S_
/-- The number of valid segments. -/
def nValid (c : FVec F S16x32 .f32) : FVec F S_ .f32 :=
  Host.reduceAdd (uitofp .f32 (valid c)) (zero0 (F := F)) reducesTo_S16x32_S_d0_1 h_S_
/-- The bit of "some segment is valid". -/
def anyValid (c : FVec F S16x32 .f32) : IVec S_ 1 := cmpf .ogt (nValid c) (zero0 (F := F))
/-- The total divided by max(number of valid segments, 1). -/
def meanVar (c su suu sv svv : FVec F S16x32 .f32) : FVec F S_ .f32 :=
  Host.divf (total c su suu sv svv) (maximumf (nValid c) (one0 (F := F)))

/-- The result from the count and the four sums: the mean variance when some segment is valid, else 0. -/
def tailK16 (c su suu sv svv : FVec F S16x32 .f32) : FVec F S_ .f32 :=
  select (anyValid c) (meanVar c su suu sv svv) (zero0 (F := F))

/-- The result from the eight rows of statistics and the counts. -/
def tailK (S : FVec F S16x8x32 .f32) (Cn : FVec F S16x32 .f32) : FVec F S_ .f32 :=
  tailK16 Cn (rowsSum0 S) (rowsSum1 S) (rowsSum2 S) (rowsSum3 S)

end Cert.KernelIdeal.Hand

end
-- ==== Proof.KITail.lean ====
/-
  What the operations after the accumulation leave in the buffers.

  The 66 operations that follow the accumulation read the two accumulated arrays — eight rows of
  sums per (image, segment), and a pixel count per (image, segment) — and write only intermediate
  values and the scalar result. Run in order from any contents of the buffers, they leave in the
  result buffer the mean over the valid segments of the summed variances of the two components,
  as a function of what the two accumulated arrays held; they leave both argument arrays as they
  were.

  The four sums at an index: rows 2j and 2j+1 of the statistics, each cut out as a [16, 1, 32]
  slab and read as a [16, 32] array, are added, so the sum at (b, s) is the array's entry
  (b, 2j, s) plus its entry (b, 2j+1, s).
-/
import proofs.«424109_j8529805050142_3_alg».proof.Proof.KTailDef
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Idealize.ShloMosaic Cert.KernelIdeal Cert.KernelIdeal.Gen

variable {F : FTy → Type} [FloatOps F]

/-! ## The operations after the accumulation compute the stages -/

/-- The four stretches of operations that follow the accumulation, in order. -/
abbrev tailOpss : List (List (HloOp τ sig (Elt F))) := [hostOps1, hostOps1_1, hostOps1_2, hostOps1_3]

set_option maxHeartbeats 4000000 in
/-- After the operations, the result buffer holds the mean variance computed from what the two
    accumulated arrays held before them. -/
theorem tail_result (W : Valuation τ sig (Elt F)) :
    (StableHlo.after (tailOpss (F := F)).flatten W (Proc.devRef .tc main_v54) : FVec F S_ .f32)
      = tailK (W (Proc.devRef .tc main_v2_0)) (W (Proc.devRef .tc main_v2_1)) := by
  simp only [tailOpss, hostOps1, hostOps1_1, hostOps1_2, hostOps1_3, List.flatten_cons, List.flatten_nil, List.append_nil,
    List.cons_append, List.nil_append]
  after_results_simp
  rfl

set_option maxHeartbeats 4000000 in
/-- The operations write neither argument array: the first holds what it held. -/
theorem tail_arg0 (W : Valuation τ sig (Elt F)) :
    StableHlo.after (tailOpss (F := F)).flatten W (Proc.devRef .tc main_arg0) = W (Proc.devRef .tc main_arg0) := by
  simp only [tailOpss, hostOps1, hostOps1_1, hostOps1_2, hostOps1_3, List.flatten_cons, List.flatten_nil, List.append_nil,
    List.cons_append, List.nil_append]
  after_results_simp

set_option maxHeartbeats 4000000 in
/-- The second argument array holds what it held. -/
theorem tail_arg1 (W : Valuation τ sig (Elt F)) :
    StableHlo.after (tailOpss (F := F)).flatten W (Proc.devRef .tc main_arg1) = W (Proc.devRef .tc main_arg1) := by
  simp only [tailOpss, hostOps1, hostOps1_1, hostOps1_2, hostOps1_3, List.flatten_cons, List.flatten_nil, List.append_nil,
    List.cons_append, List.nil_append]
  after_results_simp

/-! ## The four sums at an index -/

/-- Row `k` of a [16, 8, 32] array cut out and read as a [16, 32] array holds, at (b, s), the
    array's entry (b, k, s). -/
theorem row_apply {α : Type} (o : Nat) (X : S16x8x32.Idx → α) (h : S16x8x32.Slices ![0, o, 0] S16x1x32)
    (b : Fin 16) (s : Fin 32) (k : Fin 8) (hk : k.val = o) :
    shapeCast S16x32 (extractStridedSlice S16x1x32 ![0, o, 0] X h) shapeCasts_S16x1x32_S16x32 (ValueIdx.ix2 b s)
      = X (ValueIdx.ix3 b k s) := by
  refine (shapeCast_apply _ _ (ValueIdx.ix2 b s) (ValueIdx.ix3 b (0 : Fin 1) s) ?_).trans ?_
  · rw [Shape.rowMajor_val_three, Shape.rowMajor_val_two]
    show (b.val * 1 + 0) * 32 + s.val = b.val * 32 + s.val
    omega
  · exact ValueIdx.slice3_axis1_apply o X h b 0 s k (by rw [hk]; rfl)

/-- The sum of the horizontal component at (b, s): rows 0 and 1 at (b, s), added. -/
theorem rowsSum0_apply (S : FVec Ideal S16x8x32 .f32) (b : Fin 16) (s : Fin 32) :
    rowsSum0 (F := Ideal) S (ValueIdx.ix2 b s) = S (ValueIdx.ix3 b (0 : Fin 8) s) + S (ValueIdx.ix3 b (1 : Fin 8) s) := by
  unfold rowsSum0
  rw [ValueIdx.addf_apply, row_apply 0 S _ b s 0 rfl, row_apply 1 S _ b s 1 rfl]

/-- The sum of the squared horizontal component at (b, s): rows 2 and 3 at (b, s), added. -/
theorem rowsSum1_apply (S : FVec Ideal S16x8x32 .f32) (b : Fin 16) (s : Fin 32) :
    rowsSum1 (F := Ideal) S (ValueIdx.ix2 b s) = S (ValueIdx.ix3 b (2 : Fin 8) s) + S (ValueIdx.ix3 b (3 : Fin 8) s) := by
  unfold rowsSum1
  rw [ValueIdx.addf_apply, row_apply 2 S _ b s 2 rfl, row_apply 3 S _ b s 3 rfl]

/-- The sum of the vertical component at (b, s): rows 4 and 5 at (b, s), added. -/
theorem rowsSum2_apply (S : FVec Ideal S16x8x32 .f32) (b : Fin 16) (s : Fin 32) :
    rowsSum2 (F := Ideal) S (ValueIdx.ix2 b s) = S (ValueIdx.ix3 b (4 : Fin 8) s) + S (ValueIdx.ix3 b (5 : Fin 8) s) := by
  unfold rowsSum2
  rw [ValueIdx.addf_apply, row_apply 4 S _ b s 4 rfl, row_apply 5 S _ b s 5 rfl]

/-- The sum of the squared vertical component at (b, s): rows 6 and 7 at (b, s), added. -/
theorem rowsSum3_apply (S : FVec Ideal S16x8x32 .f32) (b : Fin 16) (s : Fin 32) :
    rowsSum3 (F := Ideal) S (ValueIdx.ix2 b s) = S (ValueIdx.ix3 b (6 : Fin 8) s) + S (ValueIdx.ix3 b (7 : Fin 8) s) := by
  unfold rowsSum3
  rw [ValueIdx.addf_apply, row_apply 6 S _ b s 6 rfl, row_apply 7 S _ b s 7 rfl]

end Cert.KernelIdeal.Hand

end
-- ==== Proof.KIValue.lean ====
/-
  The idealized kernel program's result: the host tail applied to the two result arrays of the region.

  The run of the program leaves every unscoped buffer at what the 66 host operations after the region compute from the
  buffers at the region's exit, where the two result arrays hold what the grid wrote back. Read at the program's result
  buffer this is the tail function of those two arrays.
-/
import proofs.«424109_j8529805050142_3_alg».proof.Proof.KIFrame
import proofs.«424109_j8529805050142_3_alg».proof.Proof.KITail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The statistics array after the whole grid. -/
abbrev statsRes (c : Dev nD) : FVec F S16x8x32 .f32 := (dats m 0 c).arrAt 2 cfg0.N
/-- The count array after the whole grid. -/
abbrev cntRes (c : Dev nD) : FVec F S16x32 .f32 := (dats m 0 c).arrAt 3 cfg0.N

/-- The result buffer's final contents: the tail of the two result arrays. -/
theorem result_eq (c : Dev nD) :
    (Pipeline.afterTail₀ cfgs (dats m) 0 (V0 m) sfxOpss c main_v54 : FVec F S_ .f32) = tailK (statsRes m c) (cntRes m c) := by
  unfold Pipeline.afterTail₀
  refine (tail_result (F := F) _).trans ?_
  have h2 : (Pipeline.withArrays (cfgs 0).spec c (V0 m c) (fun w => (dats m 0 c).arrAt w (cfgs 0).N) (Proc.devRef .tc main_v2_0) : FVec F S16x8x32 .f32)
      = statsRes m c := Pipeline.withArrays_arr spec0 launch0.win.arr_inj c _ _ 2
  have h3 : (Pipeline.withArrays (cfgs 0).spec c (V0 m c) (fun w => (dats m 0 c).arrAt w (cfgs 0).N) (Proc.devRef .tc main_v2_1) : FVec F S16x32 .f32)
      = cntRes m c := Pipeline.withArrays_arr spec0 launch0.win.arr_inj c _ _ 3
  exact congrArg₂ tailK h2 h3

/-- The program runs; its result buffer ends at the tail of the two result arrays and its arguments end unchanged. -/
theorem run_value : θ_run defs (onTc (τ := τ) (main (F := F))) ⟨m, fun _ => 0, ρ⟩ (fun r => ∀ c : Dev nD,
      r.2.mem ((c.tc : Thread nD τ).loc main_v54) = tailK (statsRes m c) (cntRes m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v54 (Pipeline.mem_restRefs_of main_v54 (by decide) (by decide))).trans (result_eq m c),
     ((h c).2 main_arg0 (Pipeline.mem_restRefs_of main_arg0 (by decide) (by decide))).trans ((tail_spared m c main_arg0 (Or.inl rfl)).trans (V_main_arg0 m c)),
     ((h c).2 main_arg1 (Pipeline.mem_restRefs_of main_arg1 (by decide) (by decide))).trans ((tail_spared m c main_arg1 (Or.inr rfl)).trans (V_main_arg1 m c))⟩)
    (run_main m ρ)

end Cert.KernelIdeal.Hand

end
-- ==== Proof.RefTerm.lean ====
/-
  The reference program's result as one function of its two arguments, stage by stage.

  Every pixel of the batch gets a global segment number (its own word plus 32 times its image's
  number); five sums over the pixels of each of the 512 global segments follow (of 1, of each flow
  component and of each component's square); from them, per segment, the two sample variances, the
  background test (a segment whose number is a multiple of 32), the size test (at least 50 pixels)
  and, at the end, the mean of the variance sums over the segments passing both tests (zero when
  none passes).
-/
import proofs.«424109_j8529805050142_3_alg».proof.Proof.Gen.ReferenceIdeal

noncomputable section

namespace Cert.ReferenceIdeal.Hand

open Idealize.ShloMosaic Cert.ReferenceIdeal Cert.ReferenceIdeal.Facts₀

variable {F : FTy → Type} [FloatOps F]

/-! ## The pixels, flattened -/

/-- Per image, 32 times its number: the offset of its segments among the 512. -/
def imgBase : IVec S16x1 32 :=
  muli (broadcastInDim S16x1 ![0] bcast_S16_S16x1_0 (iotaInDim S16 32 0))
    (broadcastInDim S16x1 ![] bcast_S_S16x1 (constantI S_ 32 32#32))

/-- Every pixel's global segment number, the batch read as one row of 8388608 pixels. -/
def gid (k : IVec S16x512x1024 32) : IVec S8388608 32 :=
  shapeCast S8388608
    (addi (shapeCast S16x524288 k shapeCasts_S16x512x1024_S16x524288)
      (broadcastInDim S16x524288 ![0, 1] bcast_S16x1_S16x524288_0_1 imgBase))
    shapeCasts_S16x524288_S8388608

/-- The global segment numbers as a column of one-entry index vectors. -/
def gidCol (k : IVec S16x512x1024 32) : IVec S8388608x1 32 :=
  broadcastInDim S8388608x1 ![0] bcast_S8388608_S8388608x1_0 (gid k)

/-- The horizontal flow component of every pixel, flattened like the segment numbers. -/
def uFlat (x : FVec F S16x2x512x1024 .f32) : FVec F S8388608 .f32 :=
  shapeCast S8388608
    (shapeCast S16x512x1024
      (extractStridedSlice S16x1x512x1024 ![0, 0, 0, 0] x slices_S16x2x512x1024_S16x1x512x1024_0_0_0_0)
      shapeCasts_S16x1x512x1024_S16x512x1024)
    shapeCasts_S16x512x1024_S8388608

/-- The vertical flow component of every pixel, flattened like the segment numbers. -/
def vFlat (x : FVec F S16x2x512x1024 .f32) : FVec F S8388608 .f32 :=
  shapeCast S8388608
    (shapeCast S16x512x1024
      (extractStridedSlice S16x1x512x1024 ![0, 1, 0, 0] x slices_S16x2x512x1024_S16x1x512x1024_0_1_0_0)
      shapeCasts_S16x1x512x1024_S16x512x1024)
    shapeCasts_S16x512x1024_S8388608

/-! ## The five sums per segment -/

/-- Zero at each of the 512 segments: where every sum starts. -/
def zero512 : FVec F S512 .f32 :=
  broadcastInDim S512 ![] bcast_S_S512 (constant S_ .f32 0x00000000#32)

/-- One at every pixel. -/
def onePix : FVec F S8388608 .f32 :=
  broadcastInDim S8388608 ![] bcast_S_S8388608 (constant S_ .f32 0x3F800000#32)

/-- The number of pixels of each segment. -/
def segCnt (k : IVec S16x512x1024 32) : FVec F S512 .f32 :=
  Host.scatterAdd scatter_S512_S8388608x1_S8388608_n_0_0_1 (zero512 (F := F)) (gidCol k) (onePix (F := F))

/-- The sum of the horizontal component over each segment. -/
def segU (x : FVec F S16x2x512x1024 .f32) (k : IVec S16x512x1024 32) : FVec F S512 .f32 :=
  Host.scatterAdd scatter_S512_S8388608x1_S8388608_n_0_0_1 (zero512 (F := F)) (gidCol k) (uFlat x)

/-- The sum of the horizontal component's square over each segment. -/
def segUU (x : FVec F S16x2x512x1024 .f32) (k : IVec S16x512x1024 32) : FVec F S512 .f32 :=
  Host.scatterAdd scatter_S512_S8388608x1_S8388608_n_0_0_1 (zero512 (F := F)) (gidCol k) (mulf (uFlat x) (uFlat x))

/-- The sum of the vertical component over each segment. -/
def segV (x : FVec F S16x2x512x1024 .f32) (k : IVec S16x512x1024 32) : FVec F S512 .f32 :=
  Host.scatterAdd scatter_S512_S8388608x1_S8388608_n_0_0_1 (zero512 (F := F)) (gidCol k) (vFlat x)

/-- The sum of the vertical component's square over each segment. -/
def segVV (x : FVec F S16x2x512x1024 .f32) (k : IVec S16x512x1024 32) : FVec F S512 .f32 :=
  Host.scatterAdd scatter_S512_S8388608x1_S8388608_n_0_0_1 (zero512 (F := F)) (gidCol k) (mulf (vFlat x) (vFlat x))

/-! ## From the sums to the result -/

/-- One at each of the 512 segments. -/
def one512 : FVec F S512 .f32 :=
  broadcastInDim S512 ![] bcast_S_S512 (constant S_ .f32 0x3F800000#32)

/-- A segment's pixel count, at least one. -/
def cntPos (c : FVec F S512 .f32) : FVec F S512 .f32 := maximumf c (one512 (F := F))

/-- A segment's pixel count less one, at least one. -/
def cntLess (c : FVec F S512 .f32) : FVec F S512 .f32 := maximumf (subf c (one512 (F := F))) (one512 (F := F))

/-- The sample variance of one component over each segment, from the count, the sum and the sum of squares. -/
def variance (c s ss : FVec F S512 .f32) : FVec F S512 .f32 :=
  Host.divf (subf ss (Host.divf (mulf s s) (cntPos c))) (cntLess c)

/-- The horizontal component's variance per segment. -/
def varU (c su suu : FVec F S512 .f32) : FVec F S512 .f32 := variance c su suu

/-- The vertical component's variance per segment. -/
def varV (c sv svv : FVec F S512 .f32) : FVec F S512 .f32 := variance c sv svv

/-- The divisor 32, after the test that replaces a zero divisor by one. -/
def modulus : IVec S_ 32 :=
  select (cmpi .eq (id (constantI S_ 32 32#32)) (constantI S_ 32 0#32)) (constantI S_ 32 1#32) (id (constantI S_ 32 32#32))

/-- The truncated remainder of each segment's number by the divisor. -/
def truncRem : IVec S512 32 :=
  Host.remsi (iotaInDim S512 32 0) (broadcastInDim S512 ![] bcast_S_S512 modulus)

/-- Whether the truncated remainder must be moved by one divisor to take the divisor's sign: it is not zero, and its sign differs from the divisor's. -/
def remAdjust : IVec S512 1 :=
  andi
    (cmpi .ne
      (cmpi .slt truncRem (broadcastInDim S512 ![] bcast_S_S512 (constantI S_ 32 0#32)))
      (broadcastInDim S512 ![] bcast_S_S512 (cmpi .slt modulus (constantI S_ 32 0#32))))
    (cmpi .ne truncRem (broadcastInDim S512 ![] bcast_S_S512 (constantI S_ 32 0#32)))

/-- Each segment's number modulo 32, with the sign of the divisor. -/
def segMod : IVec S512 32 :=
  select remAdjust (addi truncRem (broadcastInDim S512 ![] bcast_S_S512 modulus)) truncRem

/-- The background segments: those whose number is a multiple of 32. -/
def isBg : IVec S512 1 :=
  cmpi .eq segMod (broadcastInDim S512 ![] bcast_S_S512 (constantI S_ 32 0#32))

/-- The segments of at least 50 pixels. -/
def bigEnough (c : FVec F S512 .f32) : IVec S512 1 :=
  cmpf .oge c (broadcastInDim S512 ![] bcast_S_S512 (constant (F := F) S_ .f32 0x42480000#32))

/-- The segments that count: large enough and not background. -/
def valid (c : FVec F S512 .f32) : IVec S512 1 := andi (bigEnough c) (noti isBg)

/-- The two variances added, per segment. -/
def varSum (c su suu sv svv : FVec F S512 .f32) : FVec F S512 .f32 := addf (varU c su suu) (varV c sv svv)

/-- The variance sum at a segment that counts, zero elsewhere. -/
def masked (c su suu sv svv : FVec F S512 .f32) : FVec F S512 .f32 :=
  select (valid c) (varSum c su suu sv svv)
    (broadcastInDim S512 ![] bcast_S_S512 (id (constant (F := F) S_ .f32 0x00000000#32)))

/-- The sum of the variance sums over the segments that count. -/
def total (c su suu sv svv : FVec F S512 .f32) : FVec F S_ .f32 :=
  Host.reduceAdd (masked c su suu sv svv) (constant (F := F) S_ .f32 0x00000000#32) reducesTo_S512_S_d0 h_S_

/-- One at a segment that counts, zero elsewhere. -/
def validF (c : FVec F S512 .f32) : FVec F S512 .f32 := uitofp .f32 (valid c)

/-- The number of segments that count. -/
def nValid (c : FVec F S512 .f32) : FVec F S_ .f32 :=
  Host.reduceAdd (validF c) (constant (F := F) S_ .f32 0x00000000#32) reducesTo_S512_S_d0 h_S_

/-- Whether any segment counts. -/
def anyValid (c : FVec F S512 .f32) : IVec S_ 1 := cmpf .ogt (nValid c) (constant (F := F) S_ .f32 0x00000000#32)

/-- The mean of the variance sums over the segments that count (the divisor at least one). -/
def meanVar (c su suu sv svv : FVec F S512 .f32) : FVec F S_ .f32 :=
  Host.divf (total c su suu sv svv) (maximumf (nValid c) (constant (F := F) S_ .f32 0x3F800000#32))

/-- The result from the five sums: the mean when some segment counts, zero otherwise. -/
def tailR (c su suu sv svv : FVec F S512 .f32) : FVec F S_ .f32 :=
  select (anyValid c) (meanVar c su suu sv svv) (id (constant (F := F) S_ .f32 0x00000000#32))

/-- The reference's result as a function of the flow array and the mask array. -/
def refResult (x : FVec F S16x2x512x1024 .f32) (k : IVec S16x512x1024 32) : FVec F S_ .f32 :=
  tailR (segCnt k) (segU x k) (segUU x k) (segV x k) (segVV x k)

end Cert.ReferenceIdeal.Hand

end
-- ==== Proof.RefRun.lean ====
/-
  The reference program's run, read back.

  The program is a straight line of 105 operations: 83 statements of its entry function, with the
  four helper functions it calls written out at their calls. Every weakly fair execution ends with
  the result buffer holding the composed function of the two argument arrays, and the arguments as
  they were. The line is cut in five stretches, each read on its own from any contents:
    A  the pixels flattened (global segment numbers, the two flow components);
    B  the five sums per segment;
    C  the two variances per segment;
    D  the background test (each segment's number modulo 32, compared with zero);
    E  the validity mask, the masked sum, the count and the final quotient.
-/
import proofs.«424109_j8529805050142_3_alg».proof.Proof.RefTerm
import Idealize.ShloMosaic.Lib.StableHlo.Run

noncomputable section

namespace Cert.ReferenceIdeal.Hand

open Cert.ReferenceIdeal Cert.ReferenceIdeal.Facts₀ Idealize.ShloMosaic Idealize.ShloMosaic.TcCoe
  Idealize.SL.Sem Idealize.ShloMosaic.StableHlo

variable {F : FTy → Type} [FloatOps F]

/-- Whole-array contents at each element type. -/
local notation "𝔉[" s "]" => BufTy.Contents (Elt F) (BufTy.mk s EltTy.f32)
local notation "𝔍[" s "]" => BufTy.Contents (Elt F) (BufTy.mk s EltTy.i32)
local notation "𝔅[" s "]" => BufTy.Contents (Elt F) (BufTy.mk s EltTy.i1)

/-- The spellings that recur: the two float constants, a scalar spread over the 512 segments, the
    segment numbers as a column of indices, the sum into segments, the sum of all 512 entries. -/
local notation "zeroF" => constant (F := F) S_ FTy.f32 0x00000000#32
local notation "oneF" => constant (F := F) S_ FTy.f32 0x3F800000#32
local notation "spreadF" => (broadcastInDim S512 ![] bcast_S_S512 : 𝔉[S_] → 𝔉[S512])
local notation "asColumn" => (broadcastInDim S8388608x1 ![0] bcast_S8388608_S8388608x1_0 : 𝔍[S8388608] → 𝔍[S8388608x1])
local notation "sumInto" => ((fun x i u => Host.scatterAdd scatter_S512_S8388608x1_S8388608_n_0_0_1 x i u) :
  𝔉[S512] → 𝔍[S8388608x1] → 𝔉[S8388608] → 𝔉[S512])
local notation "sumAll" => ((fun x v => Host.reduceAdd x v reducesTo_S512_S_d0 h_S_) : 𝔉[S512] → 𝔉[S_] → 𝔉[S_])

/-! ## The operations, in order -/

/-- Stretch A, 15 operations: the mask array flattened per image, 32 times the image's number added,
    flattened whole; each flow component cut out and flattened the same way. -/
abbrev opsA : List (HloOp τ sig (Elt F)) :=
  [ reshape main_arg1 main_v0 rfl shapeCasts_S16x512x1024_S16x524288,
    nullary main_v1 (iotaInDim S16 32 0),
    unary main_v1 main_v2 (broadcastInDim S16x1 ![0] bcast_S16_S16x1_0 : 𝔍[S16] → 𝔍[S16x1]),
    nullary main_c (constantI S_ 32 32#32),
    unary main_c main_v3 (broadcastInDim S16x1 ![] bcast_S_S16x1 : 𝔍[S_] → 𝔍[S16x1]),
    binary main_v2 main_v3 main_v4 (muli : 𝔍[S16x1] → 𝔍[S16x1] → 𝔍[S16x1]),
    unary main_v4 main_v5 (broadcastInDim S16x524288 ![0, 1] bcast_S16x1_S16x524288_0_1 : 𝔍[S16x1] → 𝔍[S16x524288]),
    binary main_v0 main_v5 main_v6 (addi : 𝔍[S16x524288] → 𝔍[S16x524288] → 𝔍[S16x524288]),
    reshape main_v6 main_v7 rfl shapeCasts_S16x524288_S8388608,
    unary main_arg0 main_v8 ((extractStridedSlice S16x1x512x1024 ![0, 0, 0, 0] · slices_S16x2x512x1024_S16x1x512x1024_0_0_0_0) :
      𝔉[S16x2x512x1024] → 𝔉[S16x1x512x1024]),
    reshape main_v8 main_v9 rfl shapeCasts_S16x1x512x1024_S16x512x1024,
    reshape main_v9 main_v10 rfl shapeCasts_S16x512x1024_S8388608,
    unary main_arg0 main_v11 ((extractStridedSlice S16x1x512x1024 ![0, 1, 0, 0] · slices_S16x2x512x1024_S16x1x512x1024_0_1_0_0) :
      𝔉[S16x2x512x1024] → 𝔉[S16x1x512x1024]),
    reshape main_v11 main_v12 rfl shapeCasts_S16x1x512x1024_S16x512x1024,
    reshape main_v12 main_v13 rfl shapeCasts_S16x512x1024_S8388608 ]

/-- Stretch B, 24 operations: the sums over each segment of 1, of each component and of each
    component's square, each from zero. -/
abbrev opsB : List (HloOp τ sig (Elt F)) :=
  [ nullary main_cst oneF,
    unary main_cst main_v14 (broadcastInDim S8388608 ![] bcast_S_S8388608 : 𝔉[S_] → 𝔉[S8388608]),
    nullary main_cst_0 zeroF,
    unary main_cst_0 main_v15 spreadF,
    unary main_v7 main_v16 asColumn,
    ternary main_v15 main_v16 main_v14 main_v17 sumInto,
    nullary main_cst_1 zeroF,
    unary main_cst_1 main_v18 spreadF,
    unary main_v7 main_v19 asColumn,
    ternary main_v18 main_v19 main_v10 main_v20 sumInto,
    binary main_v10 main_v10 main_v21 (mulf : 𝔉[S8388608] → 𝔉[S8388608] → 𝔉[S8388608]),
    nullary main_cst_2 zeroF,
    unary main_cst_2 main_v22 spreadF,
    unary main_v7 main_v23 asColumn,
    ternary main_v22 main_v23 main_v21 main_v24 sumInto,
    nullary main_cst_3 zeroF,
    unary main_cst_3 main_v25 spreadF,
    unary main_v7 main_v26 asColumn,
    ternary main_v25 main_v26 main_v13 main_v27 sumInto,
    binary main_v13 main_v13 main_v28 (mulf : 𝔉[S8388608] → 𝔉[S8388608] → 𝔉[S8388608]),
    nullary main_cst_4 zeroF,
    unary main_cst_4 main_v29 spreadF,
    unary main_v7 main_v30 asColumn,
    ternary main_v29 main_v30 main_v28 main_v31 sumInto ]

/-- Stretch C, 17 operations: the count made at least one, the count less one made at least one,
    and each component's variance from its sum and its sum of squares. -/
abbrev opsC : List (HloOp τ sig (Elt F)) :=
  [ nullary main_cst_5 oneF,
    unary main_cst_5 main_v32 spreadF,
    binary main_v17 main_v32 main_v33 (maximumf : 𝔉[S512] → 𝔉[S512] → 𝔉[S512]),
    nullary main_cst_6 oneF,
    unary main_cst_6 main_v34 spreadF,
    binary main_v17 main_v34 main_v35 (subf : 𝔉[S512] → 𝔉[S512] → 𝔉[S512]),
    nullary main_cst_7 oneF,
    unary main_cst_7 main_v36 spreadF,
    binary main_v35 main_v36 main_v37 (maximumf : 𝔉[S512] → 𝔉[S512] → 𝔉[S512]),
    binary main_v20 main_v20 main_v38 (mulf : 𝔉[S512] → 𝔉[S512] → 𝔉[S512]),
    binary main_v38 main_v33 main_v39 (Host.divf : 𝔉[S512] → 𝔉[S512] → 𝔉[S512]),
    binary main_v24 main_v39 main_v40 (subf : 𝔉[S512] → 𝔉[S512] → 𝔉[S512]),
    binary main_v40 main_v37 main_v41 (Host.divf : 𝔉[S512] → 𝔉[S512] → 𝔉[S512]),
    binary main_v27 main_v27 main_v42 (mulf : 𝔉[S512] → 𝔉[S512] → 𝔉[S512]),
    binary main_v42 main_v33 main_v43 (Host.divf : 𝔉[S512] → 𝔉[S512] → 𝔉[S512]),
    binary main_v31 main_v43 main_v44 (subf : 𝔉[S512] → 𝔉[S512] → 𝔉[S512]),
    binary main_v44 main_v37 main_v45 (Host.divf : 𝔉[S512] → 𝔉[S512] → 𝔉[S512]) ]

/-- Stretch D, 26 operations: the segment numbers 0 … 511 and the divisor 32; the remainder function
    written out (the divisor replaced by one if it were zero, the truncated remainder, moved by one
    divisor where it is not zero and its sign differs from the divisor's); the comparison with zero. -/
abbrev opsD : List (HloOp τ sig (Elt F)) :=
  [ nullary main_v46 (iotaInDim S512 32 0),
    nullary main_c_8 (constantI S_ 32 32#32),
    TRef.unary (.of main_c_8 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S512 ![] bcast_S_S512),
    TRef.binary (.of main_v46 : TRef sig ⟨S512, .i32⟩) main_call0.v3 main_call0.v4 Host.remsi,
    TRef.nullary main_call0.c_1 (constantI S_ 32 0#32),
    TRef.unary main_call0.c_1 main_call0.v5 (broadcastInDim S512 ![] bcast_S_S512),
    TRef.binary main_call0.v4 main_call0.v5 main_call0.v6 (cmpi .ne),
    TRef.nullary main_call0.c_2 (constantI S_ 32 0#32),
    TRef.unary main_call0.c_2 main_call0.v7 (broadcastInDim S512 ![] bcast_S_S512),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S512 ![] bcast_S_S512),
    TRef.binary main_call0.v8 main_call0.v10 main_call0.v11 (cmpi .ne),
    TRef.binary main_call0.v11 main_call0.v6 main_call0.v12 andi,
    TRef.unary main_call0.call0.v0 main_call0.v13 (broadcastInDim S512 ![] bcast_S_S512),
    TRef.binary main_call0.v4 main_call0.v13 main_call0.v14 addi,
    TRef.ternary main_call0.v12 main_call0.v14 main_call0.v4 main_call0.v15 select,
    nullary main_c_9 (constantI S_ 32 0#32),
    unary main_c_9 main_v48 (broadcastInDim S512 ![] bcast_S_S512 : 𝔍[S_] → 𝔍[S512]),
    binary main_v47 main_v48 main_v49 (cmpi .eq : 𝔍[S512] → 𝔍[S512] → 𝔅[S512]) ]

/-- Stretch E, 23 operations: the segments of at least 50 pixels that are not background; the
    variance sums, zero outside those segments, added up; the segments counted; the quotient by the
    count made at least one; zero instead when no segment counts. -/
abbrev opsE : List (HloOp τ sig (Elt F)) :=
  [ nullary main_cst_10 (constant S_ .f32 0x42480000#32),
    unary main_cst_10 main_v50 spreadF,
    binary main_v17 main_v50 main_v51 (cmpf .oge : 𝔉[S512] → 𝔉[S512] → 𝔅[S512]),
    unary main_v49 main_v52 (noti : 𝔅[S512] → 𝔅[S512]),
    binary main_v51 main_v52 main_v53 (andi : 𝔅[S512] → 𝔅[S512] → 𝔅[S512]),
    binary main_v41 main_v45 main_v54 (addf : 𝔉[S512] → 𝔉[S512] → 𝔉[S512]),
    nullary main_cst_11 zeroF,
    TRef.unary (.of main_cst_11 : TRef sig ⟨S_, .f32⟩) main_call1.v0 id,
    TRef.unary main_call1.v0 main_call1.v1 (broadcastInDim S512 ![] bcast_S_S512),
    TRef.ternary (.of main_v53 : TRef sig ⟨S512, .i1⟩) (.of main_v54 : TRef sig ⟨S512, .f32⟩) main_call1.v1 main_call1.v2 select,
    nullary main_cst_12 zeroF,
    binary main_v55 main_cst_12 main_v56 sumAll,
    unary main_v53 main_v57 (uitofp .f32 : 𝔅[S512] → 𝔉[S512]),
    nullary main_cst_13 zeroF,
    binary main_v57 main_cst_13 main_v58 sumAll,
    nullary main_cst_14 zeroF,
    binary main_v58 main_cst_14 main_v59 (cmpf .ogt : 𝔉[S_] → 𝔉[S_] → 𝔅[S_]),
    nullary main_cst_15 oneF,
    binary main_v58 main_cst_15 main_v60 (maximumf : 𝔉[S_] → 𝔉[S_] → 𝔉[S_]),
    binary main_v56 main_v60 main_v61 (Host.divf : 𝔉[S_] → 𝔉[S_] → 𝔉[S_]),
    nullary main_cst_16 zeroF,
    TRef.unary (.of main_cst_16 : TRef sig ⟨S_, .f32⟩) main_call2.v0 id,
    TRef.ternary (.of main_v59 : TRef sig ⟨S_, .i1⟩) (.of main_v61 : TRef sig ⟨S_, .f32⟩) main_call2.v0 main_call2.v1 select ]

/-- The whole line. -/
abbrev ops : List (HloOp τ sig (Elt F)) := opsA ++ (opsB ++ (opsC ++ (opsD ++ opsE)))

/-! ## The entry function is the line -/

set_option maxRecDepth 4096 in
set_option maxHeartbeats 4000000 in
/-- The entry function is that line: the helper functions unfolded at their calls, both sides are one
    chain of steps once sequencing is associated to the right. -/
theorem main_eq (c : Dev nD) : main (F := F) c = seq ops := by
  simp only [main, main_part0, main_part1, fn_remainder.body, fn_where.body, fn_where_0.body, fn_where_1.body,
    ops, opsA, opsB, opsC, opsD, opsE, List.cons_append, List.nil_append, seq, bind_assoc, pure_bind]

/-! ## What each stretch leaves -/

/-- The contents after two stretches in a row: the second run from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Stretch A from any contents: the three flattened arrays as functions of the arguments, the
    arguments as they were. -/
theorem afterA (V : Valuation τ sig (Elt F)) :
    after opsA V (main_v7 : DevRef τ sig) = gid (V (main_arg1 : DevRef τ sig))
    ∧ after opsA V (main_v10 : DevRef τ sig) = uFlat (V (main_arg0 : DevRef τ sig))
    ∧ after opsA V (main_v13 : DevRef τ sig) = vFlat (V (main_arg0 : DevRef τ sig))
    ∧ after opsA V (main_arg0 : DevRef τ sig) = V (main_arg0 : DevRef τ sig)
    ∧ after opsA V (main_arg1 : DevRef τ sig) = V (main_arg1 : DevRef τ sig) := by
  refine ⟨?_, ?_, ?_, ?_, ?_⟩ <;> after_results_simp <;> rfl

/-- Stretch B from contents holding the three flattened arrays: the five sums per segment. -/
theorem afterB (W : Valuation τ sig (Elt F)) (x : FVec F S16x2x512x1024 .f32) (k : IVec S16x512x1024 32)
    (h7 : W (main_v7 : DevRef τ sig) = gid k) (h10 : W (main_v10 : DevRef τ sig) = uFlat x)
    (h13 : W (main_v13 : DevRef τ sig) = vFlat x) :
    after opsB W (main_v17 : DevRef τ sig) = segCnt k
    ∧ after opsB W (main_v20 : DevRef τ sig) = segU x k
    ∧ after opsB W (main_v24 : DevRef τ sig) = segUU x k
    ∧ after opsB W (main_v27 : DevRef τ sig) = segV x k
    ∧ after opsB W (main_v31 : DevRef τ sig) = segVV x k
    ∧ after opsB W (main_arg0 : DevRef τ sig) = W (main_arg0 : DevRef τ sig)
    ∧ after opsB W (main_arg1 : DevRef τ sig) = W (main_arg1 : DevRef τ sig) := by
  refine ⟨?_, ?_, ?_, ?_, ?_, ?_, ?_⟩ <;> after_results_simp <;> (try rw [h7]) <;> (try rw [h10]) <;> (try rw [h13]) <;> rfl

/-- Stretch C from contents holding the five sums: the two variances, the count as it was. -/
theorem afterC (W : Valuation τ sig (Elt F)) (c su suu sv svv : FVec F S512 .f32)
    (h17 : W (main_v17 : DevRef τ sig) = c) (h20 : W (main_v20 : DevRef τ sig) = su)
    (h24 : W (main_v24 : DevRef τ sig) = suu) (h27 : W (main_v27 : DevRef τ sig) = sv)
    (h31 : W (main_v31 : DevRef τ sig) = svv) :
    after opsC W (main_v41 : DevRef τ sig) = varU c su suu
    ∧ after opsC W (main_v45 : DevRef τ sig) = varV c sv svv
    ∧ after opsC W (main_v17 : DevRef τ sig) = c
    ∧ after opsC W (main_arg0 : DevRef τ sig) = W (main_arg0 : DevRef τ sig)
    ∧ after opsC W (main_arg1 : DevRef τ sig) = W (main_arg1 : DevRef τ sig) := by
  subst h17 h20 h24 h27 h31
  refine ⟨?_, ?_, ?_, ?_, ?_⟩ <;> after_results_simp <;> rfl

/-- Stretch D from any contents: the background test, a constant; the count and the variances as
    they were. -/
theorem afterD (W : Valuation τ sig (Elt F)) :
    after opsD W (main_v49 : DevRef τ sig) = isBg
    ∧ after opsD W (main_v17 : DevRef τ sig) = W (main_v17 : DevRef τ sig)
    ∧ after opsD W (main_v41 : DevRef τ sig) = W (main_v41 : DevRef τ sig)
    ∧ after opsD W (main_v45 : DevRef τ sig) = W (main_v45 : DevRef τ sig)
    ∧ after opsD W (main_arg0 : DevRef τ sig) = W (main_arg0 : DevRef τ sig)
    ∧ after opsD W (main_arg1 : DevRef τ sig) = W (main_arg1 : DevRef τ sig) := by
  refine ⟨?_, ?_, ?_, ?_, ?_, ?_⟩ <;> after_results_simp <;> rfl

/-- Stretch E from contents holding the count, the variances and the background test: the result. -/
theorem afterE (W : Valuation τ sig (Elt F)) (c su suu sv svv : FVec F S512 .f32)
    (h17 : W (main_v17 : DevRef τ sig) = c) (h41 : W (main_v41 : DevRef τ sig) = varU c su suu)
    (h45 : W (main_v45 : DevRef τ sig) = varV c sv svv) (h49 : W (main_v49 : DevRef τ sig) = isBg) :
    after opsE W (main_v62 : DevRef τ sig) = tailR c su suu sv svv
    ∧ after opsE W (main_arg0 : DevRef τ sig) = W (main_arg0 : DevRef τ sig)
    ∧ after opsE W (main_arg1 : DevRef τ sig) = W (main_arg1 : DevRef τ sig) := by
  subst h17
  refine ⟨?_, ?_, ?_⟩ <;> after_results_simp <;> (try rw [h41, h45, h49]) <;> rfl

/-- The whole line from any contents: the result buffer at the composed function of the two
    arguments, the arguments as they were. -/
theorem after_ops (V : Valuation τ sig (Elt F)) :
    after ops V (main_v62 : DevRef τ sig) = refResult (V (main_arg0 : DevRef τ sig)) (V (main_arg1 : DevRef τ sig))
    ∧ after ops V (main_arg0 : DevRef τ sig) = V (main_arg0 : DevRef τ sig)
    ∧ after ops V (main_arg1 : DevRef τ sig) = V (main_arg1 : DevRef τ sig) := by
  obtain ⟨a7, a10, a13, a0, a1⟩ := afterA V
  obtain ⟨b17, b20, b24, b27, b31, b0, b1⟩ := afterB (after opsA V) _ _ a7 a10 a13
  obtain ⟨c41, c45, c17, c0, c1⟩ := afterC (after opsB (after opsA V)) _ _ _ _ _ b17 b20 b24 b27 b31
  obtain ⟨d49, d17, d41, d45, d0, d1⟩ := afterD (after opsC (after opsB (after opsA V)))
  obtain ⟨e62, e0, e1⟩ := afterE (after opsD (after opsC (after opsB (after opsA V)))) _ _ _ _ _
    (d17.trans c17) (d41.trans c41) (d45.trans c45) d49
  simp only [ops, after_append]
  exact ⟨e62, e0.trans (d0.trans (c0.trans (b0.trans a0))), e1.trans (d1.trans (c1.trans (b1.trans a1)))⟩

/-! ## The run -/

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation of a stretch touches TensorCore buffers only. -/
theorem opsA_sub : (opsA : List (HloOp τ sig (Elt F))).Forall fun op => op.bufs ⊆ tcRefs τ sig := by
  simp only [List.forall_cons, List.Forall, nullary_bufs_sub, unary_bufs_sub, binary_bufs_sub, ternary_bufs_sub, reshape_bufs_sub, and_self]
theorem opsB_sub : (opsB : List (HloOp τ sig (Elt F))).Forall fun op => op.bufs ⊆ tcRefs τ sig := by
  simp only [List.forall_cons, List.Forall, nullary_bufs_sub, unary_bufs_sub, binary_bufs_sub, ternary_bufs_sub, reshape_bufs_sub, and_self]
theorem opsC_sub : (opsC : List (HloOp τ sig (Elt F))).Forall fun op => op.bufs ⊆ tcRefs τ sig := by
  simp only [List.forall_cons, List.Forall, nullary_bufs_sub, unary_bufs_sub, binary_bufs_sub, ternary_bufs_sub, reshape_bufs_sub, and_self]
theorem opsD_sub : (opsD : List (HloOp τ sig (Elt F))).Forall fun op => op.bufs ⊆ tcRefs τ sig := by
  simp only [List.forall_cons, List.Forall, nullary_bufs_sub, unary_bufs_sub, binary_bufs_sub, ternary_bufs_sub, reshape_bufs_sub, and_self]
theorem opsE_sub : (opsE : List (HloOp τ sig (Elt F))).Forall fun op => op.bufs ⊆ tcRefs τ sig := by
  simp only [List.forall_cons, List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_append.2 ⟨opsA_sub, List.forall_append.2 ⟨opsB_sub, List.forall_append.2 ⟨opsC_sub,
    List.forall_append.2 ⟨opsD_sub, opsE_sub⟩⟩⟩⟩

/-- Every operation determines what it writes. -/
theorem ops_fresh : (ops : List (HloOp τ sig (Elt F))).Forall fun op => op.fresh = ∅ := by
  simp only [ops, opsA, opsB, opsC, opsD, opsE, List.cons_append, List.nil_append, List.forall_cons, List.Forall]
  repeat' constructor

/-- On every device, for any float values, from any memory with zero counters: every weakly fair
    execution of the entry function terminates with the result buffer at the composed function of
    the two arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v62)
          = refResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c main_v62).trans (after_ops _).1, (h c main_arg0).trans (after_ops _).2.1,
      (h c main_arg1).trans (after_ops _).2.2⟩)
    (run_seq scopedRefs_eq scopedSems_eq defs main (fun _ => ops) main_eq (fun _ => ops_sub) m ρ
      (fun _ => List.forall_iff_forall_mem.1 ops_fresh))

end Cert.ReferenceIdeal.Hand

end
-- ==== Proof.Spec.lean ====
/-
  The quantities both programs compute, as plain sums over the pixels of one image.

  An image of the batch has 524288 pixels (512 rows of 1024). Each pixel carries a 32-bit segment
  word; segment `s` of image `b` is the set of its pixels whose word is the word of `s`. The
  statistics of a segment are the sums, over its pixels, of 1, of a flow component and of that
  component's square. `seg k f b s` is such a sum, written as a sum over ALL pixels of the image in
  which a pixel outside the segment contributes zero.
-/
import Mathlib.Data.EReal.Basic
import Mathlib.Algebra.BigOperators.Group.Finset.Basic
import Mathlib.Data.Fintype.BigOperators

noncomputable section

namespace Cert.Spec

open scoped BigOperators

/-- The sum of `f b p` over the pixels `p` of image `b` whose segment word is the word of `s`. -/
def seg (k : Fin 16 → Fin 524288 → BitVec 32) (f : Fin 16 → Fin 524288 → EReal) (b : Fin 16) (s : Fin 32) : EReal :=
  ∑ p : Fin 524288, if k b p = BitVec.ofNat 32 s.val then f b p else 0

/-- The number of pixels of segment `s` of image `b`, as an extended real. -/
def count (k : Fin 16 → Fin 524288 → BitVec 32) (b : Fin 16) (s : Fin 32) : EReal :=
  seg k (fun _ _ => 1) b s

/-- A pixel's row and column from its position in the image read row by row. -/
theorem pixel_lt (p : Fin 524288) : p.val / 1024 < 512 ∧ p.val % 1024 < 1024 :=
  ⟨by have := p.isLt; omega, Nat.mod_lt _ (by norm_num)⟩

end Cert.Spec

end
-- ==== Proof.Pixels.lean ====
/-
  The pixels of the two argument arrays.

  `flow` is [16, 2, 512, 1024]: image, component (0 = horizontal, 1 = vertical), row, column;
  `masks` is [16, 512, 1024]. Both programs read an image's 512 × 1024 pixels row by row, so pixel
  `p` of an image (0 ≤ p < 524288) sits in row `p / 1024`, column `p % 1024`.
-/
import Idealize.ShloMosaic.PureOps.Ideal
import Idealize.ShloMosaic.Lib.ValueIdx
import proofs.«424109_j8529805050142_3_alg».proof.Proof.Spec

noncomputable section

namespace Cert.Pixels

open Idealize.ShloMosaic Idealize.ShloMosaic.ValueIdx

/-- The row of pixel `p`. -/
def row (p : Fin 524288) : Fin 512 := ⟨p.val / 1024, (Cert.Spec.pixel_lt p).1⟩
/-- The column of pixel `p`. -/
def col (p : Fin 524288) : Fin 1024 := ⟨p.val % 1024, (Cert.Spec.pixel_lt p).2⟩

/-- The segment word of pixel `p` of image `b`. -/
def word (k : IVec (⟨3, ![16, 512, 1024]⟩ : Shape) 32) (b : Fin 16) (p : Fin 524288) : BitVec 32 :=
  k (ix3 b (row p) (col p))

/-- The horizontal flow component at pixel `p` of image `b`. -/
def flowU (x : FVec Ideal (⟨4, ![16, 2, 512, 1024]⟩ : Shape) .f32) (b : Fin 16) (p : Fin 524288) : EReal :=
  x (ix4 b (0 : Fin 2) (row p) (col p))

/-- The vertical flow component at pixel `p` of image `b`. -/
def flowV (x : FVec Ideal (⟨4, ![16, 2, 512, 1024]⟩ : Shape) .f32) (b : Fin 16) (p : Fin 524288) : EReal :=
  x (ix4 b (1 : Fin 2) (row p) (col p))

/-- The global number of segment `s` of image `b` among the 16 · 32 = 512 segments. -/
def gseg (b : Fin 16) (s : Fin 32) : Fin 512 := ⟨32 * b.val + s.val, by have := b.isLt; have := s.isLt; omega⟩

/-- Every segment word lies in the label range [0, 32), read as a signed number. -/
def InRange (k : IVec (⟨3, ![16, 512, 1024]⟩ : Shape) 32) : Prop :=
  ∀ i, 0 ≤ (k i).toInt ∧ (k i).toInt < 32

/-- Every flow entry is a real number (neither infinity). -/
def Finite (x : FVec Ideal (⟨4, ![16, 2, 512, 1024]⟩ : Shape) .f32) : Prop :=
  ∀ i, ∃ r : ℝ, x i = (r : EReal)

end Cert.Pixels

end
-- ==== Proof.PreDecode.lean ====
/-
  The precondition read back as plain facts about the two argument arrays.

  The precondition is a conjunction of three statements, each saying that a comparison holds at
  every entry of an array: the absolute value of every flow entry lies below +∞, every segment
  word is at least 0, and every segment word is below 32 (words read as signed numbers). An
  extended real whose absolute value lies below +∞ is neither infinity, so it is a real number.
-/
import proofs.«424109_j8529805050142_3_alg».proof.Proof.Gen.Pre_finite_inputs
import proofs.«424109_j8529805050142_3_alg».proof.Proof.Pixels
import Idealize.ShloMosaic.Lib.ReduceAll
import Idealize.ShloMosaic.Lib.StableHlo.Predicate

noncomputable section

namespace Cert.PreDecode

open Idealize.ShloMosaic Idealize.ShloMosaic.ValueIdx

/-- The shape with no axes has exactly one index. -/
instance : Subsingleton Cert.Pre_finite_inputs.S_.Idx := ⟨fun a b => funext fun d => d.elim0⟩

/-- An extended real whose absolute value max(a, -a) lies below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

theorem of_pre (x : FVec Ideal (⟨4, ![16, 2, 512, 1024]⟩ : Shape) .f32) (k : IVec (⟨3, ![16, 512, 1024]⟩ : Shape) 32)
    (h : Cert.Pre_finite_inputs.fn (F := Ideal) x k = fun _ => 1#1) : Cert.Pixels.Finite x ∧ Cert.Pixels.InRange k := by
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ⟨?_, ?_⟩⟩
  · have e := Host.reduce_andi_all _ _ _ _ _ h1 i
    refine real_of_abs_lt_top (x i) ?_
    have e' : Ideal.cmp .olt (max (x i) (-(x i))) (Ideal.ofBits .f32 0x7F800000#32) = 1#1 := e
    have htop : Ideal.ofBits .f32 0x7F800000#32 = (⊤ : EReal) := by simp [Ideal.ofBits, Ideal.ieee]
    rw [htop] at e'
    simpa [Ideal.cmp, StableHlo.Predicate.ofBool_eq_one_iff] using e'
  · have e := Host.reduce_andi_all _ _ _ _ _ h2 i
    have e' : IntOp.cmpi .sge (k i) 0#32 = 1#1 := e
    have := IntOp.cmpi_sge.1 e'
    simpa using this
  · have e := Host.reduce_andi_all _ _ _ _ _ h3 i
    have e' : IntOp.cmpi .slt (k i) 32#32 = 1#1 := e
    have := IntOp.cmpi_slt.1 e'
    simpa using this

end Cert.PreDecode

end
-- ==== Proof.KIPieces.lean ====
/-
  What each case of the kernel body leaves in its two output blocks.

  The body reads, from a flow block of 8 images × 2 components × 32768 pixels, the horizontal components (component 0) and
  the vertical components (component 1), each as a block of 8 × 1 × 32768, and the whole mask block of 8 × 32768 words.
  From these it forms the one-hot matrix of the segment words and the eight rows of statistics operands, and stores into the
  statistics block (8 × 8 × 32) what the block held plus the product of the operands with the one-hot matrix, and into the
  count block (8 × 32) what the block held plus the row sums of the one-hot matrix.

  At a point where the reset fires both blocks are first filled with zeros, so "what the block held" is the zero block;
  at any other point it is what the point before left there. The four statements below say exactly this, each output block
  written as the body's own arithmetic applied to the blocks it read.
-/
import proofs.«424109_j8529805050142_3_alg».proof.Proof.KIFrame
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

/-- The all-zero offsets of a rectangle at the origin, at rank three and at rank two. -/
theorem zeroOff3 : (![0, 0, 0] : Fin 3 → Nat) = fun _ => 0 := funext fun a => by fin_cases a <;> rfl
theorem zeroOff2 : (![0, 0] : Fin 2 → Nat) = fun _ => 0 := funext fun a => by fin_cases a <;> rfl

/-- The horizontal components of a flow block: its entries with component coordinate 0, kept as a block with one component. -/
def uBlk (x0 : Vec F S8x2x32768 .f32) : Vec F S8x1x32768 .f32 :=
  View.ld x0 (Rect.unit (s := S8x2x32768) ![0, 0, 0] S8x1x32768.size inb_S8x2x32768_S8x1x32768_0_0_0)
/-- The vertical components: the entries with component coordinate 1. -/
def vBlk (x0 : Vec F S8x2x32768 .f32) : Vec F S8x1x32768 .f32 :=
  View.ld x0 (Rect.unit (s := S8x2x32768) ![0, 1, 0] S8x1x32768.size inb_S8x2x32768_S8x1x32768_0_1_0)

/-- Entry (b, 0, p) of the horizontal block is entry (b, 0, p) of the flow block. -/
theorem uBlk_apply (x0 : Vec F S8x2x32768 .f32) (b : Fin 8) (p : Fin 32768) :
    uBlk x0 (ix3 b (0 : Fin 1) p) = x0 (ix3 b (0 : Fin 2) p) := by
  unfold uBlk
  show x0 _ = x0 _
  congr 1
  funext a
  apply Fin.ext
  match a with
  | ⟨0, _⟩ => show 0 + 1 * b.val = b.val; omega
  | ⟨1, _⟩ => show 0 + 1 * 0 = 0; rfl
  | ⟨2, _⟩ => show 0 + 1 * p.val = p.val; omega

/-- Entry (b, 0, p) of the vertical block is entry (b, 1, p) of the flow block. -/
theorem vBlk_apply (x0 : Vec F S8x2x32768 .f32) (b : Fin 8) (p : Fin 32768) :
    vBlk x0 (ix3 b (0 : Fin 1) p) = x0 (ix3 b (1 : Fin 2) p) := by
  unfold vBlk
  show x0 _ = x0 _
  congr 1
  funext a
  apply Fin.ext
  match a with
  | ⟨0, _⟩ => show 0 + 1 * b.val = b.val; omega
  | ⟨1, _⟩ => show 1 + 1 * 0 = 1; rfl
  | ⟨2, _⟩ => show 0 + 1 * p.val = p.val; omega

/-- At a reset point the statistics block ends as the zero block plus this pixel block's contribution. -/
theorem out0_A_2_eq (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) :
    out0_A_2 c i arg2 harg2 arg3 harg3 arg4 harg4 arg5 harg5 hc0 x0 x1 = k0_pay1 (k0_pay5 (uBlk x0) (vBlk x0)) (k0_pay7 x1) (constant S8x8x32 .f32 0x00000000#32) (k0_pay3 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S8x8x32) zeroOff3, View.readCov_unit_zero (S := S8x8x32) _ zeroOff3]
  unfold uBlk vBlk
  simp only [View.readAt_eq_ld, harg2.read_unread, harg3.read_unread, View.ld_unit_zero (S := S8x32768) zeroOff2]

/-- At a reset point the count block ends as the zero block plus this pixel block's counts. -/
theorem out0_A_3_eq (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec F S8x2x32768 .f32) (x1 : Vec F S8x32768 .i32) :
    out0_A_3 c i arg2 harg2 arg3 harg3 arg4 harg4 arg5 harg5 hc0 x0 x1 = k0_pay2 (k0_pay6 x1) (k0_pay4 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S8x32) zeroOff2, View.readCov_unit_zero (S := S8x32) _ zeroOff2]
  simp only [View.readAt_eq_ld, harg3.read_unread, View.ld_unit_zero (S := S8x32768) zeroOff2]

/-- At any other point the statistics block ends as what it held plus this pixel block's contribution. -/
theorem out0_B_2_eq (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) :
    out0_B_2 c i arg2 harg2 arg3 harg3 arg4 harg4 arg5 harg5 hc0 x0 x1 xo2 xo3 = k0_pay1 (k0_pay5 (uBlk x0) (vBlk x0)) (k0_pay7 x1) (constant S8x8x32 .f32 0x00000000#32) xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero (S := S8x8x32) zeroOff3]
  unfold uBlk vBlk
  simp only [View.readAt_eq_ld, harg2.read_unread, harg3.read_unread, harg4.read_unread,
    View.ld_unit_zero (S := S8x8x32) zeroOff3, View.ld_unit_zero (S := S8x32768) zeroOff2]

/-- At any other point the count block ends as what it held plus this pixel block's counts. -/
theorem out0_B_3_eq (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec F S8x2x32768 .f32) (x1 : Vec F S8x32768 .i32) (xo2 : Vec F S8x8x32 .f32) (xo3 : Vec F S8x32 .f32) :
    out0_B_3 c i arg2 harg2 arg3 harg3 arg4 harg4 arg5 harg5 hc0 x0 x1 xo2 xo3 = k0_pay2 (k0_pay6 x1) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero (S := S8x32) zeroOff2]
  simp only [View.readAt_eq_ld, harg3.read_unread, harg5.read_unread,
    View.ld_unit_zero (S := S8x32) zeroOff2, View.ld_unit_zero (S := S8x32768) zeroOff2]

end Cert.KernelIdeal.Hand

end
-- ==== Proof.KIPayload.lean ====
/-
  The arithmetic of the kernel body, read entry by entry, over the extended reals.

  One step of the body sees a block of 8 images × 32768 pixels: the two flow components `u`, `v` of every pixel
  and the pixel's 32-bit segment word. It stacks eight rows per image — u, u − u, u·u, u·u − u·u, v, v − v, v·v,
  v·v − v·v — and forms the one-hot of the segment words against the 32 segment numbers: entry (b, s, p) is 1
  where the word of pixel p of image b is the word of s, else 0. The statistics block gains the product of the
  rows with the one-hot over the pixels, the count block the one-hot summed over the pixels.

  Over the extended reals every format change is the identity and a product with 1 or 0 is the factor or 0, so
  entry (b, r, s) of the product is the sum of row r over the pixels of image b whose word is the word of s, and
  entry (b, s) of the count is the number of such pixels. A row that is a difference x − x is 0 when x is a real
  number; this, with the square of a real being real, is the one place where the finiteness of the flow is used.
  Reading a 32-bit word as a signed number is injective, so the comparison of the two words after conversion is
  the comparison of the words themselves: no range of the segment word is assumed here.
-/
import proofs.«424109_j8529805050142_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Idealize.ShloMosaic Idealize.ShloMosaic.ValueIdx Cert.KernelIdeal Cert.KernelIdeal.Gen
open scoped BigOperators

/-! ## Layout steps at an index -/

/-- A cast that drops a unit axis in the middle: entry (i, j) of the result is entry (i, 0, j) of the operand. -/
theorem cast_dropMid {α : Type} {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- A cast that adds a unit axis in the middle: entry (i, u, j) of the result is entry (i, j) of the operand. -/
theorem cast_addMid {α : Type} {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- Piece `k` of a stack of [8, 1, 32768] slabs along axis 1: entry (b, k, p) of the stack is entry (b, 0, p) of
    the piece. -/
theorem stack_piece {α : Type} (xs : List ((s : Shape) × (s.Idx → α)))
    (h : Shape.Concatenates (xs.map (·.1)) S8x8x32768 1)
    (k : Nat) (hk8 : k < 8) (x : S8x1x32768.Idx → α) (hxk : xs[k]? = some ⟨S8x1x32768, x⟩)
    (hpre : (((xs.take k).map (·.1)).map fun s => if h : s.rank = S8x8x32768.rank then s.size ((1 : Fin S8x8x32768.rank).cast h.symm) else 0).sum = k)
    (b : Fin 8) (p : Fin 32768) :
    concatenate S8x8x32768 1 xs h (ix3 b (⟨k, hk8⟩ : Fin 8) p) = x (ix3 b (0 : Fin 1) p) := by
  obtain ⟨hk, hx⟩ := List.getElem?_eq_some_iff.mp hxk
  exact concatenate_apply_piece 1 xs h _ k hk S8x1x32768 x hx rfl k hpre (ix3 b (0 : Fin 1) p)
    (fun c hc => by
      match c with
      | ⟨0, _⟩ => rfl
      | ⟨1, _⟩ => exact absurd rfl hc
      | ⟨2, _⟩ => rfl) rfl

/-! ## The eight stacked rows -/

/-- Row `r` of the stack as the body computes it from a pixel's two flow components: the component, its
    difference with itself, its square, the square's difference with itself, for each component in turn. -/
def rawRow (r : Fin 8) (a b : EReal) : EReal :=
  match r.val with
  | 0 => a
  | 1 => a - a
  | 2 => a * a
  | 3 => a * a - a * a
  | 4 => b
  | 5 => b - b
  | 6 => b * b
  | 7 => b * b - b * b
  | _ => 0

theorem pay5_raw (v3 v5 : Vec Ideal S8x1x32768 .f32) (b : Fin 8) (r : Fin 8) (p : Fin 32768) :
    k0_pay5 (F := Ideal) v3 v5 (ix3 b r p) = rawRow r (v3 (ix3 b (0 : Fin 1) p)) (v5 (ix3 b (0 : Fin 1) p)) := by
  match r with
  | ⟨0, _⟩ =>
    unfold k0_pay5
    refine (stack_piece _ _ 0 (by decide) _ rfl rfl b p).trans ?_
    rw [cast_addMid, truncf_apply, cast_dropMid]; rfl
  | ⟨1, _⟩ =>
    unfold k0_pay5
    refine (stack_piece _ _ 1 (by decide) _ rfl rfl b p).trans ?_
    rw [cast_addMid, truncf_apply, subf_apply, cast_dropMid]; rfl
  | ⟨2, _⟩ =>
    unfold k0_pay5
    refine (stack_piece _ _ 2 (by decide) _ rfl rfl b p).trans ?_
    rw [cast_addMid, truncf_apply, mulf_apply, cast_dropMid]; rfl
  | ⟨3, _⟩ =>
    unfold k0_pay5
    refine (stack_piece _ _ 3 (by decide) _ rfl rfl b p).trans ?_
    rw [cast_addMid, truncf_apply, subf_apply, mulf_apply, cast_dropMid]; rfl
  | ⟨4, _⟩ =>
    unfold k0_pay5
    refine (stack_piece _ _ 4 (by decide) _ rfl rfl b p).trans ?_
    rw [cast_addMid, truncf_apply, cast_dropMid]; rfl
  | ⟨5, _⟩ =>
    unfold k0_pay5
    refine (stack_piece _ _ 5 (by decide) _ rfl rfl b p).trans ?_
    rw [cast_addMid, truncf_apply, subf_apply, cast_dropMid]; rfl
  | ⟨6, _⟩ =>
    unfold k0_pay5
    refine (stack_piece _ _ 6 (by decide) _ rfl rfl b p).trans ?_
    rw [cast_addMid, truncf_apply, mulf_apply, cast_dropMid]; rfl
  | ⟨7, _⟩ =>
    unfold k0_pay5
    refine (stack_piece _ _ 7 (by decide) _ rfl rfl b p).trans ?_
    rw [cast_addMid, truncf_apply, subf_apply, mulf_apply, cast_dropMid]; rfl
  | ⟨n + 8, h⟩ => exact absurd h (Nat.not_lt.2 (Nat.le_add_left _ _))

/-! ## The one-hot of the segment words -/

/-- The test bit of two extended reals, widened to a word and read back as a number, is 1 where they are equal
    and 0 where they are not. -/
theorem bit_real (X Y : EReal) :
    ((((Ideal.cmp .oeq X Y).setWidth 32 : BitVec 32).toInt : ℝ) : EReal) = if X = Y then 1 else 0 := by
  unfold Ideal.cmp
  by_cases h : X = Y
  · simp [h]
  · simp [h]

/-- Two 32-bit words read signed give the same real exactly when they are the same word. -/
theorem word_eq_iff (a b : BitVec 32) : (((a.toInt : ℝ) : EReal) = ((b.toInt : ℝ) : EReal)) ↔ a = b := by
  rw [EReal.coe_eq_coe_iff, Int.cast_inj, BitVec.toInt_inj]

/-- A [1, 32, 1] column spread over [8, 32, 32768]: entry (b, s, p) is the column's entry s. -/
theorem spread_seg {α : Type} (x : S1x32x1.Idx → α) (h : S1x32x1.Broadcasts S8x32x32768)
    (b : Fin 8) (s : Fin 32) (p : Fin 32768) :
    broadcastTo S8x32x32768 x h (ix3 b s p) = x (ix3 (0 : Fin 1) s (0 : Fin 1)) :=
  broadcastTo_apply x h _ _ (fun a => by
    match a with
    | ⟨0, _⟩ => rfl
    | ⟨1, _⟩ => rfl
    | ⟨2, _⟩ => rfl)

/-- An [8, 1, 32768] slab spread over [8, 32, 32768]: entry (b, s, p) is the slab's entry (b, 0, p). -/
theorem spread_pix {α : Type} (x : S8x1x32768.Idx → α) (h : S8x1x32768.Broadcasts S8x32x32768)
    (b : Fin 8) (s : Fin 32) (p : Fin 32768) :
    broadcastTo S8x32x32768 x h (ix3 b s p) = x (ix3 b (0 : Fin 1) p) :=
  broadcastTo_apply x h _ _ (fun a => by
    match a with
    | ⟨0, _⟩ => rfl
    | ⟨1, _⟩ => rfl
    | ⟨2, _⟩ => rfl)

/-- The one-hot at (b, s, p): 1 where the segment word of pixel p of image b is the word of s, else 0. Both words
    are read signed before they are compared; reading signed loses nothing, so no range of the word is assumed. -/
theorem pay6_apply (v7 : Vec Ideal S8x32768 .i32) (b : Fin 8) (s : Fin 32) (p : Fin 32768) :
    k0_pay6 (F := Ideal) v7 (ix3 b s p) = if v7 (ix2 b p) = BitVec.ofNat 32 s.val then (1 : EReal) else 0 := by
  unfold k0_pay6
  dsimp only
  rw [sitofp_apply, extui_apply, cmpf_apply, spread_seg, spread_pix, sitofp_apply, iota_single_apply,
    cast_addMid, sitofp_apply, shapeCast_self]
  show ((((Ideal.cmp .oeq (((BitVec.ofNat 32 s.val).toInt : ℝ) : EReal)
    (((v7 (ix2 b p)).toInt : ℝ) : EReal)).setWidth 32 : BitVec 32).toInt : ℝ) : EReal) = _
  refine (bit_real _ _).trans ?_
  exact if_congr ((word_eq_iff _ _).trans eq_comm) rfl rfl

/-- The same after the narrowing of the format, which changes nothing. -/
theorem pay7_apply (v7 : Vec Ideal S8x32768 .i32) (b : Fin 8) (s : Fin 32) (p : Fin 32768) :
    k0_pay7 (F := Ideal) v7 (ix3 b s p) = if v7 (ix2 b p) = BitVec.ofNat 32 s.val then (1 : EReal) else 0 := by
  unfold k0_pay7
  exact pay6_apply v7 b s p

/-! ## The batched product, read at an index

The product contracts the pixel axis (axis 2 of both operands), keeps the image axis (axis 0 of both) as a batch axis,
and puts the left operand's row axis before the right operand's. The six lemmas below name, axis by axis, the operand
entries the product reads at output entry `i` and contraction position `q`. -/

theorem lhs_axis0 (i : S8x8x32.Idx) (q : dot_S8x8x32768_S8x32x32768_S8x8x32_2_2_1_1_0_0.contr.Idx) :
    (dot_S8x8x32768_S8x32x32768_S8x8x32_2_2_1_1_0_0.lhsIdx i q 0).val = (i 0).val := by
  unfold DotDims.lhsIdx
  rw [dif_pos (show (0 : Fin S8x8x32768.rank) ∈ dot_S8x8x32768_S8x32x32768_S8x8x32_2_2_1_1_0_0.lhsBatch by decide)]
  rfl

theorem lhs_axis1 (i : S8x8x32.Idx) (q : dot_S8x8x32768_S8x32x32768_S8x8x32_2_2_1_1_0_0.contr.Idx) :
    (dot_S8x8x32768_S8x32x32768_S8x8x32_2_2_1_1_0_0.lhsIdx i q 1).val = (i 1).val := by
  unfold DotDims.lhsIdx
  rw [dif_neg (show ¬(1 : Fin S8x8x32768.rank) ∈ dot_S8x8x32768_S8x32x32768_S8x8x32_2_2_1_1_0_0.lhsBatch by decide),
    dif_pos (show (1 : Fin S8x8x32768.rank) ∈ dot_S8x8x32768_S8x32x32768_S8x8x32_2_2_1_1_0_0.lhsNonContracting by decide)]
  rfl

theorem lhs_axis2 (i : S8x8x32.Idx) (q : dot_S8x8x32768_S8x32x32768_S8x8x32_2_2_1_1_0_0.contr.Idx) :
    (dot_S8x8x32768_S8x32x32768_S8x8x32_2_2_1_1_0_0.lhsIdx i q 2).val = (q ⟨0, by decide⟩).val :=
  dot_S8x8x32768_S8x32x32768_S8x8x32_2_2_1_1_0_0.lhsIdx_val_of_single rfl i q

theorem rhs_axis0 (i : S8x8x32.Idx) (q : dot_S8x8x32768_S8x32x32768_S8x8x32_2_2_1_1_0_0.contr.Idx) :
    (dot_S8x8x32768_S8x32x32768_S8x8x32_2_2_1_1_0_0.rhsIdx i q 0).val = (i 0).val := by
  unfold DotDims.rhsIdx
  rw [dif_pos (show (0 : Fin S8x32x32768.rank) ∈ dot_S8x8x32768_S8x32x32768_S8x8x32_2_2_1_1_0_0.rhsBatch by decide)]
  rfl

theorem rhs_axis1 (i : S8x8x32.Idx) (q : dot_S8x8x32768_S8x32x32768_S8x8x32_2_2_1_1_0_0.contr.Idx) :
    (dot_S8x8x32768_S8x32x32768_S8x8x32_2_2_1_1_0_0.rhsIdx i q 1).val = (i 2).val := by
  unfold DotDims.rhsIdx
  rw [dif_neg (show ¬(1 : Fin S8x32x32768.rank) ∈ dot_S8x8x32768_S8x32x32768_S8x8x32_2_2_1_1_0_0.rhsBatch by decide),
    dif_pos (show (1 : Fin S8x32x32768.rank) ∈ dot_S8x8x32768_S8x32x32768_S8x8x32_2_2_1_1_0_0.rhsNonContracting by decide)]
  rfl

theorem rhs_axis2 (i : S8x8x32.Idx) (q : dot_S8x8x32768_S8x32x32768_S8x8x32_2_2_1_1_0_0.contr.Idx) :
    (dot_S8x8x32768_S8x32x32768_S8x8x32_2_2_1_1_0_0.rhsIdx i q 2).val = (q ⟨0, by decide⟩).val :=
  dot_S8x8x32768_S8x32x32768_S8x8x32_2_2_1_1_0_0.rhsIdx_val_of_single rfl i q

/-- The product into the zero accumulator at (b, r, s): the sum over the pixels of image b of the left operand's
    entry (b, r, p) times the right operand's entry (b, s, p). -/
theorem product_apply (lhs : FVec Ideal S8x8x32768 .bf16) (rhs : FVec Ideal S8x32x32768 .bf16)
    (b : Fin 8) (r : Fin 8) (s : Fin 32) :
    matmul dot_S8x8x32768_S8x32x32768_S8x8x32_2_2_1_1_0_0 none lhs rhs (constant (F := Ideal) S8x8x32 .f32 0x00000000#32) (ix3 b r s)
      = ∑ p : Fin 32768, lhs (ix3 b r p) * rhs (ix3 b s p) := by
  show FloatOps.matmul dot_S8x8x32768_S8x32x32768_S8x8x32_2_2_1_1_0_0 none lhs rhs (constant (F := Ideal) S8x8x32 .f32 0x00000000#32) (ix3 b r s) = _
  rw [Ideal.matmul_constant_zero_apply,
    ← Equiv.sum_comp (contrEquiv1 dot_S8x8x32768_S8x32x32768_S8x8x32_2_2_1_1_0_0 32768 rfl rfl).symm]
  refine Finset.sum_congr rfl fun k _ => ?_
  have hk := contrEquiv1_symm_val dot_S8x8x32768_S8x32x32768_S8x8x32_2_2_1_1_0_0 32768 rfl rfl k
  have el : dot_S8x8x32768_S8x32x32768_S8x8x32_2_2_1_1_0_0.lhsIdx (ix3 b r s) ((contrEquiv1 dot_S8x8x32768_S8x32x32768_S8x8x32_2_2_1_1_0_0 32768 rfl rfl).symm k) = ix3 b r k :=
    funext fun a => Fin.ext (by
      match a with
      | ⟨0, _⟩ => exact lhs_axis0 _ _
      | ⟨1, _⟩ => exact lhs_axis1 _ _
      | ⟨2, _⟩ => exact (lhs_axis2 _ _).trans hk)
  have er : dot_S8x8x32768_S8x32x32768_S8x8x32_2_2_1_1_0_0.rhsIdx (ix3 b r s) ((contrEquiv1 dot_S8x8x32768_S8x32x32768_S8x8x32_2_2_1_1_0_0 32768 rfl rfl).symm k) = ix3 b s k :=
    funext fun a => Fin.ext (by
      match a with
      | ⟨0, _⟩ => exact rhs_axis0 _ _
      | ⟨1, _⟩ => exact rhs_axis1 _ _
      | ⟨2, _⟩ => exact (rhs_axis2 _ _).trans hk)
  rw [el, er]

/-! ## The rows on finite input -/

/-- The entry of stacked row `r` at a pixel with flow components `a` (horizontal) and `b` (vertical), on finite
    input: the component, its square, and zero for each row that is a difference of a finite number with itself. -/
def rowVal (r : Fin 8) (a b : EReal) : EReal :=
  match r.val with
  | 0 => a
  | 2 => a * a
  | 4 => b
  | 6 => b * b
  | _ => 0

/-- `rowVal` row by row. -/
theorem rowVal_zero (a b : EReal) : rowVal 0 a b = a := rfl
theorem rowVal_one (a b : EReal) : rowVal 1 a b = 0 := rfl
theorem rowVal_two (a b : EReal) : rowVal 2 a b = a * a := rfl
theorem rowVal_three (a b : EReal) : rowVal 3 a b = 0 := rfl
theorem rowVal_four (a b : EReal) : rowVal 4 a b = b := rfl
theorem rowVal_five (a b : EReal) : rowVal 5 a b = 0 := rfl
theorem rowVal_six (a b : EReal) : rowVal 6 a b = b * b := rfl
theorem rowVal_seven (a b : EReal) : rowVal 7 a b = 0 := rfl

/-- A real number less itself is zero, also as an extended real. -/
theorem coe_sub_self (x : ℝ) : (x : EReal) - (x : EReal) = 0 := by
  rw [← EReal.coe_sub, sub_self, EReal.coe_zero]

/-- The square of a real number less itself is zero, also as an extended real. -/
theorem coe_sq_sub_self (x : ℝ) : (x : EReal) * (x : EReal) - (x : EReal) * (x : EReal) = 0 := by
  rw [← EReal.coe_mul, coe_sub_self]

/-- On real components the computed rows are `rowVal`. -/
theorem rawRow_coe (r : Fin 8) (x y : ℝ) : rawRow r (x : EReal) (y : EReal) = rowVal r (x : EReal) (y : EReal) := by
  match r with
  | ⟨0, _⟩ => rfl
  | ⟨1, _⟩ => exact coe_sub_self x
  | ⟨2, _⟩ => rfl
  | ⟨3, _⟩ => exact coe_sq_sub_self x
  | ⟨4, _⟩ => rfl
  | ⟨5, _⟩ => exact coe_sub_self y
  | ⟨6, _⟩ => rfl
  | ⟨7, _⟩ => exact coe_sq_sub_self y
  | ⟨n + 8, h⟩ => exact absurd h (Nat.not_lt.2 (Nat.le_add_left _ _))

/-- The stacked rows at (b, r, p), on finite input. -/
theorem pay5_apply (v3 v5 : Vec Ideal S8x1x32768 .f32)
    (h3 : ∀ i, ∃ x : ℝ, v3 i = (x : EReal)) (h5 : ∀ i, ∃ x : ℝ, v5 i = (x : EReal))
    (b : Fin 8) (r : Fin 8) (p : Fin 32768) :
    k0_pay5 (F := Ideal) v3 v5 (ix3 b r p) = rowVal r (v3 (ix3 b (0 : Fin 1) p)) (v5 (ix3 b (0 : Fin 1) p)) := by
  obtain ⟨x, hx⟩ := h3 (ix3 b (0 : Fin 1) p)
  obtain ⟨y, hy⟩ := h5 (ix3 b (0 : Fin 1) p)
  rw [pay5_raw, hx, hy]
  exact rawRow_coe r x y

/-! ## The four stored values at an index -/

/-- The statistics block after the step, at (b, r, s): what it held plus the sum, over the pixels of image b whose
    segment word is the word of s, of row r. -/
theorem pay1_apply (v3 v5 : Vec Ideal S8x1x32768 .f32) (v7 : Vec Ideal S8x32768 .i32) (acc : Vec Ideal S8x8x32 .f32)
    (h3 : ∀ i, ∃ x : ℝ, v3 i = (x : EReal)) (h5 : ∀ i, ∃ x : ℝ, v5 i = (x : EReal)) (b : Fin 8) (r : Fin 8) (s : Fin 32) :
    k0_pay1 (F := Ideal) (k0_pay5 v3 v5) (k0_pay7 v7) (constant (F := Ideal) S8x8x32 .f32 0x00000000#32) acc (ix3 b r s)
      = acc (ix3 b r s) + ∑ p : Fin 32768, (if v7 (ix2 b p) = BitVec.ofNat 32 s.val
          then rowVal r (v3 (ix3 b (0 : Fin 1) p)) (v5 (ix3 b (0 : Fin 1) p)) else 0) := by
  unfold k0_pay1
  rw [addf_apply, shapeCast_self, product_apply]
  refine congrArg (acc (ix3 b r s) + ·) (Finset.sum_congr rfl fun p _ => ?_)
  rw [pay5_apply v3 v5 h3 h5, pay7_apply]
  by_cases hw : v7 (ix2 b p) = BitVec.ofNat 32 s.val
  · rw [if_pos hw, if_pos hw, mul_one]
  · rw [if_neg hw, if_neg hw, mul_zero]

/-- The count block after the step, at (b, s): what it held plus the number of pixels of image b whose segment word
    is the word of s. -/
theorem pay2_apply (v7 : Vec Ideal S8x32768 .i32) (acc : Vec Ideal S8x32 .f32) (b : Fin 8) (s : Fin 32) :
    k0_pay2 (F := Ideal) (k0_pay6 v7) acc (ix2 b s)
      = acc (ix2 b s) + ∑ p : Fin 32768, (if v7 (ix2 b p) = BitVec.ofNat 32 s.val then (1 : EReal) else 0) := by
  unfold k0_pay2
  rw [addf_apply, shapeCast_self]
  refine congrArg (acc (ix2 b s) + ·) ?_
  refine (Ideal.multiReduction_add_single (k0_pay6 (F := Ideal) v7) 0x00000000#32 reduces_S8x32x32768_S8x32 (.inl rfl) rfl
    (ix2 b s)).trans ?_
  refine Finset.sum_congr rfl fun p _ => ?_
  have e : reduces_S8x32x32768_S8x32.lift (ix2 b s) p = ix3 b s p :=
    funext fun a => Fin.ext (by
      match a with
      | ⟨0, _⟩ => rfl
      | ⟨1, _⟩ => rfl
      | ⟨2, _⟩ => rfl)
  rw [e]
  exact pay6_apply v7 b s p

/-- The value stored into the statistics block at the first step of an image block: zero everywhere. -/
theorem pay3_apply (i : S8x8x32.Idx) : k0_pay3 (F := Ideal) i = 0 := by
  unfold k0_pay3
  show Ideal.ofBits .f32 0x00000000#32 = 0
  exact Ideal.ofBits_zero_f32

/-- The value stored into the count block at the first step of an image block: zero everywhere. -/
theorem pay4_apply (i : S8x32.Idx) : k0_pay4 (F := Ideal) i = 0 := by
  unfold k0_pay4
  show Ideal.ofBits .f32 0x00000000#32 = 0
  exact Ideal.ofBits_zero_f32

end Cert.KernelIdeal.Hand

end
-- ==== Proof.KIBlocks.lean ====
/-
  Which entries of the two argument arrays a window's block holds.

  The region runs on a 2 × 16 grid: position 16·g + h handles images 8g … 8g+7 and pixels
  32768·h … 32768·h + 32767 of each. The flow window's block at that position is the [8, 2, 32768]
  rectangle of the flattened flow array [16, 2, 524288] at block index (g, 0, h); the mask window's is
  the [8, 32768] rectangle of the flattened mask array [16, 524288] at block index (g, h). A block's
  coordinate in its array is the block index times the block extent plus the coordinate inside the block,
  and the flattened arrays are the row-major reshapes of the arguments: pixel P of the flattened axis is
  row P / 1024, column P % 1024 of the image.
-/
import proofs.«424109_j8529805050142_3_alg».proof.Proof.KIBase
import proofs.«424109_j8529805050142_3_alg».proof.Proof.Pixels
import Idealize.ShloMosaic.Lib.Pipeline.Value

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

variable (m : (ℓ : Loc nD τ sig) → Buf (Elt F) ℓ)

/-- The grid position of image group `g`, pixel block `h`. -/
def pt (g : Fin 2) (h : Fin 16) : Fin cfg0.N :=
  ⟨16 * g.val + h.val, by have := g.isLt; have := h.isLt; show 16 * g.val + h.val < 32; omega⟩
/-- The image that row `b` of group `g`'s blocks belongs to. -/
def img (g : Fin 2) (b : Fin 8) : Fin 16 := ⟨8 * g.val + b.val, by omega⟩
/-- The pixel that column `p` of pixel block `h` belongs to. -/
def pix (h : Fin 16) (p : Fin 32768) : Fin 524288 := ⟨32768 * h.val + p.val, by omega⟩

/-- The two input windows' block indices at position 16·g + h: (g, 0, h) and (g, h). -/
theorem idx_pt : ∀ (g : Fin 2) (h : Fin 16),
    win0_0.index (pt g h) (0 : Fin 3) = g.val ∧ win0_0.index (pt g h) (1 : Fin 3) = 0 ∧ win0_0.index (pt g h) (2 : Fin 3) = h.val
    ∧ win0_1.index (pt g h) (0 : Fin 2) = g.val ∧ win0_1.index (pt g h) (1 : Fin 2) = h.val := by
  decide +kernel

/-- The flattened flow array as the region finds it: the row-major reshape of the flow argument. -/
theorem V_main_v0 (c : Dev nD) :
    (V m c main_v0 : FVec F S16x2x524288 .f32)
      = shapeCast S16x2x524288 (m ((c.tc : Thread nD τ).loc main_arg0) : FVec F S16x2x512x1024 .f32) shapeCasts_S16x2x512x1024_S16x2x524288 := by
  dsimp only [V, V0]
  simp only [hostOps0, List.flatten_cons, List.flatten_nil, List.append_nil]
  after_results
  rfl

/-- The flattened mask array as the region finds it: the row-major reshape of the mask argument. -/
theorem V_main_v1 (c : Dev nD) :
    (V m c main_v1 : IVec S16x524288 32)
      = shapeCast S16x524288 (m ((c.tc : Thread nD τ).loc main_arg1) : IVec S16x512x1024 32) shapeCasts_S16x512x1024_S16x524288 := by
  dsimp only [V, V0]
  simp only [hostOps0, List.flatten_cons, List.flatten_nil, List.append_nil]
  after_results
  rfl

/-- THE FLOW BLOCK at position 16·g + h holds, at (row b, component ch, column p), the flow argument at
    image 8g + b, component ch, and the row and column of pixel 32768·h + p. -/
theorem iblk0_apply (c : Dev nD) (g : Fin 2) (h : Fin 16) (b : Fin 8) (ch : Fin 2) (p : Fin 32768) :
    (iblk m c 0 (pt g h) : Vec F S8x2x32768 .f32) (ix3 b ch p)
      = (m ((c.tc : Thread nD τ).loc main_arg0) : FVec F S16x2x512x1024 .f32)
          (ix4 (img g b) ch (Cert.Pixels.row (pix h p)) (Cert.Pixels.col (pix h p))) := by
  show (V m c main_v0 : FVec F S16x2x524288 .f32) (((cfg0.win 0).blk (pt g h)).view.emb (ix3 b ch p)) = _
  rw [V_main_v0]
  refine shapeCast_apply _ _ _ _ ?_
  show (S16x2x512x1024.rowMajor (ix4 (img g b) ch (Cert.Pixels.row (pix h p)) (Cert.Pixels.col (pix h p)))).val
    = (S16x2x524288.rowMajor (((cfg0.win 0).blk (pt g h)).view.emb (ix3 b ch p))).val
  rw [Shape.rowMajor_val_four, Shape.rowMajor_val_three]
  obtain ⟨e0, e1, e2, -, -⟩ := idx_pt g h
  show (((8 * g.val + b.val) * 2 + ch.val) * 512 + (32768 * h.val + p.val) / 1024) * 1024 + (32768 * h.val + p.val) % 1024
    = ((win0_0.index (pt g h) (0 : Fin 3) * 8 + 1 * b.val) * 2 + (win0_0.index (pt g h) (1 : Fin 3) * 2 + 1 * ch.val)) * 524288
      + (win0_0.index (pt g h) (2 : Fin 3) * 32768 + 1 * p.val)
  rw [e0, e1, e2]
  have := g.isLt; have := h.isLt; have := b.isLt; have := ch.isLt; have := p.isLt
  omega

/-- THE MASK BLOCK at position 16·g + h holds, at (row b, column p), the mask argument at image 8g + b and the row
    and column of pixel 32768·h + p. -/
theorem iblk1_apply (c : Dev nD) (g : Fin 2) (h : Fin 16) (b : Fin 8) (p : Fin 32768) :
    (iblk m c 1 (pt g h) : Vec F S8x32768 .i32) (ix2 b p)
      = (m ((c.tc : Thread nD τ).loc main_arg1) : IVec S16x512x1024 32)
          (ix3 (img g b) (Cert.Pixels.row (pix h p)) (Cert.Pixels.col (pix h p))) := by
  show (V m c main_v1 : IVec S16x524288 32) (((cfg0.win 1).blk (pt g h)).view.emb (ix2 b p)) = _
  rw [V_main_v1]
  refine shapeCast_apply _ _ _ _ ?_
  show (S16x512x1024.rowMajor (ix3 (img g b) (Cert.Pixels.row (pix h p)) (Cert.Pixels.col (pix h p)))).val
    = (S16x524288.rowMajor (((cfg0.win 1).blk (pt g h)).view.emb (ix2 b p))).val
  rw [Shape.rowMajor_val_three, Shape.rowMajor_val_two]
  obtain ⟨-, -, -, e3, e4⟩ := idx_pt g h
  show ((8 * g.val + b.val) * 512 + (32768 * h.val + p.val) / 1024) * 1024 + (32768 * h.val + p.val) % 1024
    = (win0_1.index (pt g h) (0 : Fin 2) * 8 + 1 * b.val) * 524288 + (win0_1.index (pt g h) (1 : Fin 2) * 32768 + 1 * p.val)
  rw [e3, e4]
  have := g.isLt; have := h.isLt; have := b.isLt; have := p.isLt
  omega

end Cert.KernelIdeal.Hand

end
-- ==== Proof.KIInduct.lean ====
/-
  The kernel's accumulation over the sixteen pixel blocks of an image group, in the extended reals.

  The grid runs over 2 image groups of 8 images and, inside a group, over 16 pixel blocks of 32768 pixels. At the first
  pixel block of a group both output blocks are reset and then receive that block's contribution; at every later pixel
  block they receive what they held plus the block's contribution. A pixel block's contribution to entry (b, r, s) of the
  statistics block is the sum, over its pixels whose segment word is the word of s, of the value row r takes on the
  pixel's two flow components; its contribution to entry (b, s) of the count block is the number of such pixels. The
  blocks read at group g, pixel block h are the entries of the two arguments at images 8g + b and pixels 32768 h + p.

  By induction on the pixel block, after block h the output blocks hold the sums over the pixel blocks up to h. After the
  last one (h = 15) that is the sum over all 16 · 32768 = 524288 pixels of the image. Zero plus a sum is the sum, so the
  reset costs nothing; the flow values are asked to be real numbers only where the row values are formed.
-/
import proofs.«424109_j8529805050142_3_alg».proof.Proof.KIFrame
import proofs.«424109_j8529805050142_3_alg».proof.Proof.KIPieces
import proofs.«424109_j8529805050142_3_alg».proof.Proof.KIPayload
import proofs.«424109_j8529805050142_3_alg».proof.Proof.KIBlocks
import proofs.«424109_j8529805050142_3_alg».proof.Proof.Spec
import proofs.«424109_j8529805050142_3_alg».proof.Proof.Pixels
import Mathlib.Logic.Equiv.Fin.Basic
import Mathlib.Algebra.BigOperators.Fin

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open scoped BigOperators

variable (m : (ℓ : Loc nD τ sig) → Buf (Elt Ideal) ℓ)

/-! ## The blocks and the arguments, by their literal types -/

/-- The flow block at a grid position. -/
abbrev fblk (c : Dev nD) (t : Fin cfg0.N) : Vec Ideal S8x2x32768 .f32 := iblk m c 0 t
/-- The mask block at a grid position. -/
abbrev mblk (c : Dev nD) (t : Fin cfg0.N) : Vec Ideal S8x32768 .i32 := iblk m c 1 t
/-- The flow argument. -/
abbrev xarg (c : Dev nD) : FVec Ideal S16x2x512x1024 .f32 := m ((c.tc : Thread nD τ).loc main_arg0)
/-- The mask argument. -/
abbrev karg (c : Dev nD) : IVec S16x512x1024 32 := m ((c.tc : Thread nD τ).loc main_arg1)

/-- What pixel `P` of image `a` contributes to statistics row `r` of segment `s`. -/
def term (x : FVec Ideal S16x2x512x1024 .f32) (k : IVec S16x512x1024 32) (a : Fin 16) (r : Fin 8) (s : Fin 32) (P : Fin 524288) : EReal :=
  if Cert.Pixels.word k a P = BitVec.ofNat 32 s.val then rowVal r (Cert.Pixels.flowU x a P) (Cert.Pixels.flowV x a P) else 0

/-! ## Sums over the pixels, block by block -/

/-- A sum over the 524288 pixels of an image is the sum over the 16 pixel blocks of the sums over their 32768 pixels. -/
theorem sum_pixBlocks {M : Type*} [AddCommMonoid M] (f : Fin 524288 → M) :
    ∑ P, f P = ∑ h : Fin 16, ∑ p : Fin 32768, f (pix h p) := by
  rw [← Equiv.sum_comp (finProdFinEquiv (m := 16) (n := 32768)) f, Fintype.sum_prod_type]
  refine Finset.sum_congr rfl fun h _ => Finset.sum_congr rfl fun p _ => congrArg f (Fin.ext ?_)
  show p.val + 32768 * h.val = 32768 * h.val + p.val
  omega

/-- The sum over pixel block `h`, for `h` a natural number (zero past the last block). -/
def blkSum (f : Fin 524288 → EReal) (h : ℕ) : EReal :=
  if hh : h < 16 then ∑ p : Fin 32768, f (pix ⟨h, hh⟩ p) else 0

theorem blkSum_of_lt (f : Fin 524288 → EReal) (h : ℕ) (hh : h < 16) :
    blkSum f h = ∑ p : Fin 32768, f (pix ⟨h, hh⟩ p) := dif_pos hh

/-- All 16 block sums together are the sum over the image. -/
theorem sum_range_blkSum (f : Fin 524288 → EReal) : ∑ h ∈ Finset.range 16, blkSum f h = ∑ P, f P := by
  rw [sum_pixBlocks, ← Fin.sum_univ_eq_sum_range (fun h => blkSum f h) 16]
  refine Finset.sum_congr rfl fun h _ => ?_
  exact blkSum_of_lt f h.val h.isLt

/-! ## What one pair of blocks adds -/

/-- What a flow block and a mask block add at row `r` of segment `s` of block image `b`. -/
def statTerm (x0 : Vec Ideal S8x2x32768 .f32) (x1 : Vec Ideal S8x32768 .i32) (b r : Fin 8) (s : Fin 32) : EReal :=
  ∑ p : Fin 32768, if x1 (ix2 b p) = BitVec.ofNat 32 s.val then rowVal r (x0 (ix3 b (0 : Fin 2) p)) (x0 (ix3 b (1 : Fin 2) p)) else 0
/-- What a mask block adds to the count of segment `s` of block image `b`. -/
def cntTerm (x1 : Vec Ideal S8x32768 .i32) (b : Fin 8) (s : Fin 32) : EReal :=
  ∑ p : Fin 32768, if x1 (ix2 b p) = BitVec.ofNat 32 s.val then (1 : EReal) else 0

/-- The horizontal components of a block of real numbers are real numbers. -/
theorem uBlk_fin (x0 : Vec Ideal S8x2x32768 .f32) (hf : ∀ j, ∃ v : ℝ, x0 j = (v : EReal)) : ∀ j, ∃ v : ℝ, uBlk x0 j = (v : EReal) := by
  intro j
  obtain ⟨b, z, p, rfl⟩ : ∃ (b : Fin 8) (z : Fin 1) (p : Fin 32768), j = ix3 b z p := ⟨j 0, j 1, j 2, eq_ix3 j⟩
  obtain rfl : z = 0 := Subsingleton.elim _ _
  rw [uBlk_apply]; exact hf _
/-- Likewise the vertical components. -/
theorem vBlk_fin (x0 : Vec Ideal S8x2x32768 .f32) (hf : ∀ j, ∃ v : ℝ, x0 j = (v : EReal)) : ∀ j, ∃ v : ℝ, vBlk x0 j = (v : EReal) := by
  intro j
  obtain ⟨b, z, p, rfl⟩ : ∃ (b : Fin 8) (z : Fin 1) (p : Fin 32768), j = ix3 b z p := ⟨j 0, j 1, j 2, eq_ix3 j⟩
  obtain rfl : z = 0 := Subsingleton.elim _ _
  rw [vBlk_apply]; exact hf _

/-! ## What each case leaves, at an index -/

/-- After a reset the statistics block holds this pair of blocks' contribution alone. -/
theorem pieceA2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec Ideal S8x2x32768 .f32) (x1 : Vec Ideal S8x32768 .i32) (hf : ∀ j, ∃ v : ℝ, x0 j = (v : EReal)) (b r : Fin 8) (s : Fin 32) :
    out0_A_2 c i arg2 harg2 arg3 harg3 arg4 harg4 arg5 harg5 hc0 x0 x1 (ix3 b r s) = statTerm x0 x1 b r s := by
  rw [out0_A_2_eq, pay1_apply (uBlk x0) (vBlk x0) x1 (k0_pay3 (F := Ideal)) (uBlk_fin x0 hf) (vBlk_fin x0 hf) b r s, pay3_apply, zero_add]
  unfold statTerm
  simp only [uBlk_apply, vBlk_apply]

/-- Without a reset it holds what it held plus this pair's contribution. -/
theorem pieceB2 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec Ideal S8x2x32768 .f32) (x1 : Vec Ideal S8x32768 .i32) (xo2 : Vec Ideal S8x8x32 .f32) (xo3 : Vec Ideal S8x32 .f32) (hf : ∀ j, ∃ v : ℝ, x0 j = (v : EReal)) (b r : Fin 8) (s : Fin 32) :
    out0_B_2 c i arg2 harg2 arg3 harg3 arg4 harg4 arg5 harg5 hc0 x0 x1 xo2 xo3 (ix3 b r s) = xo2 (ix3 b r s) + statTerm x0 x1 b r s := by
  rw [out0_B_2_eq, pay1_apply (uBlk x0) (vBlk x0) x1 xo2 (uBlk_fin x0 hf) (vBlk_fin x0 hf) b r s]
  unfold statTerm
  simp only [uBlk_apply, vBlk_apply]

/-- After a reset the count block holds this mask block's counts alone. -/
theorem pieceA3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : cond0_0 i)
    (x0 : Vec Ideal S8x2x32768 .f32) (x1 : Vec Ideal S8x32768 .i32) (b : Fin 8) (s : Fin 32) :
    out0_A_3 c i arg2 harg2 arg3 harg3 arg4 harg4 arg5 harg5 hc0 x0 x1 (ix2 b s) = cntTerm x1 b s := by
  rw [out0_A_3_eq, pay2_apply x1 (k0_pay4 (F := Ideal)) b s, pay4_apply, zero_add]
  rfl

/-- Without a reset it holds what it held plus this mask block's counts. -/
theorem pieceB3 (c : Dev nD) (i : grid0.Coords) (arg2 : Memref sig .tc .vmem S8x2x32768 .f32) (harg2 : arg2.IsWhole) (arg3 : Memref sig .tc .vmem S8x32768 .i32) (harg3 : arg3.IsWhole) (arg4 : Memref sig .tc .vmem S8x8x32 .f32) (harg4 : arg4.IsWhole) (arg5 : Memref sig .tc .vmem S8x32 .f32) (harg5 : arg5.IsWhole) (hc0 : ¬cond0_0 i)
    (x0 : Vec Ideal S8x2x32768 .f32) (x1 : Vec Ideal S8x32768 .i32) (xo2 : Vec Ideal S8x8x32 .f32) (xo3 : Vec Ideal S8x32 .f32) (b : Fin 8) (s : Fin 32) :
    out0_B_3 c i arg2 harg2 arg3 harg3 arg4 harg4 arg5 harg5 hc0 x0 x1 xo2 xo3 (ix2 b s) = xo3 (ix2 b s) + cntTerm x1 b s := by
  rw [out0_B_3_eq, pay2_apply x1 xo3 b s]
  rfl

/-! ## The blocks at a grid position, read off the arguments -/

/-- The flow block of image group `g`, pixel block `h`, holds the flow argument's entries at images `8g + b`, pixels `32768 h + p`. -/
theorem fblk_apply (c : Dev nD) (g : Fin 2) (h : Fin 16) (b : Fin 8) (ch : Fin 2) (p : Fin 32768) :
    fblk m c (pt g h) (ix3 b ch p) = xarg m c (ix4 (img g b) ch (Cert.Pixels.row (pix h p)) (Cert.Pixels.col (pix h p))) :=
  iblk0_apply m c g h b ch p

/-- The mask block of image group `g`, pixel block `h`, holds the words of those pixels. -/
theorem mblk_apply (c : Dev nD) (g : Fin 2) (h : Fin 16) (b : Fin 8) (p : Fin 32768) :
    mblk m c (pt g h) (ix2 b p) = Cert.Pixels.word (karg m c) (img g b) (pix h p) :=
  iblk1_apply m c g h b p

/-- A block of a flow argument of real numbers holds real numbers. -/
theorem fblk_fin (c : Dev nD) (hfin : Cert.Pixels.Finite (xarg m c)) (g : Fin 2) (h : Fin 16) :
    ∀ j, ∃ v : ℝ, fblk m c (pt g h) j = (v : EReal) := by
  intro j
  obtain ⟨b, ch, p, rfl⟩ : ∃ (b : Fin 8) (ch : Fin 2) (p : Fin 32768), j = ix3 b ch p := ⟨j 0, j 1, j 2, eq_ix3 j⟩
  rw [fblk_apply]; exact hfin _

/-- What the blocks of image group `g`, pixel block `h` add is the sum of that pixel block's pixels' terms. -/
theorem statTerm_blk (c : Dev nD) (g : Fin 2) (h : Fin 16) (b r : Fin 8) (s : Fin 32) :
    statTerm (fblk m c (pt g h)) (mblk m c (pt g h)) b r s
      = ∑ p : Fin 32768, term (xarg m c) (karg m c) (img g b) r s (pix h p) := by
  unfold statTerm term
  refine Finset.sum_congr rfl fun p _ => ?_
  rw [mblk_apply, fblk_apply, fblk_apply]
  rfl

/-- Likewise the counts. -/
theorem cntTerm_blk (c : Dev nD) (g : Fin 2) (h : Fin 16) (b : Fin 8) (s : Fin 32) :
    cntTerm (mblk m c (pt g h)) b s
      = ∑ p : Fin 32768, if Cert.Pixels.word (karg m c) (img g b) (pix h p) = BitVec.ofNat 32 s.val then (1 : EReal) else 0 := by
  unfold cntTerm
  refine Finset.sum_congr rfl fun p _ => ?_
  rw [mblk_apply]

/-! ## One grid position -/

/-- The first pixel block of an image group: the statistics block holds that block's pixels' terms. -/
theorem stats_step_A (c : Dev nD) (hfin : Cert.Pixels.Finite (xarg m c)) (g : Fin 2) (h : Fin 16) (h0 : (pt g h).val % 16 = 0)
    (b r : Fin 8) (s : Fin 32) :
    (outsAt0 (F := Ideal) m c (pt g h).val (pt g h).isLt).1 (ix3 b r s)
      = ∑ p : Fin 32768, term (xarg m c) (karg m c) (img g b) r s (pix h p) := by
  rw [outsAt0_A m c (pt g h) h0]
  dsimp only
  refine (pieceA2 c (grid0.coords (pt g h)) (ms0_0 (pt g h)) (hs0_0 (pt g h)) (ms0_1 (pt g h)) (hs0_1 (pt g h)) (ms0_2 (pt g h)) (hs0_2 (pt g h)) (ms0_3 (pt g h)) (hs0_3 (pt g h)) ((hcond0_0 (pt g h)).mpr h0) (fblk m c (pt g h)) (mblk m c (pt g h)) (fblk_fin m c hfin g h) b r s).trans ?_
  exact statTerm_blk m c g h b r s

/-- A later pixel block: what the position before left, plus that block's pixels' terms. -/
theorem stats_step_B (c : Dev nD) (hfin : Cert.Pixels.Finite (xarg m c)) (g : Fin 2) (h : Fin 16) (h0 : ¬(pt g h).val % 16 = 0)
    (b r : Fin 8) (s : Fin 32) :
    (outsAt0 (F := Ideal) m c (pt g h).val (pt g h).isLt).1 (ix3 b r s)
      = (outsAt0 (F := Ideal) m c ((pt g h).val - 1) (Nat.lt_of_le_of_lt (Nat.sub_le _ _) (pt g h).isLt)).1 (ix3 b r s)
        + ∑ p : Fin 32768, term (xarg m c) (karg m c) (img g b) r s (pix h p) := by
  rw [outsAt0_B m c (pt g h) h0]
  dsimp only
  refine (pieceB2 c (grid0.coords (pt g h)) (ms0_0 (pt g h)) (hs0_0 (pt g h)) (ms0_1 (pt g h)) (hs0_1 (pt g h)) (ms0_2 (pt g h)) (hs0_2 (pt g h)) (ms0_3 (pt g h)) (hs0_3 (pt g h)) (fun hc => h0 ((hcond0_0 (pt g h)).mp hc)) (fblk m c (pt g h)) (mblk m c (pt g h))
    (outsAt0 (F := Ideal) m c ((pt g h).val - 1) (Nat.lt_of_le_of_lt (Nat.sub_le _ _) (pt g h).isLt)).1
    (outsAt0 (F := Ideal) m c ((pt g h).val - 1) (Nat.lt_of_le_of_lt (Nat.sub_le _ _) (pt g h).isLt)).2
    (fblk_fin m c hfin g h) b r s).trans ?_
  rw [statTerm_blk m c g h b r s]

/-- The first pixel block of an image group: the count block holds that block's counts. -/
theorem cnt_step_A (c : Dev nD) (g : Fin 2) (h : Fin 16) (h0 : (pt g h).val % 16 = 0) (b : Fin 8) (s : Fin 32) :
    (outsAt0 (F := Ideal) m c (pt g h).val (pt g h).isLt).2 (ix2 b s)
      = ∑ p : Fin 32768, if Cert.Pixels.word (karg m c) (img g b) (pix h p) = BitVec.ofNat 32 s.val then (1 : EReal) else 0 := by
  rw [outsAt0_A m c (pt g h) h0]
  dsimp only
  refine (pieceA3 c (grid0.coords (pt g h)) (ms0_0 (pt g h)) (hs0_0 (pt g h)) (ms0_1 (pt g h)) (hs0_1 (pt g h)) (ms0_2 (pt g h)) (hs0_2 (pt g h)) (ms0_3 (pt g h)) (hs0_3 (pt g h)) ((hcond0_0 (pt g h)).mpr h0) (fblk m c (pt g h)) (mblk m c (pt g h)) b s).trans ?_
  exact cntTerm_blk m c g h b s

/-- A later pixel block: what the position before left, plus that block's counts. -/
theorem cnt_step_B (c : Dev nD) (g : Fin 2) (h : Fin 16) (h0 : ¬(pt g h).val % 16 = 0) (b : Fin 8) (s : Fin 32) :
    (outsAt0 (F := Ideal) m c (pt g h).val (pt g h).isLt).2 (ix2 b s)
      = (outsAt0 (F := Ideal) m c ((pt g h).val - 1) (Nat.lt_of_le_of_lt (Nat.sub_le _ _) (pt g h).isLt)).2 (ix2 b s)
        + ∑ p : Fin 32768, if Cert.Pixels.word (karg m c) (img g b) (pix h p) = BitVec.ofNat 32 s.val then (1 : EReal) else 0 := by
  rw [outsAt0_B m c (pt g h) h0]
  dsimp only
  refine (pieceB3 c (grid0.coords (pt g h)) (ms0_0 (pt g h)) (hs0_0 (pt g h)) (ms0_1 (pt g h)) (hs0_1 (pt g h)) (ms0_2 (pt g h)) (hs0_2 (pt g h)) (ms0_3 (pt g h)) (hs0_3 (pt g h)) (fun hc => h0 ((hcond0_0 (pt g h)).mp hc)) (fblk m c (pt g h)) (mblk m c (pt g h))
    (outsAt0 (F := Ideal) m c ((pt g h).val - 1) (Nat.lt_of_le_of_lt (Nat.sub_le _ _) (pt g h).isLt)).1
    (outsAt0 (F := Ideal) m c ((pt g h).val - 1) (Nat.lt_of_le_of_lt (Nat.sub_le _ _) (pt g h).isLt)).2
    b s).trans ?_
  rw [cntTerm_blk m c g h b s]

/-! ## The sixteen pixel blocks of an image group -/

/-- The contents after a position depend on the position's number only. -/
theorem outsAt0_congr (c : Dev nD) (n n' : ℕ) (e : n = n') (hn : n < cfg0.N) (hn' : n' < cfg0.N) :
    outsAt0 (F := Ideal) m c n hn = outsAt0 (F := Ideal) m c n' hn' := by
  subst e; rfl

/-- The position before pixel block `h + 1` of an image group is pixel block `h` of the same group. -/
theorem outsAt0_prev (c : Dev nD) (g : Fin 2) (h : ℕ) (hh : h + 1 < 16) :
    outsAt0 (F := Ideal) m c ((pt g ⟨h + 1, hh⟩).val - 1) (Nat.lt_of_le_of_lt (Nat.sub_le _ _) (pt g ⟨h + 1, hh⟩).isLt)
      = outsAt0 (F := Ideal) m c (pt g ⟨h, Nat.lt_of_succ_lt hh⟩).val (pt g ⟨h, Nat.lt_of_succ_lt hh⟩).isLt :=
  outsAt0_congr m c _ _ (by show 16 * g.val + (h + 1) - 1 = 16 * g.val + h; omega) _ _

/-- After pixel block `h` of image group `g` the statistics block holds, at (b, r, s), the terms of the pixels of the
    blocks up to `h` of image `8g + b`. -/
theorem stats_inv (c : Dev nD) (hfin : Cert.Pixels.Finite (xarg m c)) (g : Fin 2) (b r : Fin 8) (s : Fin 32) :
    ∀ (h : ℕ) (hh : h < 16),
      (outsAt0 (F := Ideal) m c (pt g ⟨h, hh⟩).val (pt g ⟨h, hh⟩).isLt).1 (ix3 b r s)
        = ∑ h' ∈ Finset.range (h + 1), blkSum (term (xarg m c) (karg m c) (img g b) r s) h'
  | 0, hh => by
    rw [stats_step_A m c hfin g ⟨0, hh⟩ (by show (16 * g.val + 0) % 16 = 0; omega) b r s, Finset.sum_range_one,
      blkSum_of_lt _ 0 hh]
  | h + 1, hh => by
    rw [stats_step_B m c hfin g ⟨h + 1, hh⟩ (by show ¬(16 * g.val + (h + 1)) % 16 = 0; omega) b r s,
      outsAt0_prev m c g h hh, stats_inv c hfin g b r s h (Nat.lt_of_succ_lt hh), Finset.sum_range_succ _ (h + 1),
      blkSum_of_lt _ (h + 1) hh]

/-- After pixel block `h` of image group `g` the count block holds, at (b, s), the number of pixels of the blocks up to
    `h` of image `8g + b` whose word is the word of `s`. -/
theorem cnt_inv (c : Dev nD) (g : Fin 2) (b : Fin 8) (s : Fin 32) :
    ∀ (h : ℕ) (hh : h < 16),
      (outsAt0 (F := Ideal) m c (pt g ⟨h, hh⟩).val (pt g ⟨h, hh⟩).isLt).2 (ix2 b s)
        = ∑ h' ∈ Finset.range (h + 1),
            blkSum (fun P => if Cert.Pixels.word (karg m c) (img g b) P = BitVec.ofNat 32 s.val then (1 : EReal) else 0) h'
  | 0, hh => by
    rw [cnt_step_A m c g ⟨0, hh⟩ (by show (16 * g.val + 0) % 16 = 0; omega) b s, Finset.sum_range_one,
      blkSum_of_lt _ 0 hh]
  | h + 1, hh => by
    rw [cnt_step_B m c g ⟨h + 1, hh⟩ (by show ¬(16 * g.val + (h + 1)) % 16 = 0; omega) b s,
      outsAt0_prev m c g h hh, cnt_inv c g b s h (Nat.lt_of_succ_lt hh), Finset.sum_range_succ _ (h + 1),
      blkSum_of_lt _ (h + 1) hh]

/-! ## After the last pixel block -/

/-- After the last pixel block of image group `g` the statistics block holds, at (b, r, s), the sum over ALL pixels of image
    `8g + b` of their terms for row `r` and segment `s`. -/
theorem outs_stats_last (c : Dev nD)
    (hfin : Cert.Pixels.Finite (m ((c.tc : Thread nD τ).loc main_arg0) : FVec Ideal S16x2x512x1024 .f32))
    (g : Fin 2) (b : Fin 8) (r : Fin 8) (s : Fin 32) :
    ((outsAt0 (F := Ideal) m c (pt g 15).val (pt g 15).isLt).1 : Vec Ideal S8x8x32 .f32) (ix3 b r s)
      = ∑ P : Fin 524288, term (m ((c.tc : Thread nD τ).loc main_arg0) : FVec Ideal S16x2x512x1024 .f32)
          (m ((c.tc : Thread nD τ).loc main_arg1) : IVec S16x512x1024 32) (img g b) r s P :=
  (stats_inv m c hfin g b r s 15 (by norm_num)).trans (sum_range_blkSum _)

/-- After the last pixel block of image group `g` the count block holds, at (b, s), the number of pixels of image `8g + b`
    whose word is the word of `s`. -/
theorem outs_cnt_last (c : Dev nD) (g : Fin 2) (b : Fin 8) (s : Fin 32) :
    ((outsAt0 (F := Ideal) m c (pt g 15).val (pt g 15).isLt).2 : Vec Ideal S8x32 .f32) (ix2 b s)
      = Cert.Spec.count (Cert.Pixels.word (m ((c.tc : Thread nD τ).loc main_arg1) : IVec S16x512x1024 32)) (img g b) s :=
  ((cnt_inv m c g b s 15 (by norm_num)).trans (sum_range_blkSum _)).trans rfl

end Cert.KernelIdeal.Hand

end
-- ==== Proof.KIAccum.lean ====
/-
  What the two result arrays hold after the whole grid.

  The statistics array is [16 images, 8 rows, 32 segments], the count array [16 images, 32 segments].
  Each is tiled by two blocks of 8 images, one per image group; the block of group g is written back
  once, after the last of the group's 16 pixel blocks (grid position 16 g + 15), when it holds, at
  (b, r, s), the sum over all 524288 pixels of image 8 g + b of what a pixel adds to row r of
  segment s, and for the counts the number of the image's pixels in segment s. Image a is covered by
  the block of group a / 8, at block row a % 8, so after the grid the arrays hold these sums at every
  entry.

  The rows come in pairs. Rows 0, 2, 4, 6 take at a pixel the values u, u·u, v, v·v of its two flow
  components; rows 1, 3, 5, 7 take 0. So the sum of rows 2j and 2j+1 is row 2j, the plain sum over the
  segment of u, u·u, v or v·v.
-/
import proofs.«424109_j8529805050142_3_alg».proof.Proof.KIInduct
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (m : (ℓ : Loc nD τ sig) → Buf (Elt Ideal) ℓ)

/-! ## Where the two output windows sit -/

/-- At grid position t both output windows sit at image group t / 16 and move along no other axis. -/
theorem out_idx : ∀ t : Fin cfg0.N, win0_2.index t (0 : Fin 3) = t.val / 16 ∧ win0_2.index t (1 : Fin 3) = 0
    ∧ win0_2.index t (2 : Fin 3) = 0 ∧ win0_3.index t (0 : Fin 2) = t.val / 16 ∧ win0_3.index t (1 : Fin 2) = 0 :=
  (by decide +kernel : ∀ t : Fin grid0.N, _)

/-- An entry of the statistics array lies in the block of position t iff each coordinate lies in the block's range. -/
theorem mem_blk2 (t : Fin cfg0.N) (i : S16x8x32.Idx) :
    i ∈ ((cfg0.win 2).blk t).view.set ↔ ∀ a : Fin 3, win0_2.index t a * S8x8x32.size a ≤ (i a).val ∧ (i a).val < win0_2.index t a * S8x8x32.size a + S8x8x32.size a := by
  show i ∈ ((View.whole main_v2_0).slice (win0_2.rect t)).set ↔ _
  rw [View.set_slice_whole, Rect.mem_set_unit]
  exact Iff.rfl

/-- The same for the count array. -/
theorem mem_blk3 (t : Fin cfg0.N) (i : S16x32.Idx) :
    i ∈ ((cfg0.win 3).blk t).view.set ↔ ∀ a : Fin 2, win0_3.index t a * S8x32.size a ≤ (i a).val ∧ (i a).val < win0_3.index t a * S8x32.size a + S8x32.size a := by
  show i ∈ ((View.whole main_v2_1).slice (win0_3.rect t)).set ↔ _
  rw [View.set_slice_whole, Rect.mem_set_unit]
  exact Iff.rfl

/-- The image group of image a. -/
def grp (a : Fin 16) : Fin 2 := ⟨a.val / 8, by have := a.isLt; omega⟩

theorem pt15_val (g : Fin 2) : (pt g 15).val = 16 * g.val + 15 := rfl

/-- Every entry of the statistics array lies in the block written back after the last pixel block of its image's group. -/
theorem cover2 (i : S16x8x32.Idx) : ∃ t : Fin cfg0.N, (cfg0.win 2).flush t = true ∧ i ∈ ((cfg0.win 2).blk t).view.set := by
  have h0 : (i 0).val < 16 := (i 0).isLt
  have h1 : (i 1).val < 8 := (i 1).isLt
  have h2 : (i 2).val < 32 := (i 2).isLt
  have hg : (grp (i 0)).val = (i 0).val / 8 := rfl
  refine ⟨pt (grp (i 0)) 15, (flush0_2 _).mpr (by rw [pt15_val]; omega), ?_⟩
  rw [mem_blk2]
  obtain ⟨e0, e1, e2, -, -⟩ := out_idx (pt (grp (i 0)) 15)
  intro a
  match a with
  | ⟨0, _⟩ => show win0_2.index _ (0 : Fin 3) * 8 ≤ (i 0).val ∧ (i 0).val < win0_2.index _ (0 : Fin 3) * 8 + 8; rw [e0, pt15_val, hg]; omega
  | ⟨1, _⟩ => show win0_2.index _ (1 : Fin 3) * 8 ≤ (i 1).val ∧ (i 1).val < win0_2.index _ (1 : Fin 3) * 8 + 8; rw [e1]; omega
  | ⟨2, _⟩ => show win0_2.index _ (2 : Fin 3) * 32 ≤ (i 2).val ∧ (i 2).val < win0_2.index _ (2 : Fin 3) * 32 + 32; rw [e2]; omega

/-- The same for the count array. -/
theorem cover3 (i : S16x32.Idx) : ∃ t : Fin cfg0.N, (cfg0.win 3).flush t = true ∧ i ∈ ((cfg0.win 3).blk t).view.set := by
  have h0 : (i 0).val < 16 := (i 0).isLt
  have h1 : (i 1).val < 32 := (i 1).isLt
  have hg : (grp (i 0)).val = (i 0).val / 8 := rfl
  refine ⟨pt (grp (i 0)) 15, (flush0_3 _).mpr (by rw [pt15_val]; omega), ?_⟩
  rw [mem_blk3]
  obtain ⟨-, -, -, e0, e1⟩ := out_idx (pt (grp (i 0)) 15)
  intro a
  match a with
  | ⟨0, _⟩ => show win0_3.index _ (0 : Fin 2) * 8 ≤ (i 0).val ∧ (i 0).val < win0_3.index _ (0 : Fin 2) * 8 + 8; rw [e0, pt15_val, hg]; omega
  | ⟨1, _⟩ => show win0_3.index _ (1 : Fin 2) * 32 ≤ (i 1).val ∧ (i 1).val < win0_3.index _ (1 : Fin 2) * 32 + 32; rw [e1]; omega

/-- The block of position 16 g + 15 of an array G of statistics holds, at (b, r, s), G at image 8 g + b. -/
theorem read_blk2 (G : FVec Ideal S16x8x32 .f32) (g : Fin 2) (b r : Fin 8) (s : Fin 32) :
    ((cfg0.win 2).blk (pt g 15)).view.read (Elt Ideal) G (ix3 b r s) = G (ix3 (img g b) r s) := by
  rw [View.read_apply]
  refine congrArg G (funext fun a => Fin.ext ?_)
  obtain ⟨e0, e1, e2, -, -⟩ := out_idx (pt g 15)
  have := g.isLt
  match a with
  | ⟨0, _⟩ => show win0_2.index (pt g 15) (0 : Fin 3) * 8 + 1 * b.val = 8 * g.val + b.val; rw [e0, pt15_val]; omega
  | ⟨1, _⟩ => show win0_2.index (pt g 15) (1 : Fin 3) * 8 + 1 * r.val = r.val; rw [e1]; omega
  | ⟨2, _⟩ => show win0_2.index (pt g 15) (2 : Fin 3) * 32 + 1 * s.val = s.val; rw [e2]; omega

/-- The same for an array of counts. -/
theorem read_blk3 (G : FVec Ideal S16x32 .f32) (g : Fin 2) (b : Fin 8) (s : Fin 32) :
    ((cfg0.win 3).blk (pt g 15)).view.read (Elt Ideal) G (ix2 b s) = G (ix2 (img g b) s) := by
  rw [View.read_apply]
  refine congrArg G (funext fun a => Fin.ext ?_)
  obtain ⟨-, -, -, e0, e1⟩ := out_idx (pt g 15)
  have := g.isLt
  match a with
  | ⟨0, _⟩ => show win0_3.index (pt g 15) (0 : Fin 2) * 8 + 1 * b.val = 8 * g.val + b.val; rw [e0, pt15_val]; omega
  | ⟨1, _⟩ => show win0_3.index (pt g 15) (1 : Fin 2) * 32 + 1 * s.val = s.val; rw [e1]; omega

/-! ## The two result arrays -/

/-- The flow argument and the mask argument as launched. -/
abbrev xarr (c : Dev nD) : FVec Ideal S16x2x512x1024 .f32 := m ((c.tc : Thread nD τ).loc main_arg0)
abbrev karr (c : Dev nD) : IVec S16x512x1024 32 := m ((c.tc : Thread nD τ).loc main_arg1)

/-- The statistics: at (image, row, segment) the sum over the image's pixels of what each adds to that row of that segment. -/
def statsArr (c : Dev nD) : FVec Ideal S16x8x32 .f32 := fun i => ∑ P : Fin 524288, term (xarr m c) (karr m c) (i 0) (i 1) (i 2) P
/-- The counts: at (image, segment) the number of the image's pixels in the segment. -/
def cntArr (c : Dev nD) : FVec Ideal S16x32 .f32 := fun i => Cert.Spec.count (Cert.Pixels.word (karr m c)) (i 0) (i 1)

theorem ext_blk2 (A B : S8x8x32.Idx → EReal) (h : ∀ (b r : Fin 8) (s : Fin 32), A (ix3 b r s) = B (ix3 b r s)) : A = B :=
  funext fun y => by rw [eq_ix3 y]; exact h _ _ _
theorem ext_blk3 (A B : S8x32.Idx → EReal) (h : ∀ (b : Fin 8) (s : Fin 32), A (ix2 b s) = B (ix2 b s)) : A = B :=
  funext fun y => by rw [eq_ix2 y]; exact h _ _

/-- What is written back after the last pixel block of image group g is that group's block of the statistics. -/
theorem flushed2_pt (c : Dev nD) (hfin : Cert.Pixels.Finite (xarr m c)) (g : Fin 2) :
    (dats m 0 c).flushed 2 (pt g 15) = ((cfg0.win 2).blk (pt g 15)).view.read (Elt Ideal) (statsArr m c) := by
  show (cfg0.win 2).cut (grid0.coords (pt g 15)) ((dats m 0 c).after 2 (pt g 15)) = _
  rw [after0_2]
  refine ext_blk2 _ _ fun b r s => ?_
  rw [read_blk2 (statsArr m c) g b r s]
  exact outs_stats_last m c hfin g b r s

theorem flushed3_pt (c : Dev nD) (g : Fin 2) :
    (dats m 0 c).flushed 3 (pt g 15) = ((cfg0.win 3).blk (pt g 15)).view.read (Elt Ideal) (cntArr m c) := by
  show (cfg0.win 3).cut (grid0.coords (pt g 15)) ((dats m 0 c).after 3 (pt g 15)) = _
  rw [after0_3]
  refine ext_blk3 _ _ fun b s => ?_
  rw [read_blk3 (cntArr m c) g b s]
  exact outs_cnt_last m c g b s

/-- A position that writes back is the last of its image group. -/
theorem eq_pt15 (t : Fin cfg0.N) (h15 : t.val % 16 = 15) : t = pt ⟨t.val / 16, by have := lt_of_lt_of_eq t.isLt (show cfg0.N = 32 from N_0); omega⟩ 15 :=
  Fin.ext (by rw [pt15_val]; show t.val = 16 * (t.val / 16) + 15; omega)

theorem flushed2_eq (c : Dev nD) (hfin : Cert.Pixels.Finite (xarr m c)) (t : Fin cfg0.N) (hf : (cfg0.win 2).flush t = true) :
    (dats m 0 c).flushed 2 t = ((cfg0.win 2).blk t).view.read (Elt Ideal) (statsArr m c) := by
  have h := flushed2_pt m c hfin ⟨t.val / 16, by have := lt_of_lt_of_eq t.isLt (show cfg0.N = 32 from N_0); omega⟩
  rwa [← eq_pt15 t ((flush0_2 t).mp hf)] at h

theorem flushed3_eq (c : Dev nD) (t : Fin cfg0.N) (hf : (cfg0.win 3).flush t = true) :
    (dats m 0 c).flushed 3 t = ((cfg0.win 3).blk t).view.read (Elt Ideal) (cntArr m c) := by
  have h := flushed3_pt m c ⟨t.val / 16, by have := lt_of_lt_of_eq t.isLt (show cfg0.N = 32 from N_0); omega⟩
  rwa [← eq_pt15 t ((flush0_3 t).mp hf)] at h

/-- The statistics array and the count array after the whole grid. -/
abbrev statsOut (c : Dev nD) : FVec Ideal S16x8x32 .f32 := (dats m 0 c).arrAt 2 cfg0.N
abbrev cntOut (c : Dev nD) : FVec Ideal S16x32 .f32 := (dats m 0 c).arrAt 3 cfg0.N

/-- After the whole grid the statistics array holds the per-image, per-row, per-segment sums, -/
theorem stats_final (c : Dev nD) (hfin : Cert.Pixels.Finite (xarr m c)) : statsOut m c = statsArr m c :=
  (dats m 0 c).arrAt_eq_of_cover 2 (statsArr m c) (flushed2_eq m c hfin) cover2
/-- and the count array the segments' pixel counts. -/
theorem cnt_arr_final (c : Dev nD) : cntOut m c = cntArr m c :=
  (dats m 0 c).arrAt_eq_of_cover 3 (cntArr m c) (flushed3_eq m c) cover3

theorem cnt_final (c : Dev nD) (b : Fin 16) (s : Fin 32) :
    cntOut m c (ix2 b s) = Cert.Spec.count (Cert.Pixels.word (karr m c)) b s := by
  rw [cnt_arr_final]; rfl

/-! ## The rows in pairs -/

/-- A row whose value at a pixel is f of the pixel sums to the segment sum of f. -/
theorem sum_term_of (c : Dev nD) (a : Fin 16) (r : Fin 8) (s : Fin 32) (f : Fin 16 → Fin 524288 → EReal)
    (hr : ∀ P, rowVal r (Cert.Pixels.flowU (xarr m c) a P) (Cert.Pixels.flowV (xarr m c) a P) = f a P) :
    ∑ P : Fin 524288, term (xarr m c) (karr m c) a r s P = Cert.Spec.seg (Cert.Pixels.word (karr m c)) f a s := by
  unfold Cert.Spec.seg term
  refine Finset.sum_congr rfl fun P _ => ?_
  rw [hr P]

/-- A row whose value is 0 at every pixel sums to 0. -/
theorem sum_term_zero (c : Dev nD) (a : Fin 16) (r : Fin 8) (s : Fin 32) (hr : ∀ u v : EReal, rowVal r u v = 0) :
    ∑ P : Fin 524288, term (xarr m c) (karr m c) a r s P = 0 := by
  refine Finset.sum_eq_zero fun P _ => ?_
  unfold term
  rw [hr]
  exact ite_self 0

/-- Rows 0 and 1 of the statistics add to the segment sums of the horizontal component, -/
theorem stats_u (c : Dev nD) (hfin : Cert.Pixels.Finite (xarr m c)) (b : Fin 16) (s : Fin 32) :
    statsOut m c (ix3 b (0 : Fin 8) s) + statsOut m c (ix3 b (1 : Fin 8) s)
      = Cert.Spec.seg (Cert.Pixels.word (karr m c)) (Cert.Pixels.flowU (xarr m c)) b s := by
  rw [stats_final m c hfin]
  show (∑ P : Fin 524288, term (xarr m c) (karr m c) b 0 s P) + (∑ P : Fin 524288, term (xarr m c) (karr m c) b 1 s P) = _
  rw [sum_term_zero m c b 1 s rowVal_one, add_zero, sum_term_of m c b 0 s (Cert.Pixels.flowU (xarr m c)) fun P => rowVal_zero _ _]

/-- rows 2 and 3 to those of its square, -/
theorem stats_uu (c : Dev nD) (hfin : Cert.Pixels.Finite (xarr m c)) (b : Fin 16) (s : Fin 32) :
    statsOut m c (ix3 b (2 : Fin 8) s) + statsOut m c (ix3 b (3 : Fin 8) s)
      = Cert.Spec.seg (Cert.Pixels.word (karr m c)) (fun b p => Cert.Pixels.flowU (xarr m c) b p * Cert.Pixels.flowU (xarr m c) b p) b s := by
  rw [stats_final m c hfin]
  show (∑ P : Fin 524288, term (xarr m c) (karr m c) b 2 s P) + (∑ P : Fin 524288, term (xarr m c) (karr m c) b 3 s P) = _
  rw [sum_term_zero m c b 3 s rowVal_three, add_zero, sum_term_of m c b 2 s (fun b p => Cert.Pixels.flowU (xarr m c) b p * Cert.Pixels.flowU (xarr m c) b p) fun P => rowVal_two _ _]

/-- rows 4 and 5 to those of the vertical component, -/
theorem stats_v (c : Dev nD) (hfin : Cert.Pixels.Finite (xarr m c)) (b : Fin 16) (s : Fin 32) :
    statsOut m c (ix3 b (4 : Fin 8) s) + statsOut m c (ix3 b (5 : Fin 8) s)
      = Cert.Spec.seg (Cert.Pixels.word (karr m c)) (Cert.Pixels.flowV (xarr m c)) b s := by
  rw [stats_final m c hfin]
  show (∑ P : Fin 524288, term (xarr m c) (karr m c) b 4 s P) + (∑ P : Fin 524288, term (xarr m c) (karr m c) b 5 s P) = _
  rw [sum_term_zero m c b 5 s rowVal_five, add_zero, sum_term_of m c b 4 s (Cert.Pixels.flowV (xarr m c)) fun P => rowVal_four _ _]

/-- and rows 6 and 7 to those of its square. -/
theorem stats_vv (c : Dev nD) (hfin : Cert.Pixels.Finite (xarr m c)) (b : Fin 16) (s : Fin 32) :
    statsOut m c (ix3 b (6 : Fin 8) s) + statsOut m c (ix3 b (7 : Fin 8) s)
      = Cert.Spec.seg (Cert.Pixels.word (karr m c)) (fun b p => Cert.Pixels.flowV (xarr m c) b p * Cert.Pixels.flowV (xarr m c) b p) b s := by
  rw [stats_final m c hfin]
  show (∑ P : Fin 524288, term (xarr m c) (karr m c) b 6 s P) + (∑ P : Fin 524288, term (xarr m c) (karr m c) b 7 s P) = _
  rw [sum_term_zero m c b 7 s rowVal_seven, add_zero, sum_term_of m c b 6 s (fun b p => Cert.Pixels.flowV (xarr m c) b p * Cert.Pixels.flowV (xarr m c) b p) fun P => rowVal_six _ _]

end Cert.KernelIdeal.Hand

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.RefSegments.lean ====
/-
  The reference's five sums per segment, read at one segment of one image.

  The reference lists all 8388608 pixels of the batch image after image, each image row by row, so
  pixel `p` of image `b'` stands at position `524288 b' + p`. It gives that pixel the global segment
  number (its own word) + 32 b' in 32-bit arithmetic and adds the pixel's update (1, a flow component
  or its square) to the entry of that number in a vector of 512 entries that starts at zero. A word
  in [0, 32) plus 32 b' with b' < 16 does not wrap, and equals 32 b + s with s < 32 exactly when
  b' = b and the word is the word of `s`. So entry 32 b + s receives, from the images other than `b`,
  nothing, and from image `b` the updates of its pixels whose word is the word of `s`: the sum that
  defines the segment's statistic. Zero plus a sum is the sum in the extended reals, and a sum of
  zeros is zero, so nothing is asked of the flow values.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Mathlib.Logic.Equiv.Fin.Basic
import Mathlib.Algebra.BigOperators.Fin
import proofs.«424109_j8529805050142_3_alg».proof.Proof.Spec
import proofs.«424109_j8529805050142_3_alg».proof.Proof.Pixels
import proofs.«424109_j8529805050142_3_alg».proof.Proof.LibScatterSum
import proofs.«424109_j8529805050142_3_alg».proof.Proof.RefTerm

noncomputable section

namespace Cert.ReferenceIdeal.Hand

open Idealize.ShloMosaic Idealize.ShloMosaic.ValueIdx Cert.Pixels Cert.ReferenceIdeal Cert.ReferenceIdeal.Facts₀
open scoped BigOperators
/-! ## Positions and words -/

/-- The position of pixel `p` of image `b` in the list of all pixels of all images. -/
def flatPos (b : Fin 16) (p : Fin 524288) : Fin 8388608 :=
  ⟨524288 * b.val + p.val, by have := b.isLt; have := p.isLt; omega⟩

/-- A sum over all pixels of all images is the sum over the images of the sums over their pixels. -/
theorem sum_images {M : Type*} [AddCommMonoid M] (f : Fin 8388608 → M) :
    ∑ e, f e = ∑ b : Fin 16, ∑ p : Fin 524288, f (flatPos b p) := by
  rw [← Equiv.sum_comp (finProdFinEquiv (m := 16) (n := 524288)) f, Fintype.sum_prod_type]
  refine Finset.sum_congr rfl fun b _ => Finset.sum_congr rfl fun p _ => congrArg f (Fin.ext ?_)
  show p.val + 524288 * b.val = 524288 * b.val + p.val
  omega

/-- A word in [0, 32) read signed has a natural value below 32. -/
theorem toNat_lt_of_inRange (w : BitVec 32) (hw : 0 ≤ w.toInt ∧ w.toInt < 32) : w.toNat < 32 := by
  obtain ⟨h0, h1⟩ := hw
  have := w.isLt
  rw [BitVec.toInt_eq_toNat_cond] at h0 h1
  split at h0 <;> omega

/-- A word in [0, 32) plus 32 times an image number below 16 does not wrap; read signed it is `32 b + s` exactly when
    the image is `b` and the word is the word of `s`. -/
theorem word_lands (w : BitVec 32) (hw : 0 ≤ w.toInt ∧ w.toInt < 32) (b' b : Fin 16) (s : Fin 32) :
    (w + BitVec.ofNat 32 b'.val * 32#32).toInt = ((32 * b.val + s.val : ℕ) : ℤ)
      ↔ (b' = b ∧ w = BitVec.ofNat 32 s.val) := by
  have hb' := b'.isLt; have hb := b.isLt; have hs := s.isLt
  have hwn := toNat_lt_of_inRange w hw
  have hsum : (w + BitVec.ofNat 32 b'.val * 32#32).toNat = w.toNat + 32 * b'.val := by
    rw [BitVec.toNat_add, BitVec.toNat_mul, BitVec.toNat_ofNat, BitVec.toNat_ofNat]
    omega
  have hint : (w + BitVec.ofNat 32 b'.val * 32#32).toInt = ((w.toNat + 32 * b'.val : ℕ) : ℤ) := by
    rw [BitVec.toInt_eq_toNat_cond, hsum]; split <;> omega
  rw [hint]
  constructor
  · intro h
    have h' : w.toNat + 32 * b'.val = 32 * b.val + s.val := by exact_mod_cast h
    refine ⟨Fin.ext (by omega), BitVec.eq_of_toNat_eq ?_⟩
    rw [BitVec.toNat_ofNat]; omega
  · rintro ⟨rfl, rfl⟩
    rw [BitVec.toNat_ofNat]
    have : s.val % 2 ^ 32 = s.val := Nat.mod_eq_of_lt (by omega)
    rw [this]; push_cast; ring

/-! ## The reference's index arithmetic read at a position -/

/-- Every image's segment offset, read at a pixel: the image's number times 32, as 32-bit words. -/
theorem imgBase_apply (b' : Fin 16) (p : Fin 524288) :
    broadcastInDim S16x524288 ![0, 1] bcast_S16x1_S16x524288_0_1 imgBase (ix2 b' p)
      = BitVec.ofNat 32 b'.val * 32#32 := by
  rfl

/-- The masks read as 16 rows of 524288 pixels: entry `(b', p)` is the word of pixel `p` of image `b'`. -/
theorem maskRows_apply (k : IVec S16x512x1024 32) (b' : Fin 16) (p : Fin 524288) :
    shapeCast S16x524288 k shapeCasts_S16x512x1024_S16x524288 (ix2 b' p) = word k b' p := by
  refine shapeCast_apply _ _ (ix2 b' p) (ix3 b' (row p) (col p)) ?_
  rw [Shape.rowMajor_val_three, Shape.rowMajor_val_two]
  show (b'.val * 512 + p.val / 1024) * 1024 + p.val % 1024 = b'.val * 524288 + p.val
  omega

/-- The global segment number of pixel `p` of image `b'`: its own word plus the image's offset. -/
theorem gid_flatPos (k : IVec S16x512x1024 32) (b' : Fin 16) (p : Fin 524288) :
    gid k (ix1 (flatPos b' p)) = word k b' p + BitVec.ofNat 32 b'.val * 32#32 := by
  unfold gid
  refine (shapeCast_apply _ _ (ix1 (flatPos b' p)) (ix2 b' p) ?_).trans ?_
  · rw [Shape.rowMajor_val_two, Shape.rowMajor_val_one]
    show b'.val * 524288 + p.val = 524288 * b'.val + p.val
    omega
  · refine (show _ = shapeCast S16x524288 k shapeCasts_S16x512x1024_S16x524288 (ix2 b' p)
        + broadcastInDim S16x524288 ![0, 1] bcast_S16x1_S16x524288_0_1 imgBase (ix2 b' p) from rfl).trans ?_
    rw [maskRows_apply, imgBase_apply]

/-- The column of index vectors at update `e` holds the global segment number of position `e`. -/
theorem gidCol_apply (k : IVec S16x512x1024 32) (e : Fin 8388608) :
    gidCol k (ix2 e (0 : Fin 1)) = gid k (ix1 e) := by
  unfold gidCol
  refine broadcastInDim_apply _ _ _ (ix2 e (0 : Fin 1)) (ix1 e) fun a => ?_
  match a with
  | ⟨0, _⟩ => rfl

/-- Every sum starts at zero. -/
theorem zero512_apply (n : Fin 512) : zero512 (F := Ideal) (ix1 n) = 0 := by
  unfold zero512
  rw [broadcastInDim_scalar_apply, constant_apply, Ideal.ofBits_zero_f32]

/-- An accumulating scatter of the reference, read at segment `n`: the start value plus the sum of the updates whose
    index word, read signed, is `n`. -/
theorem scatter_eq (x : FVec Ideal S512 .f32) (idx : IVec S8388608x1 32) (upd : FVec Ideal S8388608 .f32) (n : Fin 512) :
    Host.scatterAdd scatter_S512_S8388608x1_S8388608_n_0_0_1 x idx upd (ix1 n)
      = x (ix1 n) + ∑ e ∈ Finset.univ.filter (fun e : Fin 8388608 => (idx (ix2 e (0 : Fin 1))).toInt = (n.val : ℤ)), upd (ix1 e) :=
  Cert.LibScatterSum.scatterAdd_vec scatter_S512_S8388608x1_S8388608_n_0_0_1_wf x idx upd n

/-- Among all pixels of all images, those whose global segment number is `32 b + s` are the pixels of image `b`
    whose own word is the word of `s`: a sum over the former is a sum over image `b` alone. -/
theorem sum_lands (idx : Fin 8388608 → BitVec 32) (upd : Fin 8388608 → EReal) (wd : Fin 16 → Fin 524288 → BitVec 32)
    (hidx : ∀ b' p, idx (flatPos b' p) = wd b' p + BitVec.ofNat 32 b'.val * 32#32)
    (hwd : ∀ b' p, 0 ≤ (wd b' p).toInt ∧ (wd b' p).toInt < 32) (b : Fin 16) (s : Fin 32) :
    ∑ e ∈ Finset.univ.filter (fun e : Fin 8388608 => (idx e).toInt = ((32 * b.val + s.val : ℕ) : ℤ)), upd e
      = ∑ p : Fin 524288, if wd b p = BitVec.ofNat 32 s.val then upd (flatPos b p) else 0 := by
  rw [Finset.sum_filter, sum_images, Finset.sum_eq_single b]
  · refine Finset.sum_congr rfl fun p _ => ?_
    rw [hidx]
    by_cases h : wd b p = BitVec.ofNat 32 s.val
    · rw [if_pos h, if_pos ((word_lands _ (hwd b p) b b s).2 ⟨rfl, h⟩)]
    · rw [if_neg h, if_neg (fun h' => h ((word_lands _ (hwd b p) b b s).1 h').2)]
  · intro b' _ hne
    refine Finset.sum_eq_zero fun p _ => ?_
    rw [hidx, if_neg (fun h' => hne ((word_lands _ (hwd b' p) b' b s).1 h').1)]
  · intro h; exact absurd (Finset.mem_univ b) h

/-- Any of the reference's five sums, read at segment `s` of image `b`: the sum over that image's pixels whose word is
    the word of `s` of the update at the pixel's position. -/
theorem scatter_apply (k : IVec S16x512x1024 32) (hk : InRange k) (upd : FVec Ideal S8388608 .f32) (b : Fin 16) (s : Fin 32) :
    Host.scatterAdd scatter_S512_S8388608x1_S8388608_n_0_0_1 (zero512 (F := Ideal)) (gidCol k) upd (ix1 (gseg b s))
      = ∑ p : Fin 524288, if word k b p = BitVec.ofNat 32 s.val then upd (ix1 (flatPos b p)) else 0 := by
  rw [scatter_eq, zero512_apply, zero_add]
  exact sum_lands (fun e => gidCol k (ix2 e (0 : Fin 1))) (fun e => upd (ix1 e)) (word k)
    (fun b' p => (gidCol_apply k _).trans (gid_flatPos k b' p)) (fun b' p => hk _) b s

/-! ## The updates read at a pixel's position -/

/-- The update of the pixel count is one at every position. -/
theorem onePix_apply (e : Fin 8388608) : onePix (F := Ideal) (ix1 e) = 1 := by
  unfold onePix
  rw [broadcastInDim_scalar_apply, constant_apply, Ideal.ofBits_one_f32]

/-- The flattened horizontal component at the position of pixel `p` of image `b` is that pixel's. -/
theorem uFlat_flatPos (x : FVec Ideal S16x2x512x1024 .f32) (b : Fin 16) (p : Fin 524288) :
    uFlat x (ix1 (flatPos b p)) = flowU x b p := by
  unfold uFlat
  refine (shapeCast_apply _ _ (ix1 (flatPos b p)) (ix3 b (row p) (col p)) ?_).trans ?_
  · rw [Shape.rowMajor_val_three, Shape.rowMajor_val_one]
    show (b.val * 512 + p.val / 1024) * 1024 + p.val % 1024 = 524288 * b.val + p.val
    omega
  refine (shapeCast_apply _ _ (ix3 b (row p) (col p)) (ix4 b (0 : Fin 1) (row p) (col p)) ?_).trans ?_
  · rw [Shape.rowMajor_val_four, Shape.rowMajor_val_three]
    show ((b.val * 1 + 0) * 512 + p.val / 1024) * 1024 + p.val % 1024
      = (b.val * 512 + p.val / 1024) * 1024 + p.val % 1024
    omega
  show _ = x (ix4 b (0 : Fin 2) (row p) (col p))
  refine extractStridedSlice_apply _ _ _ (ix4 b (0 : Fin 1) (row p) (col p)) (ix4 b (0 : Fin 2) (row p) (col p)) fun a => ?_
  match a with
  | ⟨0, _⟩ => show b.val = 0 + b.val; omega
  | ⟨1, _⟩ => show 0 = 0 + 0; omega
  | ⟨2, _⟩ => show p.val / 1024 = 0 + p.val / 1024; omega
  | ⟨3, _⟩ => show p.val % 1024 = 0 + p.val % 1024; omega

/-- The flattened vertical component at the position of pixel `p` of image `b` is that pixel's. -/
theorem vFlat_flatPos (x : FVec Ideal S16x2x512x1024 .f32) (b : Fin 16) (p : Fin 524288) :
    vFlat x (ix1 (flatPos b p)) = flowV x b p := by
  unfold vFlat
  refine (shapeCast_apply _ _ (ix1 (flatPos b p)) (ix3 b (row p) (col p)) ?_).trans ?_
  · rw [Shape.rowMajor_val_three, Shape.rowMajor_val_one]
    show (b.val * 512 + p.val / 1024) * 1024 + p.val % 1024 = 524288 * b.val + p.val
    omega
  refine (shapeCast_apply _ _ (ix3 b (row p) (col p)) (ix4 b (0 : Fin 1) (row p) (col p)) ?_).trans ?_
  · rw [Shape.rowMajor_val_four, Shape.rowMajor_val_three]
    show ((b.val * 1 + 0) * 512 + p.val / 1024) * 1024 + p.val % 1024
      = (b.val * 512 + p.val / 1024) * 1024 + p.val % 1024
    omega
  show _ = x (ix4 b (1 : Fin 2) (row p) (col p))
  refine extractStridedSlice_apply _ _ _ (ix4 b (0 : Fin 1) (row p) (col p)) (ix4 b (1 : Fin 2) (row p) (col p)) fun a => ?_
  match a with
  | ⟨0, _⟩ => show b.val = 0 + b.val; omega
  | ⟨1, _⟩ => show 1 = 1 + 0; omega
  | ⟨2, _⟩ => show p.val / 1024 = 0 + p.val / 1024; omega
  | ⟨3, _⟩ => show p.val % 1024 = 0 + p.val % 1024; omega

/-! ## The five sums per segment -/

/-- The reference's pixel count of segment `s` of image `b` is the number of that image's pixels whose word is the
    word of `s`. -/
theorem segCnt_apply (k : IVec S16x512x1024 32) (hk : InRange k) (b : Fin 16) (s : Fin 32) :
    segCnt (F := Ideal) k (ix1 (gseg b s)) = Cert.Spec.count (word k) b s := by
  unfold segCnt
  rw [scatter_apply k hk]
  unfold Cert.Spec.count Cert.Spec.seg
  refine Finset.sum_congr rfl fun p _ => ?_
  rw [onePix_apply]

/-- The reference's sum of the horizontal component over segment `s` of image `b`. -/
theorem segU_apply (x : FVec Ideal S16x2x512x1024 .f32) (k : IVec S16x512x1024 32) (hk : InRange k) (b : Fin 16) (s : Fin 32) :
    segU (F := Ideal) x k (ix1 (gseg b s)) = Cert.Spec.seg (word k) (flowU x) b s := by
  unfold segU
  rw [scatter_apply k hk]
  unfold Cert.Spec.seg
  refine Finset.sum_congr rfl fun p _ => ?_
  rw [uFlat_flatPos]

/-- The reference's sum of the horizontal component's square over segment `s` of image `b`. -/
theorem segUU_apply (x : FVec Ideal S16x2x512x1024 .f32) (k : IVec S16x512x1024 32) (hk : InRange k) (b : Fin 16) (s : Fin 32) :
    segUU (F := Ideal) x k (ix1 (gseg b s)) = Cert.Spec.seg (word k) (fun b p => flowU x b p * flowU x b p) b s := by
  unfold segUU
  rw [scatter_apply k hk]
  unfold Cert.Spec.seg
  refine Finset.sum_congr rfl fun p _ => ?_
  rw [mulf_apply, uFlat_flatPos]

/-- The reference's sum of the vertical component over segment `s` of image `b`. -/
theorem segV_apply (x : FVec Ideal S16x2x512x1024 .f32) (k : IVec S16x512x1024 32) (hk : InRange k) (b : Fin 16) (s : Fin 32) :
    segV (F := Ideal) x k (ix1 (gseg b s)) = Cert.Spec.seg (word k) (flowV x) b s := by
  unfold segV
  rw [scatter_apply k hk]
  unfold Cert.Spec.seg
  refine Finset.sum_congr rfl fun p _ => ?_
  rw [vFlat_flatPos]

/-- The reference's sum of the vertical component's square over segment `s` of image `b`. -/
theorem segVV_apply (x : FVec Ideal S16x2x512x1024 .f32) (k : IVec S16x512x1024 32) (hk : InRange k) (b : Fin 16) (s : Fin 32) :
    segVV (F := Ideal) x k (ix1 (gseg b s)) = Cert.Spec.seg (word k) (fun b p => flowV x b p * flowV x b p) b s := by
  unfold segVV
  rw [scatter_apply k hk]
  unfold Cert.Spec.seg
  refine Finset.sum_congr rfl fun p _ => ?_
  rw [mulf_apply, vFlat_flatPos]

end Cert.ReferenceIdeal.Hand

end
-- ==== Proof.TailsAgree.lean ====
/-
  The two result pipelines agree.

  After the per-segment sums are known, both programs finish with the same arithmetic. One lays the
  16 · 32 segments out as a [16, 32] array, the other as a row of 512 with segment s of image b at
  entry 32·b + s. For each segment: from the count c, a sum x and a sum of squares xx the sample
  variance (xx − x·x / max(c, 1)) / max(c − 1, 1), for both flow components; a segment counts when
  c ≥ 50 and it is not segment 0 of its image; the result is the sum of the two variances over the
  segments that count divided by max(their number, 1), and 0 when none counts.

  The proof has four parts. (1) Every stage up to the two sums is entry by entry one scalar function
  of the entries of its operands, the same on both sides. (2) The test "not segment 0" reads, on one
  side, the segment number s itself, and on the other the remainder of 32·b + s by 32 computed on
  32-bit words with a sign repair; for 0 ≤ 32·b + s < 512 the two agree. (3) A sum over 16 × 32 entries
  is the sum over 512 entries along (b, s) ↦ 32·b + s; addition of extended reals is commutative and
  associative, so no finiteness is needed. (4) The last steps are one function of the two sums.
-/
import Idealize.ShloMosaic.Lib.IdealHost
import Mathlib.Logic.Equiv.Fin.Basic
import proofs.«424109_j8529805050142_3_alg».proof.Proof.Pixels
import proofs.«424109_j8529805050142_3_alg».proof.Proof.KTailDef
import proofs.«424109_j8529805050142_3_alg».proof.Proof.RefTerm

noncomputable section

namespace Cert.Tails

open scoped BigOperators
open Idealize.ShloMosaic Idealize.ShloMosaic.ValueIdx

/-! ## Sums over the segments -/

/-- A sum over the 512 global segments is the sum over the 16 images of the sums over each image's 32 segments. -/
theorem sum_gseg {M : Type*} [AddCommMonoid M] (f : Fin 512 → M) :
    ∑ b : Fin 16, ∑ s : Fin 32, f (Cert.Pixels.gseg b s) = ∑ n : Fin 512, f n := by
  rw [← Fintype.sum_prod_type']
  refine Fintype.sum_equiv (finProdFinEquiv (m := 16) (n := 32)) _ _ (fun x => ?_)
  refine congrArg f (Fin.ext ?_)
  show 32 * x.1.val + x.2.val = x.2.val + 32 * x.1.val
  omega

/-- The index set of a one-axis array is the range of its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two arrays, one [16, 32] and one [512], hold the same entries: entry (b, s) of the first is entry 32·b + s of the second. -/
def Agree {α : Type} (x : (⟨2, ![16, 32]⟩ : Shape).Idx → α) (x' : (⟨1, ![512]⟩ : Shape).Idx → α) : Prop :=
  ∀ (b : Fin 16) (s : Fin 32), x (ix2 b s) = x' (ix1 (Cert.Pixels.gseg b s))

/-- The total sums of two arrays with the same entries, from the same initial value, are equal. -/
theorem reduce_agree (x : FVec Ideal (⟨2, ![16, 32]⟩ : Shape) .f32) (x' : FVec Ideal (⟨1, ![512]⟩ : Shape) .f32)
    (i i' : FVec Ideal (⟨0, ![]⟩ : Shape) .f32)
    (hK : (⟨2, ![16, 32]⟩ : Shape).ReducesTo [0, 1] (⟨0, ![]⟩ : Shape))
    (hR : (⟨1, ![512]⟩ : Shape).ReducesTo [0] (⟨0, ![]⟩ : Shape))
    (hu hu' : 0 < (⟨0, ![]⟩ : Shape).numel)
    (hx : Agree x x') (hi : i ix0 = i' ix0) :
    Host.reduceAdd x i hK hu = Host.reduceAdd x' i' hR hu' := by
  funext j
  rw [hostReduceAdd_apply, hostReduceAdd_apply,
    Ideal.hostReduceAdd_total hK (fun b => b.elim0), Ideal.hostReduceAdd_total hR (fun b => b.elim0),
    sum_idx2, sum_idx1, ← sum_gseg, eq_ix0 (Shape.Idx.first hu), hi]
  exact congrArg (i' ix0 + ·) (Finset.sum_congr rfl fun b _ => Finset.sum_congr rfl fun s _ => hx b s)

/-! ## The remainder by 32 on words -/

/-- The signed remainder of a word by 32 (the divisor after the test that replaces a zero divisor by one), moved by one divisor when it is not zero and its sign differs from the divisor's. -/
def remFix (x : BitVec 32) : BitVec 32 :=
  let d := Scalar.select (IntOp.cmpi .eq 32#32 0#32) 1#32 32#32
  let r := IntOp.remsi .host x d
  Scalar.select (IntOp.andi (IntOp.cmpi .ne (IntOp.cmpi .slt r 0#32) (IntOp.cmpi .slt d 0#32)) (IntOp.cmpi .ne r 0#32)) (IntOp.addi r d) r

/-- On the words of 0 … 511 it is the remainder of the number: such a word is not negative, the divisor 32 is neither 0 nor −1, so the signed remainder is the unsigned one and needs no repair. Checked at each of the 512 words. -/
theorem remFix_lt : ∀ n : Fin 512, remFix (BitVec.ofNat 32 n.val) = BitVec.ofNat 32 (n.val % 32) := by
  decide +kernel

/-- At the number of segment s of image b it is the word of s. -/
theorem remFix_gseg (b : Fin 16) (s : Fin 32) :
    remFix (BitVec.ofNat 32 (Cert.Pixels.gseg b s).val) = BitVec.ofNat 32 s.val := by
  rw [remFix_lt]
  refine congrArg (BitVec.ofNat 32) ?_
  show (32 * b.val + s.val) % 32 = s.val
  have := s.isLt
  omega

/-! ## One segment's entry, as scalar functions -/

/-- The bit of "s is not segment 0". -/
def notBgBit (s : Fin 32) : BitVec 1 := ~~~ (IntOp.cmpi .eq (BitVec.ofNat 32 s.val) 0#32)

/-- The sample variance from a count, a sum and a sum of squares. -/
def varEntry (c x xx : Ideal .f32) : Ideal .f32 :=
  FloatOps.hostDivf
    (FloatOps.subf xx (FloatOps.hostDivf (FloatOps.mulf x x) (FloatOps.maximumf c (FloatOps.ofBits .f32 0x3F800000#32))))
    (FloatOps.maximumf (FloatOps.subf c (FloatOps.ofBits .f32 0x3F800000#32)) (FloatOps.ofBits .f32 0x3F800000#32))

/-- The bit of a segment that counts: at least 50 pixels, and the given "not segment 0" bit. -/
def validEntry (c : Ideal .f32) (nb : BitVec 1) : BitVec 1 :=
  IntOp.andi (FloatOps.cmpf .oge c (FloatOps.ofBits .f32 0x42480000#32)) nb

/-- The two variances added where the segment counts, 0 elsewhere. -/
def maskedEntry (c su suu sv svv : Ideal .f32) (nb : BitVec 1) : Ideal .f32 :=
  Scalar.select (validEntry c nb) (FloatOps.addf (varEntry c su suu) (varEntry c sv svv)) (FloatOps.ofBits .f32 0x00000000#32)

/-- 1 where the segment counts, 0 elsewhere. -/
def countEntry (c : Ideal .f32) (nb : BitVec 1) : Ideal .f32 := FloatOps.uitofp .f32 (validEntry c nb)

/-! ## The [16, 32] side, entry by entry -/

section KSide
open Cert.KernelIdeal Cert.KernelIdeal.Hand

theorem notBg16_apply (b : Fin 16) (s : Fin 32) : notBg16 (ix2 b s) = notBgBit s := rfl

theorem validK_apply (c : FVec Ideal S16x32 .f32) (b : Fin 16) (s : Fin 32) :
    Cert.KernelIdeal.Hand.valid c (ix2 b s) = validEntry (c (ix2 b s)) (notBgBit s) := rfl

theorem maskedK_apply (c su suu sv svv : FVec Ideal S16x32 .f32) (b : Fin 16) (s : Fin 32) :
    Cert.KernelIdeal.Hand.masked c su suu sv svv (ix2 b s)
      = maskedEntry (c (ix2 b s)) (su (ix2 b s)) (suu (ix2 b s)) (sv (ix2 b s)) (svv (ix2 b s)) (notBgBit s) := rfl

theorem countK_apply (c : FVec Ideal S16x32 .f32) (b : Fin 16) (s : Fin 32) :
    uitofp (F := Ideal) .f32 (Cert.KernelIdeal.Hand.valid c) (ix2 b s) = countEntry (c (ix2 b s)) (notBgBit s) := rfl

end KSide

/-! ## The [512] side, entry by entry -/

section RSide
open Cert.ReferenceIdeal Cert.ReferenceIdeal.Hand

/-- The remainder stage at entry n is the repaired remainder of the word of n. -/
theorem segMod_apply (n : Fin 512) : segMod (ix1 n) = remFix (BitVec.ofNat 32 n.val) := rfl

/-- The "not background" bit at the entry of segment s of image b is the bit of "s is not segment 0". -/
theorem notBgR_apply (b : Fin 16) (s : Fin 32) :
    noti Cert.ReferenceIdeal.Hand.isBg (ix1 (Cert.Pixels.gseg b s)) = notBgBit s := by
  show ~~~ (IntOp.cmpi .eq (segMod (ix1 (Cert.Pixels.gseg b s))) 0#32) = notBgBit s
  rw [segMod_apply, remFix_gseg]
  rfl

theorem validR_apply (c : FVec Ideal S512 .f32) (b : Fin 16) (s : Fin 32) :
    Cert.ReferenceIdeal.Hand.valid c (ix1 (Cert.Pixels.gseg b s))
      = validEntry (c (ix1 (Cert.Pixels.gseg b s))) (notBgBit s) := by
  show IntOp.andi (FloatOps.cmpf .oge (c (ix1 (Cert.Pixels.gseg b s))) (FloatOps.ofBits .f32 0x42480000#32))
      (noti Cert.ReferenceIdeal.Hand.isBg (ix1 (Cert.Pixels.gseg b s))) = _
  rw [notBgR_apply]
  rfl

theorem maskedR_apply (c su suu sv svv : FVec Ideal S512 .f32) (b : Fin 16) (s : Fin 32) :
    Cert.ReferenceIdeal.Hand.masked c su suu sv svv (ix1 (Cert.Pixels.gseg b s))
      = maskedEntry (c (ix1 (Cert.Pixels.gseg b s))) (su (ix1 (Cert.Pixels.gseg b s))) (suu (ix1 (Cert.Pixels.gseg b s)))
          (sv (ix1 (Cert.Pixels.gseg b s))) (svv (ix1 (Cert.Pixels.gseg b s))) (notBgBit s) := by
  show Scalar.select (Cert.ReferenceIdeal.Hand.valid c (ix1 (Cert.Pixels.gseg b s)))
      (FloatOps.addf (varEntry (c (ix1 (Cert.Pixels.gseg b s))) (su (ix1 (Cert.Pixels.gseg b s))) (suu (ix1 (Cert.Pixels.gseg b s))))
        (varEntry (c (ix1 (Cert.Pixels.gseg b s))) (sv (ix1 (Cert.Pixels.gseg b s))) (svv (ix1 (Cert.Pixels.gseg b s)))))
      (FloatOps.ofBits .f32 0x00000000#32) = _
  rw [validR_apply]
  rfl

theorem countR_apply (c : FVec Ideal S512 .f32) (b : Fin 16) (s : Fin 32) :
    validF c (ix1 (Cert.Pixels.gseg b s)) = countEntry (c (ix1 (Cert.Pixels.gseg b s))) (notBgBit s) := by
  show FloatOps.uitofp .f32 (Cert.ReferenceIdeal.Hand.valid c (ix1 (Cert.Pixels.gseg b s))) = _
  rw [validR_apply]
  rfl

end RSide

/-! ## The two sums, and the result -/

/-- The last steps as one function of the sum of the masked variances and the number of segments that count. -/
def finish (tot n : FVec Ideal (⟨0, ![]⟩ : Shape) .f32) : FVec Ideal (⟨0, ![]⟩ : Shape) .f32 :=
  select (cmpf .ogt n (constant (⟨0, ![]⟩ : Shape) .f32 0x00000000#32))
    (Host.divf tot (maximumf n (constant (⟨0, ![]⟩ : Shape) .f32 0x3F800000#32)))
    (constant (⟨0, ![]⟩ : Shape) .f32 0x00000000#32)

theorem tailK16_eq (c su suu sv svv : FVec Ideal Cert.KernelIdeal.S16x32 .f32) :
    Cert.KernelIdeal.Hand.tailK16 (F := Ideal) c su suu sv svv
      = finish (Cert.KernelIdeal.Hand.total c su suu sv svv) (Cert.KernelIdeal.Hand.nValid c) := rfl

theorem tailR_eq (c su suu sv svv : FVec Ideal Cert.ReferenceIdeal.S512 .f32) :
    Cert.ReferenceIdeal.Hand.tailR (F := Ideal) c su suu sv svv
      = finish (Cert.ReferenceIdeal.Hand.total c su suu sv svv) (Cert.ReferenceIdeal.Hand.nValid c) := rfl

/-- From counts and sums that agree segment by segment, the two pipelines give the same result. -/
theorem tails_agree (c su suu sv svv : FVec Ideal Cert.KernelIdeal.S16x32 .f32)
    (c' su' suu' sv' svv' : FVec Ideal Cert.ReferenceIdeal.S512 .f32)
    (hc : ∀ (b : Fin 16) (s : Fin 32), c (ValueIdx.ix2 b s) = c' (ValueIdx.ix1 (Cert.Pixels.gseg b s)))
    (hsu : ∀ (b : Fin 16) (s : Fin 32), su (ValueIdx.ix2 b s) = su' (ValueIdx.ix1 (Cert.Pixels.gseg b s)))
    (hsuu : ∀ (b : Fin 16) (s : Fin 32), suu (ValueIdx.ix2 b s) = suu' (ValueIdx.ix1 (Cert.Pixels.gseg b s)))
    (hsv : ∀ (b : Fin 16) (s : Fin 32), sv (ValueIdx.ix2 b s) = sv' (ValueIdx.ix1 (Cert.Pixels.gseg b s)))
    (hsvv : ∀ (b : Fin 16) (s : Fin 32), svv (ValueIdx.ix2 b s) = svv' (ValueIdx.ix1 (Cert.Pixels.gseg b s))) :
    Cert.KernelIdeal.Hand.tailK16 (F := Ideal) c su suu sv svv
      = Cert.ReferenceIdeal.Hand.tailR (F := Ideal) c' su' suu' sv' svv' := by
  have hmasked : Agree (Cert.KernelIdeal.Hand.masked c su suu sv svv) (Cert.ReferenceIdeal.Hand.masked c' su' suu' sv' svv') := by
    intro b s
    rw [maskedK_apply, maskedR_apply, hc b s, hsu b s, hsuu b s, hsv b s, hsvv b s]
  have hcount : Agree (uitofp (F := Ideal) .f32 (Cert.KernelIdeal.Hand.valid c)) (Cert.ReferenceIdeal.Hand.validF c') := by
    intro b s
    rw [countK_apply, countR_apply, hc b s]
  have htotal : Cert.KernelIdeal.Hand.total c su suu sv svv = Cert.ReferenceIdeal.Hand.total c' su' suu' sv' svv' :=
    reduce_agree _ _ _ _ _ _ _ _ hmasked rfl
  have hn : Cert.KernelIdeal.Hand.nValid c = Cert.ReferenceIdeal.Hand.nValid c' :=
    reduce_agree _ _ _ _ _ _ _ _ hcount rfl
  rw [tailK16_eq, tailR_eq, htotal, hn]

end Cert.Tails

end
-- ==== Proof.Bridge.lean ====
/-
  The two programs' results are one number.

  The kernel program ends at its host tail applied to the statistics and count arrays the grid accumulated; the reference
  at its host tail applied to its five segment sums. Entry by entry the leaves agree — the count of segment s of image b
  on both sides is the number of pixels of that image whose word is s, a statistics row pair adds up to the segment's sum
  of a flow component or of its square (the second row of each pair is identically zero on finite input) — and the two tails
  are the same scalar pipeline laid out over [16, 32] and over [512].
-/
import proofs.«424109_j8529805050142_3_alg».proof.Proof.KIValue
import proofs.«424109_j8529805050142_3_alg».proof.Proof.KIAccum
import proofs.«424109_j8529805050142_3_alg».proof.Proof.RefSegments
import proofs.«424109_j8529805050142_3_alg».proof.Proof.TailsAgree

noncomputable section

namespace Cert.Bridge

open Idealize.ShloMosaic Idealize.ShloMosaic.TcCoe Idealize.SL.Sem

/-- On finite flow and in-range segment words, the kernel program's tail of its two result arrays is the reference's
    result term of the same arguments. -/
theorem result_agree (m : (ℓ : Loc Cert.KernelIdeal.nD Cert.KernelIdeal.τ Cert.KernelIdeal.sig) → Buf (Elt Ideal) ℓ)
    (c : Dev Cert.KernelIdeal.nD)
    (hfin : Cert.Pixels.Finite (m ((c.tc : Thread Cert.KernelIdeal.nD Cert.KernelIdeal.τ).loc Cert.KernelIdeal.main_arg0)))
    (hrange : Cert.Pixels.InRange (m ((c.tc : Thread Cert.KernelIdeal.nD Cert.KernelIdeal.τ).loc Cert.KernelIdeal.main_arg1))) :
    Cert.KernelIdeal.Hand.tailK (F := Ideal) (Cert.KernelIdeal.Hand.statsRes m c) (Cert.KernelIdeal.Hand.cntRes m c)
      = Cert.ReferenceIdeal.Hand.refResult (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  unfold Cert.KernelIdeal.Hand.tailK Cert.ReferenceIdeal.Hand.refResult
  exact Cert.Tails.tails_agree _ _ _ _ _ _ _ _ _ _
    (fun b s => (Cert.KernelIdeal.Hand.cnt_final m c b s).trans (Cert.ReferenceIdeal.Hand.segCnt_apply _ hrange b s).symm)
    (fun b s => (Cert.KernelIdeal.Hand.rowsSum0_apply _ b s).trans
      ((Cert.KernelIdeal.Hand.stats_u m c hfin b s).trans (Cert.ReferenceIdeal.Hand.segU_apply _ _ hrange b s).symm))
    (fun b s => (Cert.KernelIdeal.Hand.rowsSum1_apply _ b s).trans
      ((Cert.KernelIdeal.Hand.stats_uu m c hfin b s).trans (Cert.ReferenceIdeal.Hand.segUU_apply _ _ hrange b s).symm))
    (fun b s => (Cert.KernelIdeal.Hand.rowsSum2_apply _ b s).trans
      ((Cert.KernelIdeal.Hand.stats_v m c hfin b s).trans (Cert.ReferenceIdeal.Hand.segV_apply _ _ hrange b s).symm))
    (fun b s => (Cert.KernelIdeal.Hand.rowsSum3_apply _ b s).trans
      ((Cert.KernelIdeal.Hand.stats_vv m c hfin b s).trans (Cert.ReferenceIdeal.Hand.segVV_apply _ _ hrange b s).symm))

end Cert.Bridge

end
-- ==== Proof.lean ====
/-
  The certificate of the segment-variance kernel against its reference.

  The kernel program: per image and segment id, a one-hot matrix product accumulates over 16 blocks of 32768 pixels the sums of
  the two flow components and of their squares (each split into a bf16 head and a remainder, the remainder vanishing over
  the reals), and a lane sum the pixel count; host operations then form each segment's two unbiased variances, keep the
  segments with at least 50 pixels that are not background, and return the mean of the kept sums of variances (0 if none is kept).
  The reference forms the same five sums with segment sums over the global ids 32·image + id and applies the same formulas
  over 512 segments. The claim holds where every flow entry is finite and every segment word lies in the label range [0, 32)
  the reference states: outside it the reference counts a pixel into another image's segment, which the kernel never does.

  The three frames are the programs' runs with the results dropped; the idealization's five rewrites are bf16 round trips, the
  identity over the reals; the two results agree by `Cert.Bridge.result_agree`.
-/
import proofs.«424109_j8529805050142_3_alg».proof.Defs
import proofs.«424109_j8529805050142_3_alg».proof.Proof.Gen.Kernel
import proofs.«424109_j8529805050142_3_alg».proof.Proof.Gen.KernelIdeal
import proofs.«424109_j8529805050142_3_alg».proof.Proof.Gen.ReferenceIdeal
import proofs.«424109_j8529805050142_3_alg».proof.Proof.Gen.Pre_finite_inputs
import proofs.«424109_j8529805050142_3_alg».proof.Proof.KBFrame
import proofs.«424109_j8529805050142_3_alg».proof.Proof.KIFrame
import proofs.«424109_j8529805050142_3_alg».proof.Proof.KIValue
import proofs.«424109_j8529805050142_3_alg».proof.Proof.RefRun
import proofs.«424109_j8529805050142_3_alg».proof.Proof.PreDecode
import proofs.«424109_j8529805050142_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

/-- Each of the five rewrites removed a round trip through bf16, which is the identity where a float is a real number. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16⟩

/-- Both programs run; the kernel program's result is its tail of the accumulated arrays, the reference's its result term of
    the same arguments, and the two are equal under the precondition. -/
theorem algebraic : Cert.algebraic_KernelIdeal_ReferenceIdeal := by
  intro m ρ m' ρ' hpre hagree
  refine ⟨fun c => Cert.KernelIdeal.Hand.tailK (F := Ideal) (Cert.KernelIdeal.Hand.statsRes m c) (Cert.KernelIdeal.Hand.cntRes m c),
    Cert.KernelIdeal.Hand.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  obtain ⟨hfin, hrange⟩ := Cert.PreDecode.of_pre _ _ (hpre c)
  exact (Cert.Bridge.result_agree m c hfin hrange).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
